-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x4096 : Shape := ⟨2, ![5000, 4096]⟩
abbrev S4096x80 : Shape := ⟨2, ![4096, 80]⟩
abbrev S80 : Shape := ⟨1, ![80]⟩
abbrev S_ : Shape := ⟨0, ![]⟩

class Facts : Prop where
  bcast_S_S5000x4096 : S_.BroadcastsInDim S5000x4096 (![] : Fin 0 → Fin S5000x4096.rank)
  reducesTo_S5000x4096_S_d0_1 : S5000x4096.ReducesTo [0, 1] S_
  h_S_ : 0 < S_.numel
  bcast_S_S4096x80 : S_.BroadcastsInDim S4096x80 (![] : Fin 0 → Fin S4096x80.rank)
  reducesTo_S4096x80_S_d0_1 : S4096x80.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S4096x80 1) : IVec S_ 1 :=
  let main_c_5 : IVec S_ 1 := constantI S_ 1 1#1
  let main_v17 : IVec S_ 1 := (fun x v => Host.reduce IntOp.andi x v reducesTo_S4096x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S5000x4096 .f32) (main_arg1 : FVec F S4096x80 .f32) (main_arg2 : FVec F S80 .f32) (main_arg3 : FVec F S4096x80 .f32) (main_arg4 : FVec F S80 .f32) : IVec S_ 1 :=
  let main_v0 : FVec F S5000x4096 .f32 := Host.absf main_arg0
  let main_cst : FVec F S_ .f32 := constant S_ .f32 0x7F800000#32
  let main_v1 : FVec F S5000x4096 .f32 := broadcastInDim S5000x4096 ![] bcast_S_S5000x4096 main_cst
  let main_v2 : IVec S5000x4096 1 := cmpf .olt main_v0 main_v1
  let main_c : IVec S_ 1 := constantI S_ 1 1#1
  let main_v3 : IVec S_ 1 := (fun x v => Host.reduce IntOp.andi x v reducesTo_S5000x4096_S_d0_1 h_S_) main_v2 main_c
  let main_v4 : FVec F S4096x80 .f32 := Host.absf main_arg1
  let main_cst_0 : FVec F S_ .f32 := constant S_ .f32 0x7F800000#32
  let main_v5 : FVec F S4096x80 .f32 := broadcastInDim S4096x80 ![] bcast_S_S4096x80 main_cst_0
  let main_v6 : IVec S4096x80 1 := cmpf .olt main_v4 main_v5
  let main_c_1 : IVec S_ 1 := constantI S_ 1 1#1
  let main_v7 : IVec S_ 1 := (fun x v => Host.reduce IntOp.andi x v reducesTo_S4096x80_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S4096x80 .f32 := Host.absf main_arg3
  let main_cst_4 : FVec F S_ .f32 := constant S_ .f32 0x7F800000#32
  let main_v15 : FVec F S4096x80 .f32 := broadcastInDim S4096x80 ![] bcast_S_S4096x80 main_cst_4
  let main_v16 : IVec S4096x80 1 := cmpf .olt main_v14 main_v15
  fn_part1 (F := F) main_arg4 main_v13 main_v16
-- ==== Kernel.lean ====
abbrev S5000x4096 : Shape := ⟨2, ![5000, 4096]⟩
abbrev S4096x80 : Shape := ⟨2, ![4096, 80]⟩
abbrev S80 : Shape := ⟨1, ![80]⟩
abbrev S1x80 : Shape := ⟨2, ![1, 80]⟩
abbrev S5000x80 : Shape := ⟨2, ![5000, 80]⟩
abbrev S1000x4096 : Shape := ⟨2, ![1000, 4096]⟩
abbrev S1000x80 : Shape := ⟨2, ![1000, 80]⟩
abbrev S1000 : Shape := ⟨1, ![1000]⟩
abbrev S1000x1 : Shape := ⟨2, ![1000, 1]⟩

abbrev nBuf : Space → Nat
  | .hbm => 10
  | .vmem => 10
  | .smem => 0
  | _ => 0

abbrev bufTy : (tb : Table) → Fin (tcTables nBuf tb) → BufTy
  | .hbm, ⟨0, _⟩ => ⟨S5000x4096, .f32⟩
  | .hbm, ⟨1, _⟩ => ⟨S4096x80, .f32⟩
  | .hbm, ⟨2, _⟩ => ⟨S80, .f32⟩
  | .hbm, ⟨3, _⟩ => ⟨S4096x80, .f32⟩
  | .hbm, ⟨4, _⟩ => ⟨S80, .f32⟩
  | .hbm, ⟨5, _⟩ => ⟨S1x80, .f32⟩
  | .hbm, ⟨6, _⟩ => ⟨S1x80, .f32⟩
  | .hbm, ⟨7, _⟩ => ⟨S4096x80, .bf16⟩
  | .hbm, ⟨8, _⟩ => ⟨S4096x80, .bf16⟩
  | .hbm, ⟨9, _⟩ => ⟨S5000x80, .f32⟩
  | .local _ .vmem, ⟨0, _⟩ => ⟨S1000x4096, .f32⟩
  | .local _ .vmem, ⟨1, _⟩ => ⟨S1000x4096, .f32⟩
  | .local _ .vmem, ⟨2, _⟩ => ⟨S4096x80, .bf16⟩
  | .local _ .vmem, ⟨3, _⟩ => ⟨S1x80, .f32⟩
  | .local _ .vmem, ⟨4, _⟩ => ⟨S4096x80, .bf16⟩
  | .local _ .vmem, ⟨5, _⟩ => ⟨S1x80, .f32⟩
  | .local _ .vmem, ⟨6, _⟩ => ⟨S5000x80, .f32⟩
  | .local _ .vmem, ⟨7, _⟩ => ⟨S5000x80, .f32⟩
  | .local _ .vmem, ⟨8, _⟩ => ⟨S1x80, .f32⟩
  | .local _ .vmem, ⟨9, _⟩ => ⟨S1x80, .f32⟩
  | _, _ => ⟨S5000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let c1000_i32 : BitVec 32 := 1000#32
  let v24 : BitVec 32 := Scalar.muli arg0 c1000_i32
  let v25 : Index := Scalar.indexCast v24
  let c0_12 : Index := 0#32
  ![v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x80 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x80 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5000x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S80_S1x80 : S80.ShapeCasts S1x80
  bitsLt_bf16_f32 : FTy.bits .bf16 < FTy.bits .f32
  inb_S1000x4096_S1000x4096_0_0 : ∀ a, (![0, 0] : Fin 2 → Nat) a + S1000x4096.size a ≤ S1000x4096.size a
  h_S1000x4096 : 0 < S1000x4096.numel
  inb_S4096x80_S4096x80_0_0 : ∀ a, (![0, 0] : Fin 2 → Nat) a + S4096x80.size a ≤ S4096x80.size a
  h_S4096x80 : 0 < S4096x80.numel
  shapeCasts_S4096x80_S4096x80 : S4096x80.ShapeCasts S4096x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S1000x80 : S1x80.Broadcasts S1000x80
  reduces_S1000x80_S1000 : S1000x80.Reduces [1] S1000
  shapeCasts_S1000_S1000x1 : S1000.ShapeCasts S1000x1
  broadcasts_S1000x1_S1000x80 : S1000x1.Broadcasts S1000x80
  h_S1000x80 : 0 < S1000x80.numel
  shapeCasts_S1000x80_S1000x80 : S1000x80.ShapeCasts S1000x80
  reduces_S1000x80_S80 : S1000x80.Reduces [0] S80
  inb_S5000x80_S5000x80_0_0 : ∀ a, (![0, 0] : Fin 2 → Nat) a + S5000x80.size a ≤ S5000x80.size a
  h_S5000x80 : 0 < S5000x80.numel
  shapeCasts_S5000x80_S5000x80 : S5000x80.ShapeCasts S5000x80
  broadcasts_S1x80_S5000x80 : S1x80.Broadcasts S5000x80
  dot_S1000x4096_S4096x80_S1000x80_1_0_0_1_n_n_wf : DotDims.WF S1000x4096 S4096x80 S1000x80 [1] [0] [0] [1] [] []
  hrank0 : 0 < grid0.rank
  k0_off1_inb : ∀ i : grid0.Coords, ∀ a, (k0_off1 i) a + S1000x80.size a ≤ S5000x80.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4096.size a ≤ S5000x4096.size a
  hwx0_0 : ∀ i : grid0.Coords, EltTy.bits .f32 = 32 ∨ (Rect.block (s := S5000x4096) S1000x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x80.size a ≤ S4096x80.size a
  hwx0_1 : ∀ i : grid0.Coords, EltTy.bits .bf16 = 32 ∨ (Rect.block (s := S4096x80) S4096x80.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x80.size a ≤ S4096x80.size a
  hwx0_3 : ∀ i : grid0.Coords, EltTy.bits .bf16 = 32 ∨ (Rect.block (s := S4096x80) S4096x80.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x80.size a ≤ S1x80.size a
  hwx0_4 : ∀ i : grid0.Coords, EltTy.bits .f32 = 32 ∨ (Rect.block (s := S1x80) S1x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5000x80.size a ≤ S5000x80.size a
  hwx0_5 : ∀ i : grid0.Coords, EltTy.bits .f32 = 32 ∨ (Rect.block (s := S5000x80) S5000x80.size (cc0_transform_5 i) (hinb0_5 i)).WholeWords (EltTy.packing .f32)

variable [Facts₀]

def dot_S1000x4096_S4096x80_S1000x80_1_0_0_1_n_n : DotDims S1000x4096 S4096x80 S1000x80 where
  lhsContracting := [1]
  rhsContracting := [0]
  lhsNonContracting := [0]
  rhsNonContracting := [1]
  lhsBatch := []
  rhsBatch := []
  wf := dot_S1000x4096_S4096x80_S1000x80_1_0_0_1_n_n_wf

abbrev win0_0 : Pipeline.Window sig grid0 :=
  Pipeline.Window.ofSpec (Memref.whole main_arg0) S1000x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S4096x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S4096x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x80.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S5000x4096 : Shape := ⟨2, ![5000, 4096]⟩
abbrev S4096x80 : Shape := ⟨2, ![4096, 80]⟩
abbrev S80 : Shape := ⟨1, ![80]⟩
abbrev S5000x80 : Shape := ⟨2, ![5000, 80]⟩
abbrev S1x80 : Shape := ⟨2, ![1, 80]⟩
abbrev S_ : Shape := ⟨0, ![]⟩
abbrev S5000 : Shape := ⟨1, ![5000]⟩
abbrev S5000x1 : Shape := ⟨2, ![5000, 1]⟩

abbrev nBuf : Space → Nat
  | .hbm => 42
  | .vmem => 0
  | .smem => 0
  | _ => 0

abbrev bufTy : (tb : Table) → Fin (tcTables nBuf tb) → BufTy
  | .hbm, ⟨0, _⟩ => ⟨S5000x4096, .f32⟩
  | .hbm, ⟨1, _⟩ => ⟨S4096x80, .f32⟩
  | .hbm, ⟨2, _⟩ => ⟨S80, .f32⟩
  | .hbm, ⟨3, _⟩ => ⟨S4096x80, .f32⟩
  | .hbm, ⟨4, _⟩ => ⟨S80, .f32⟩
  | .hbm, ⟨5, _⟩ => ⟨S5000x80, .f32⟩
  | .hbm, ⟨6, _⟩ => ⟨S1x80, .f32⟩
  | .hbm, ⟨7, _⟩ => ⟨S5000x80, .f32⟩
  | .hbm, ⟨8, _⟩ => ⟨S5000x80, .f32⟩
  | .hbm, ⟨9, _⟩ => ⟨S5000x80, .f32⟩
  | .hbm, ⟨10, _⟩ => ⟨S1x80, .f32⟩
  | .hbm, ⟨11, _⟩ => ⟨S5000x80, .f32⟩
  | .hbm, ⟨12, _⟩ => ⟨S5000x80, .f32⟩
  | .hbm, ⟨13, _⟩ => ⟨S_, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S5000x1, .f32⟩
  | .hbm, ⟨19, _⟩ => ⟨S5000x80, .f32⟩
  | .hbm, ⟨20, _⟩ => ⟨S5000x80, .f32⟩
  | .hbm, ⟨21, _⟩ => ⟨S5000x80, .f32⟩
  | .hbm, ⟨22, _⟩ => ⟨S_, .f32⟩
  | .hbm, ⟨23, _⟩ => ⟨S5000, .f32⟩
  | .hbm, ⟨24, _⟩ => ⟨S5000x1, .f32⟩
  | .hbm, ⟨25, _⟩ => ⟨S5000x80, .f32⟩
  | .hbm, ⟨26, _⟩ => ⟨S5000x80, .f32⟩
  | .hbm, ⟨27, _⟩ => ⟨S_, .f32⟩
  | .hbm, ⟨28, _⟩ => ⟨S80, .f32⟩
  | .hbm, ⟨29, _⟩ => ⟨S_, .f32⟩
  | .hbm, ⟨30, _⟩ => ⟨S80, .f32⟩
  | .hbm, ⟨31, _⟩ => ⟨S80, .f32⟩
  | .hbm, ⟨32, _⟩ => ⟨S1x80, .f32⟩
  | .hbm, ⟨33, _⟩ => ⟨S5000x80, .f32⟩
  | .hbm, ⟨34, _⟩ => ⟨S5000x80, .f32⟩
  | .hbm, ⟨35, _⟩ => ⟨S5000x80, .f32⟩
  | .hbm, ⟨36, _⟩ => ⟨S_, .f32⟩
  | .hbm, ⟨37, _⟩ => ⟨S80, .f32⟩
  | .hbm, ⟨38, _⟩ => ⟨S1x80, .f32⟩
  | .hbm, ⟨39, _⟩ => ⟨S5000x80, .f32⟩
  | .hbm, ⟨40, _⟩ => ⟨S5000x80, .f32⟩
  | .hbm, ⟨41, _⟩ => ⟨S5000x80, .f32⟩
  | _, _ => ⟨S5000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S80_S1x80_1 : S80.BroadcastsInDim S1x80 (![1] : Fin 1 → Fin S1x80.rank)
  bcast_S1x80_S5000x80_0_1 : S1x80.BroadcastsInDim S5000x80 (![0, 1] : Fin 2 → Fin S5000x80.rank)
  reducesTo_S5000x80_S5000_d1 : S5000x80.ReducesTo [1] S5000
  h_S_ : 0 < S_.numel
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x80_0_1 : S5000x1.BroadcastsInDim S5000x80 (![0, 1] : Fin 2 → Fin S5000x80.rank)
  reducesTo_S5000x80_S80_d0 : S5000x80.ReducesTo [0] S80
  bcast_S_S80 : S_.BroadcastsInDim S80 (![] : Fin 0 → Fin S80.rank)
  dot_S5000x4096_S4096x80_S5000x80_1_0_0_1_n_n_wf : DotDims.WF S5000x4096 S4096x80 S5000x80 [1] [0] [0] [1] [] []

variable [Facts₀]

def dot_S5000x4096_S4096x80_S5000x80_1_0_0_1_n_n : DotDims S5000x4096 S4096x80 S5000x80 where
  lhsContracting := [1]
  rhsContracting := [0]
  lhsNonContracting := [0]
  rhsNonContracting := [1]
  lhsBatch := []
  rhsBatch := []
  wf := dot_S5000x4096_S4096x80_S5000x80_1_0_0_1_n_n_wf

class Facts : Prop extends Facts₀ where

variable [Facts]
-- ==== Proof.BitsState.lean ====
/-
  What the kernel's buffers hold point by point, as pure functions of the launch memory.

  At grid point t the body sees block t of the features (1000 rows) and both heads' weights and biases whole. From
  them it forms the class-stream softmax of those 1000 rows (stored into rows [1000 t, 1000 t + 1000) of the result
  block), the detection-stream logits of those rows (stored into the same rows of a logits buffer), and their column
  maxima. Two one-row buffers carry, from point to point, the running column maximum and the running column sum of
  exponentials: set at the first point, updated at every later one.
-/
import proofs.«136734_g55722905698378_cont_9to1_m_658_7_alg».proof.Proof.Gen.Kernel.Frame
import proofs.«136734_g55722905698378_cont_9to1_m_658_7_alg».proof.Proof.Gen.Kernel.Skeleton

noncomputable section

namespace Cert.Kernel.St

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The class-stream softmax of the rows of block t. -/
def cB (c : Dev nD) (t : Fin cfg0.N) : Vec F S1000x80 .f32 := k0_pay8 (iblk m c 0 t) (iblk m c 1 t) (iblk m c 2 t)

/-- The detection-stream logits of the rows of block t. -/
def ldB (c : Dev nD) (t : Fin cfg0.N) : Vec F S1000x80 .f32 := k0_pay7 (iblk m c 0 t) (iblk m c 3 t) (iblk m c 4 t)

/-- The same as stored into the logits buffer. -/
def ldS (c : Dev nD) (t : Fin cfg0.N) : Vec F S1000x80 .f32 := k0_pay9 (iblk m c 0 t) (iblk m c 3 t) (iblk m c 4 t)

/-- The column maxima of block t's detection logits. -/
def cmB (c : Dev nD) (t : Fin cfg0.N) : Vec F S1x80 .f32 := k0_pay10 (iblk m c 0 t) (iblk m c 3 t) (iblk m c 4 t)

/-- The running column maximum and the running column sum after point n. -/
def MS (c : Dev nD) : (n : ℕ) → n < cfg0.N → Vec F S1x80 .f32 × Vec F S1x80 .f32
  | 0, h => (k0_pay1 (cmB m c ⟨0, h⟩), k0_pay2 (ldB m c ⟨0, h⟩) (cmB m c ⟨0, h⟩))
  | n + 1, h =>
    (k0_pay4 (cmB m c ⟨n + 1, h⟩) (MS c n (Nat.lt_of_succ_lt h)).1,
     k0_pay5 (ldB m c ⟨n + 1, h⟩) (cmB m c ⟨n + 1, h⟩) (MS c n (Nat.lt_of_succ_lt h)).1 (MS c n (Nat.lt_of_succ_lt h)).2)

theorem MS_zero (c : Dev nD) (h : 0 < cfg0.N) :
    MS m c 0 h = (k0_pay1 (cmB m c ⟨0, h⟩), k0_pay2 (ldB m c ⟨0, h⟩) (cmB m c ⟨0, h⟩)) := rfl

theorem MS_succ (c : Dev nD) (n : ℕ) (h : n + 1 < cfg0.N) :
    MS m c (n + 1) h = (k0_pay4 (cmB m c ⟨n + 1, h⟩) (MS m c n (Nat.lt_of_succ_lt h)).1,
      k0_pay5 (ldB m c ⟨n + 1, h⟩) (cmB m c ⟨n + 1, h⟩) (MS m c n (Nat.lt_of_succ_lt h)).1 (MS m c n (Nat.lt_of_succ_lt h)).2) := rfl

/-- The result block the last point leaves, from the block O of class-stream softmaxes and the buffer L of detection logits
    it finds: O · exp(L − running maximum) / running sum, with the running values after the last point. -/
def fin (c : Dev nD) (hN : 4 < cfg0.N) (O L : Vec F S5000x80 .f32) : Vec F S5000x80 .f32 :=
  k0_pay6 (MS m c 4 hN).1 (MS m c 4 hN).2 O L

end Cert.Kernel.St

end
-- ==== Proof.BitsRuns.lean ====
/-
  The kernel body run once per control case.

  The body branches three times on the grid coordinate: at the first block it sets the running column maximum and
  sum; at every later block it updates them; at the last block it also rescales the whole result block. Over the
  five-point grid three assignments of the conditions occur: first block; a middle block; last block. In each the body
  is run symbolically on staging memrefs holding named contents; it hands every buffer it stores into back at those
  contents with its stores written over them.
-/
import proofs.«136734_g55722905698378_cont_9to1_m_658_7_alg».proof.Proof.Gen.Kernel.Frame
import proofs.«136734_g55722905698378_cont_9to1_m_658_7_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The branch conditions as the body computes them from the grid coordinate: at the first block, past it, at the last. -/
abbrev isFirst (i : grid0.Coords) : Prop := (Scalar.cmpi .ne (Scalar.extui (Scalar.cmpi .eq (BitVec.ofNat 32 (i 0).val) 0#32)) 0#32) = 1#1
abbrev isLater (i : grid0.Coords) : Prop := (Scalar.cmpi .ne (Scalar.extui (Scalar.cmpi .sgt (BitVec.ofNat 32 (i 0).val) 0#32)) 0#32) = 1#1
abbrev isLast (i : grid0.Coords) : Prop := (Scalar.cmpi .ne (Scalar.extui (Scalar.cmpi .eq (BitVec.ofNat 32 (i 0).val) 4#32)) 0#32) = 1#1
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 4 :=
  (by decide +kernel : ∀ t : Fin grid0.N, isLast (grid0.coords t) ↔ t.val = 4)
/-- The row-block a point stores through starts at row 1000 · t. -/
theorem off_eq : ∀ t : Fin cfg0.N, k0_off1 (grid0.coords t) = ![1000 * t.val, 0] :=
  (by decide +kernel : ∀ t : Fin grid0.N, k0_off1 (grid0.coords t) = ![1000 * t.val, 0])

set_option maxHeartbeats 4000000 in
/-- The body on whole staging memrefs at named contents, in the case where the first-point branch is taken, the later-point branch is not taken and the last-point branch is not taken:
    it runs to the continuation with the inputs as they were and each buffer it stores into at its contents with the stores written over them, newest first. -/
noncomputable def runA (c : Dev nD) (i : grid0.Coords) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst i) (hc1 : ¬isLater i) (hc2 : ¬isLast i)
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    Σ' (L6 L7 : List (View.Piece (Elt F) S5000x80 .f32)) (LS1 : List (View.Piece (Elt F) S1x80 .f32)), { LS2 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y6 ∗ owns (c : Thread nD τ) arg7 fullShare y7 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread y6) L6)
                ∗ (arg7.view.loc (c : Thread nD τ) ↦[arg7.view.set]{fullShare} arg7.view.writes (Elt F) (harg7.unread y7) L7)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__wsddn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexact HS0
    isplitl [HS1]; · iexact HS1
    iexact HS2

set_option maxHeartbeats 4000000 in
/-- The body on whole staging memrefs at named contents, in the case where the first-point branch is not taken, the later-point branch is taken and the last-point branch is not taken:
    it runs to the continuation with the inputs as they were and each buffer it stores into at its contents with the stores written over them, newest first. -/
noncomputable def runB (c : Dev nD) (i : grid0.Coords) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst i) (hc1 : isLater i) (hc2 : ¬isLast i)
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    Σ' (L6 L7 : List (View.Piece (Elt F) S5000x80 .f32)) (LS1 : List (View.Piece (Elt F) S1x80 .f32)), { LS2 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y6 ∗ owns (c : Thread nD τ) arg7 fullShare y7 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread y6) L6)
                ∗ (arg7.view.loc (c : Thread nD τ) ↦[arg7.view.set]{fullShare} arg7.view.writes (Elt F) (harg7.unread y7) L7)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__wsddn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexact HS0
    isplitl [HS1]; · iexact HS1
    iexact HS2

set_option maxHeartbeats 4000000 in
/-- The body on whole staging memrefs at named contents, in the case where the first-point branch is not taken, the later-point branch is taken and the last-point branch is taken:
    it runs to the continuation with the inputs as they were and each buffer it stores into at its contents with the stores written over them, newest first. -/
noncomputable def runC (c : Dev nD) (i : grid0.Coords) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst i) (hc1 : isLater i) (hc2 : isLast i)
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    Σ' (L6 L7 : List (View.Piece (Elt F) S5000x80 .f32)) (LS1 : List (View.Piece (Elt F) S1x80 .f32)), { LS2 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y6 ∗ owns (c : Thread nD τ) arg7 fullShare y7 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread y6) L6)
                ∗ (arg7.view.loc (c : Thread nD τ) ↦[arg7.view.set]{fullShare} arg7.view.writes (Elt F) (harg7.unread y7) L7)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__wsddn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexact HS0
    isplitl [HS1]; · iexact HS1
    iexact HS2

end Cert.Kernel.Body

end
-- ==== Proof.BitsRows.lean ====
/-
  A 5000-row buffer with one block of 1000 rows overwritten.
-/
import proofs.«136734_g55722905698378_cont_9to1_m_658_7_alg».proof.Proof.Gen.Kernel.Launch

noncomputable section

namespace Cert.Kernel.Body

open Cert.Kernel Cert.Kernel.Gen
open Idealize.ShloMosaic Idealize.ShloMosaic.TcCoe Idealize.SL.Sem

variable {F : FTy → Type} [FloatOps F]

/-- X is Y with rows [1000 t, 1000 t + 1000) replaced by the 1000 rows of P: inside those rows X reads P at the
    position within the block, on every other row X reads Y. -/
def RowsSet (t : Fin cfg0.N) (P : Vec F S1000x80 .f32) (Y X : Vec F S5000x80 .f32) : Prop :=
  (∀ (x : S1000x80.Idx) (j : S5000x80.Idx), (j 0).val = 1000 * t.val + (x 0).val → (j 1).val = (x 1).val → X j = P x)
  ∧ (∀ j : S5000x80.Idx, ((j 0).val < 1000 * t.val ∨ 1000 * t.val + 1000 ≤ (j 0).val) → X j = Y j)

end Cert.Kernel.Body

end
-- ==== Proof.BitsData.lean ====
/-
  The pipeline's proof data.

  The result window's staging block is the whole 5000 × 80 result and is written back once, after the last point.
  Each point overwrites only its own 1000 rows of it, so what the block holds after a point is stated as a RELATION to
  what the point found there: the found contents with the point's rows replaced by that block's class-stream softmax;
  and, at the last point, the rescaling of that by the detection stream. The kernel's own buffers are carried by the
  invariant: the logits buffer at some contents whose first rows are the detection logits of the blocks met so far,
  the two one-row buffers at the running column maximum and sum.
-/
import proofs.«136734_g55722905698378_cont_9to1_m_658_7_alg».proof.Proof.BitsState
import proofs.«136734_g55722905698378_cont_9to1_m_658_7_alg».proof.Proof.BitsRuns
import proofs.«136734_g55722905698378_cont_9to1_m_658_7_alg».proof.Proof.BitsRows

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- Each window's current staging memref at point t, as the pipeline passes it to the body, and its wholeness. -/
abbrev ms0 (t : Fin cfg0.N) : Memref sig .tc .vmem S1000x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x80 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x80 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x80 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x80 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S5000x80 .f32 := win0_5.stage (cfg0.slots t 5)
abbrev hs5 (t : Fin cfg0.N) : (ms5 t).IsWhole := hstage0_5 ((cfg0.slots t 5).cast nbuf0_5)
/-- The kernel's own buffers: the logits buffer, the running maximum, the running sum. -/
abbrev sc0 : Memref sig .tc .vmem S5000x80 .f32 := Memref.whole cc0_scratch0
abbrev sc1 : Memref sig .tc .vmem S1x80 .f32 := Memref.whole cc0_scratch1
abbrev sc2 : Memref sig .tc .vmem S1x80 .f32 := Memref.whole cc0_scratch2

theorem hN5 : cfg0.N = 5 := N_0

/-- What the launch hands the region besides the windows: the three buffers at some contents each, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The invariant and the result window's relation -/

/-- A 5000-row buffer whose blocks below n hold P's blocks. -/
def Has (P : Fin cfg0.N → Vec F S1000x80 .f32) (n : ℕ) (L : Vec F S5000x80 .f32) : Prop :=
  ∀ u : Fin cfg0.N, u.val < n → ∀ (x : S1000x80.Idx) (j : S5000x80.Idx),
    (j 0).val = 1000 * u.val + (x 0).val → (j 1).val = (x 1).val → L j = P u x

/-- Overwriting block t of a buffer that has the blocks below t gives one that has the blocks below t + 1. -/
theorem Has.step {P : Fin cfg0.N → Vec F S1000x80 .f32} {t : Fin cfg0.N} {Y X : Vec F S5000x80 .f32}
    (hY : Has P t.val Y) (hX : RowsSet t (P t) Y X) : Has P (t.val + 1) X := by
  intro u hu x j h0 h1
  by_cases hut : u.val = t.val
  · obtain rfl : u = t := Fin.ext hut
    exact hX.1 x j h0 h1
  · have hlt : u.val < t.val := by omega
    have hx := (x 0).isLt
    have : (j 0).val < 1000 * t.val := by
      have : (x 0).val < 1000 := hx
      omega
    rw [hX.2 j (Or.inl this)]
    exact hY u hlt x j h0 h1

theorem Has.zero (P : Fin cfg0.N → Vec F S1000x80 .f32) (L : Vec F S5000x80 .f32) : Has P 0 L :=
  fun u hu => absurd hu (Nat.not_lt_zero _)

/-- The region's invariant before point n: before the first point what the launch hands over; afterwards the logits
    buffer holding the detection logits of the blocks met so far, the running maximum and sum after the point before. -/
def Phi (c : Dev nD) : (n : ℕ) → n ≤ cfg0.N → sProp 𝕄
  | 0, _ => Pipeline.ΦA spec0 c
  | n + 1, hn => iprop(iprop((∃ L, ⌜Has (St.ldS m c) (n + 1) L⌝ ∗ owns (c : Thread nD τ) sc0 fullShare L)
      ∗ owns (c : Thread nD τ) sc1 fullShare (St.MS m c n hn).1 ∗ owns (c : Thread nD τ) sc2 fullShare (St.MS m c n hn).2) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ L, ⌜Has (St.ldS m c) (n + 1) L⌝ ∗ owns (c : Thread nD τ) sc0 fullShare L)
      ∗ owns (c : Thread nD τ) sc1 fullShare (St.MS m c n hn).1 ∗ owns (c : Thread nD τ) sc2 fullShare (St.MS m c n hn).2) ∗ (∃ r, prngReg c r)) := rfl

theorem Phi_pos (c : Dev nD) (n : ℕ) (h : n ≤ cfg0.N) (hz : n ≠ 0) :
    Phi m c n h = iprop(iprop((∃ L, ⌜Has (St.ldS m c) n L⌝ ∗ owns (c : Thread nD τ) sc0 fullShare L)
      ∗ owns (c : Thread nD τ) sc1 fullShare (St.MS m c (n - 1) (by omega)).1 ∗ owns (c : Thread nD τ) sc2 fullShare (St.MS m c (n - 1) (by omega)).2) ∗ (∃ r, prngReg c r)) := by
  cases n with
  | zero => exact absurd rfl hz
  | succ n => rfl

/-- What point t may leave in the result block (X) given what it found there (Y). -/
def rel5 (c : Dev nD) (t : Fin cfg0.N) (Y X : Vec F S5000x80 .f32) : Prop :=
  if h : t.val = 4 then
    ∃ O L : Vec F S5000x80 .f32, RowsSet t (St.cB m c t) Y O ∧ Has (St.ldS m c) 5 L ∧ X = St.fin m c (by rw [hN5]; omega) O L
  else RowsSet t (St.cB m c t) Y X

/-! ## The proof data -/

/-- Exact data for the inputs (each buffer holds its block after the body as before it); the result window named nothing here. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := Phi m c t.val (Nat.le_of_lt_succ t.isLt)
  q _ := fullShare
  owed _ := 0

/-- The result window's relation in place of a name. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some (rel5 m c)

/-- The relational proof data. -/
def rd (c : Dev nD) : RDat τ (Elt F) Unit ℕ (UR sig nD τ) ℕ cfg0 c := (dat0 m c).toR.override (ovr m c)

theorem A_eq (c : Dev nD) (w : Fin cfg0.W) : (rd m c).A w = V m c (Pipeline.arrRef spec0 w) := by
  show (dat0 m c).A w = _
  dsimp only [dat0]

theorem dat0_A (c : Dev nD) (w : Fin cfg0.W) : (dat0 m c).A w = V m c (Pipeline.arrRef spec0 w) := by
  dsimp only [dat0]

theorem after0 (c : Dev nD) (t : Fin cfg0.N) : (dat0 m c).after 0 t = iblk m c 0 t := by dsimp only [dat0]
theorem after1 (c : Dev nD) (t : Fin cfg0.N) : (dat0 m c).after 1 t = iblk m c 1 t := by dsimp only [dat0]
theorem after2 (c : Dev nD) (t : Fin cfg0.N) : (dat0 m c).after 2 t = iblk m c 2 t := by dsimp only [dat0]
theorem after3 (c : Dev nD) (t : Fin cfg0.N) : (dat0 m c).after 3 t = iblk m c 3 t := by dsimp only [dat0]
theorem after4 (c : Dev nD) (t : Fin cfg0.N) : (dat0 m c).after 4 t = iblk m c 4 t := by dsimp only [dat0]

/-- What the body finds in each input's buffer is that window's block. -/
theorem finds0 (c : Dev nD) (t : Fin cfg0.N) (Y) (h : (rd m c).Finds 0 t Y) : Y = iblk m c 0 t := by
  obtain ⟨d, rfl⟩ := (dat0 m c).toR_finds 0 t Y (((dat0 m c).toR.override_finds (ovr := ovr m c) (w := 0) rfl t Y).mp h)
  exact before0_0_of m (dat0 m c) (dat0_A m c 0) (after0 m c) t d
theorem finds1 (c : Dev nD) (t : Fin cfg0.N) (Y) (h : (rd m c).Finds 1 t Y) : Y = iblk m c 1 t := by
  obtain ⟨d, rfl⟩ := (dat0 m c).toR_finds 1 t Y (((dat0 m c).toR.override_finds (ovr := ovr m c) (w := 1) rfl t Y).mp h)
  exact before0_1_of m (dat0 m c) (dat0_A m c 1) (after1 m c) t d
theorem finds2 (c : Dev nD) (t : Fin cfg0.N) (Y) (h : (rd m c).Finds 2 t Y) : Y = iblk m c 2 t := by
  obtain ⟨d, rfl⟩ := (dat0 m c).toR_finds 2 t Y (((dat0 m c).toR.override_finds (ovr := ovr m c) (w := 2) rfl t Y).mp h)
  exact before0_2_of m (dat0 m c) (dat0_A m c 2) (after2 m c) t d
theorem finds3 (c : Dev nD) (t : Fin cfg0.N) (Y) (h : (rd m c).Finds 3 t Y) : Y = iblk m c 3 t := by
  obtain ⟨d, rfl⟩ := (dat0 m c).toR_finds 3 t Y (((dat0 m c).toR.override_finds (ovr := ovr m c) (w := 3) rfl t Y).mp h)
  exact before0_3_of m (dat0 m c) (dat0_A m c 3) (after3 m c) t d
theorem finds4 (c : Dev nD) (t : Fin cfg0.N) (Y) (h : (rd m c).Finds 4 t Y) : Y = iblk m c 4 t := by
  obtain ⟨d, rfl⟩ := (dat0 m c).toR_finds 4 t Y (((dat0 m c).toR.override_finds (ovr := ovr m c) (w := 4) rfl t Y).mp h)
  exact before0_4_of m (dat0 m c) (dat0_A m c 4) (after4 m c) t d

/-- The relation of each window, opened. -/
theorem rd_after0 (c : Dev nD) (t : Fin cfg0.N) (Y X) : (rd m c).after 0 t Y X ↔ X = iblk m c 0 t := by
  show (dat0 m c).Leaves 0 t X ↔ _
  rw [← after0 m c t]; exact Iff.rfl
theorem rd_after1 (c : Dev nD) (t : Fin cfg0.N) (Y X) : (rd m c).after 1 t Y X ↔ X = iblk m c 1 t := by
  show (dat0 m c).Leaves 1 t X ↔ _
  rw [← after1 m c t]; exact Iff.rfl
theorem rd_after2 (c : Dev nD) (t : Fin cfg0.N) (Y X) : (rd m c).after 2 t Y X ↔ X = iblk m c 2 t := by
  show (dat0 m c).Leaves 2 t X ↔ _
  rw [← after2 m c t]; exact Iff.rfl
theorem rd_after3 (c : Dev nD) (t : Fin cfg0.N) (Y X) : (rd m c).after 3 t Y X ↔ X = iblk m c 3 t := by
  show (dat0 m c).Leaves 3 t X ↔ _
  rw [← after3 m c t]; exact Iff.rfl
theorem rd_after4 (c : Dev nD) (t : Fin cfg0.N) (Y X) : (rd m c).after 4 t Y X ↔ X = iblk m c 4 t := by
  show (dat0 m c).Leaves 4 t X ↔ _
  rw [← after4 m c t]; exact Iff.rfl
theorem rd_after5 (c : Dev nD) (t : Fin cfg0.N) (Y X) : (rd m c).after 5 t Y X ↔ rel5 m c t Y X := Iff.rfl

end Cert.Kernel.Body

end
-- ==== Proof.BitsPiecesS.lean ====
/-
  What each control case of the kernel body leaves in the two carried 1 × 80 buffers and in the logits buffer.

  The first block sets the running column maximum and the running sum; every later block replaces them by the updated
  values; every block stores its 1000 rows of detection logits into rows [1000 t, 1000 t + 1000) of the logits buffer.
-/
import proofs.«136734_g55722905698378_cont_9to1_m_658_7_alg».proof.Proof.Gen.Kernel.Frame
import proofs.«136734_g55722905698378_cont_9to1_m_658_7_alg».proof.Proof.Gen.Kernel.Skeleton
import proofs.«136734_g55722905698378_cont_9to1_m_658_7_alg».proof.Proof.BitsRuns
import proofs.«136734_g55722905698378_cont_9to1_m_658_7_alg».proof.Proof.BitsRows
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

theorem hz2 : (![0, 0] : Fin 2 → Nat) = fun _ => 0 := by funext a; fin_cases a <;> rfl

/-- One store through the whole 1 × 80 buffer leaves its payload. -/
theorem read_one_S1x80 {sp : Space} (m : Memref sig .tc sp S1x80 .f32) (f : m.view.ty.Contents (Elt F)) (w : S1x80.Idx → Elt F .f32) :
    m.view.read (Elt F) (m.view.writes (Elt F) f
      [(⟨Rect.unit ![0, 0] S1x80.size inb_S1x80_S1x80_0_0, w⟩ : View.Piece (Elt F) S1x80 .f32)]) = w := by
  rw [View.read_writes_eq_canon _ _ _ (fun y => ⟨_, List.mem_singleton_self _, View.mem_set_unit_zero hz2 inb_S1x80_S1x80_0_0 y⟩)]
  exact View.canon_unit_zero hz2 inb_S1x80_S1x80_0_0 w

/-- One store of 1000 rows through the rectangle that starts at row 1000 t, over a 5000-row buffer at Y: those rows
    read the stored block, every other row reads Y. -/
theorem rowsSet_one {sp : Space} (m : Memref sig .tc sp S5000x80 .f32) (hm : m.IsWhole) (t : Fin cfg0.N) (off : Fin 2 → ℕ)
    (inb : ∀ a : Fin 2, off a + S1000x80.size a ≤ S5000x80.size a) (hoff : off = ![1000 * t.val, 0])
    (P : Vec F S1000x80 .f32) (Y : Vec F S5000x80 .f32) :
    RowsSet t P Y (m.view.read (Elt F) (m.view.writes (Elt F) (hm.unread Y)
      [(⟨Rect.unit (s := S5000x80) off S1000x80.size inb, P⟩ : View.Piece (Elt F) S5000x80 .f32)])) := by
  refine ⟨fun x j h0 h1 => ?_, fun j h => ?_⟩
  · exact View.read_writes_cons_rows_of_mem m.view (hm.unread Y) inb P [] j x hoff h0 h1
  · refine (View.read_writes_cons_rows_of_not_mem m.view (hm.unread Y) inb P [] j hoff
      (rfl : S1000x80.size (0 : Fin 2) = 1000) h).trans ?_
    exact congrFun (hm.read_unread Y) j

/-- The first block leaves the block's column maxima in the running-maximum buffer. -/
theorem runA_S1 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg8.view.read (Elt F) (arg8.view.writes (Elt F) (harg8.unread xs1) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.1) = k0_pay1 (k0_pay10 x0 x3 x4) := by
  unfold runA
  dsimp only
  sl_unfold_words
  refine (read_one_S1x80 arg8 (harg8.unread xs1) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The first block leaves the block's column sums of exponentials in the running-sum buffer. -/
theorem runA_S2 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg9.view.read (Elt F) (arg9.view.writes (Elt F) (harg9.unread xs2) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.2.1) = k0_pay2 (k0_pay7 x0 x3 x4) (k0_pay10 x0 x3 x4) := by
  unfold runA
  dsimp only
  sl_unfold_words
  refine (read_one_S1x80 arg9 (harg9.unread xs2) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- A middle block leaves the updated running maximum. -/
theorem runB_S1 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg8.view.read (Elt F) (arg8.view.writes (Elt F) (harg8.unread xs1) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.1) = k0_pay4 (k0_pay10 x0 x3 x4) xs1 := by
  unfold runB
  dsimp only
  sl_unfold_words
  refine (read_one_S1x80 arg8 (harg8.unread xs1) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- A middle block leaves the rescaled running sum. -/
theorem runB_S2 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg9.view.read (Elt F) (arg9.view.writes (Elt F) (harg9.unread xs2) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.2.1) = k0_pay5 (k0_pay7 x0 x3 x4) (k0_pay10 x0 x3 x4) xs1 xs2 := by
  unfold runB
  dsimp only
  sl_unfold_words
  refine (read_one_S1x80 arg9 (harg9.unread xs2) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The last block leaves the updated running maximum. -/
theorem runC_S1 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg8.view.read (Elt F) (arg8.view.writes (Elt F) (harg8.unread xs1) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.1) = k0_pay4 (k0_pay10 x0 x3 x4) xs1 := by
  unfold runC
  dsimp only
  sl_unfold_words
  refine (read_one_S1x80 arg8 (harg8.unread xs1) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The last block leaves the rescaled running sum. -/
theorem runC_S2 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg9.view.read (Elt F) (arg9.view.writes (Elt F) (harg9.unread xs2) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.2.1) = k0_pay5 (k0_pay7 x0 x3 x4) (k0_pay10 x0 x3 x4) xs1 xs2 := by
  unfold runC
  dsimp only
  sl_unfold_words
  refine (read_one_S1x80 arg9 (harg9.unread xs2) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The first block's detection logits fill rows [1000 t, 1000 t + 1000) of the logits buffer. -/
theorem runA_L7 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    RowsSet t (k0_pay9 x0 x3 x4) y7 (arg7.view.read (Elt F) (arg7.view.writes (Elt F) (harg7.unread y7) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.1)) := by
  unfold runA
  dsimp only
  sl_unfold_words
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]
  exact rowsSet_one arg7 harg7 t _ _ (off_eq t) (k0_pay9 x0 x3 x4) y7

/-- A middle block's detection logits fill rows [1000 t, 1000 t + 1000) of the logits buffer. -/
theorem runB_L7 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    RowsSet t (k0_pay9 x0 x3 x4) y7 (arg7.view.read (Elt F) (arg7.view.writes (Elt F) (harg7.unread y7) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.1)) := by
  unfold runB
  dsimp only
  sl_unfold_words
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]
  exact rowsSet_one arg7 harg7 t _ _ (off_eq t) (k0_pay9 x0 x3 x4) y7

/-- The last block's detection logits fill rows [1000 t, 1000 t + 1000) of the logits buffer. -/
theorem runC_L7 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    RowsSet t (k0_pay9 x0 x3 x4) y7 (arg7.view.read (Elt F) (arg7.view.writes (Elt F) (harg7.unread y7) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.1)) := by
  unfold runC
  dsimp only
  sl_unfold_words
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]
  exact rowsSet_one arg7 harg7 t _ _ (off_eq t) (k0_pay9 x0 x3 x4) y7

end Cert.Kernel.Body

end
-- ==== Proof.BitsPiecesO.lean ====
/-
  What one run of the kernel body leaves in the result block, case by case: the block it found with the point's
  1000 rows overwritten by the class stream's rows; at the last point, that block and the logits buffer read back
  whole and the rescaled product stored over the whole block.
-/
import proofs.«136734_g55722905698378_cont_9to1_m_658_7_alg».proof.Proof.Gen.Kernel.Frame
import proofs.«136734_g55722905698378_cont_9to1_m_658_7_alg».proof.Proof.Gen.Kernel.Skeleton
import Idealize.ShloMosaic.Lib.WritesUnit
import Idealize.ShloMosaic.Lib.Pipeline.Value
import proofs.«136734_g55722905698378_cont_9to1_m_658_7_alg».proof.Proof.BitsRuns
import proofs.«136734_g55722905698378_cont_9to1_m_658_7_alg».proof.Proof.BitsRows

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- At the first point the result block is the block found with the point's rows overwritten by the class stream's rows. -/
theorem runA_L6 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t))
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    RowsSet t (k0_pay8 x0 x1 x2) y6 (arg6.view.read (Elt F) (arg6.view.writes (Elt F) (harg6.unread y6) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).1)) := by
  unfold runA
  dsimp only
  sl_unfold_words
  have hz : (![0, 0] : Fin 2 → Nat) = fun _ => 0 := by funext a; fin_cases a <;> rfl
  simp only [View.readAt_eq_ld, harg1.read_unread, harg2.read_unread, harg3.read_unread,
    View.ld_unit_zero (S := S1000x4096) hz, View.ld_unit_zero (S := S4096x80) hz, View.ld_unit_zero (S := S1x80) hz]
  refine ⟨fun x j h0 h1 => ?_, fun j h => ?_⟩
  · exact View.read_writes_cons_rows_of_mem arg6.view _ _ _ [] j x (off_eq t) h0 h1
  · refine Eq.trans (View.read_writes_cons_rows_of_not_mem (size := ![1000, 80]) (W := 1000) arg6.view _ _ _ [] j
      (off_eq t) rfl h) ?_
    exact congrFun (harg6.read_unread y6) j

/-- At a middle point the result block is the block found with the point's rows overwritten by the class stream's rows. -/
theorem runB_L6 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t))
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    RowsSet t (k0_pay8 x0 x1 x2) y6 (arg6.view.read (Elt F) (arg6.view.writes (Elt F) (harg6.unread y6) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).1)) := by
  unfold runB
  dsimp only
  sl_unfold_words
  have hz : (![0, 0] : Fin 2 → Nat) = fun _ => 0 := by funext a; fin_cases a <;> rfl
  simp only [View.readAt_eq_ld, harg1.read_unread, harg2.read_unread, harg3.read_unread,
    View.ld_unit_zero (S := S1000x4096) hz, View.ld_unit_zero (S := S4096x80) hz, View.ld_unit_zero (S := S1x80) hz]
  refine ⟨fun x j h0 h1 => ?_, fun j h => ?_⟩
  · exact View.read_writes_cons_rows_of_mem arg6.view _ _ _ [] j x (off_eq t) h0 h1
  · refine Eq.trans (View.read_writes_cons_rows_of_not_mem (size := ![1000, 80]) (W := 1000) arg6.view _ _ _ [] j
      (off_eq t) rfl h) ?_
    exact congrFun (harg6.read_unread y6) j

/-- At the last point the body overwrites the point's rows, reads the whole result block and the whole logits buffer
    back, and stores the rescaled product of the two over the whole block. -/
theorem runC_L6 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t))
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    ∃ O L : Vec F S5000x80 .f32, RowsSet t (k0_pay8 x0 x1 x2) y6 O ∧ RowsSet t (k0_pay9 x0 x3 x4) y7 L
      ∧ arg6.view.read (Elt F) (arg6.view.writes (Elt F) (harg6.unread y6) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).1)
          = k0_pay6 (k0_pay4 (k0_pay10 x0 x3 x4) xs1) (k0_pay5 (k0_pay7 x0 x3 x4) (k0_pay10 x0 x3 x4) xs1 xs2) O L := by
  unfold runC
  dsimp only
  sl_unfold_words
  have hz : (![0, 0] : Fin 2 → Nat) = fun _ => 0 := by funext a; fin_cases a <;> rfl
  simp only [View.readAt_eq_ld, harg1.read_unread, harg2.read_unread, harg3.read_unread, harg4.read_unread, harg5.read_unread,
    harg8.read_unread, harg9.read_unread,
    View.ld_unit_zero (S := S1000x4096) hz, View.ld_unit_zero (S := S4096x80) hz, View.ld_unit_zero (S := S1x80) hz,
    View.ld_unit_zero (S := S5000x80) hz, View.readCov_unit_zero (S := S1x80) _ hz]
  refine ⟨arg6.view.read (Elt F) (arg6.view.writes (Elt F) (harg6.unread y6)
      [⟨Rect.unit (s := S5000x80) (k0_off1 (grid0.coords t)) S1000x80.size (k0_off1_inb (grid0.coords t)), k0_pay8 x0 x1 x2⟩]),
    arg7.view.read (Elt F) (arg7.view.writes (Elt F) (harg7.unread y7)
      [⟨Rect.unit (s := S5000x80) (k0_off1 (grid0.coords t)) S1000x80.size (k0_off1_inb (grid0.coords t)), k0_pay9 x0 x3 x4⟩]),
    ?a, ?b, ?c⟩
  case c =>
    funext y
    exact View.read_writes_cons_unit_of_mem arg6.view _ _ _ _ y y rfl
      (Fin.forall_fin_two.mpr ⟨(Nat.zero_add _).symm, (Nat.zero_add _).symm⟩)
  case a =>
    refine ⟨fun x j h0 h1 => ?_, fun j h => ?_⟩
    · exact View.read_writes_cons_rows_of_mem arg6.view _ _ _ [] j x (off_eq t) h0 h1
    · refine Eq.trans (View.read_writes_cons_rows_of_not_mem (size := ![1000, 80]) (W := 1000) arg6.view _ _ _ [] j
        (off_eq t) rfl h) ?_
      exact congrFun (harg6.read_unread y6) j
  case b =>
    refine ⟨fun x j h0 h1 => ?_, fun j h => ?_⟩
    · exact View.read_writes_cons_rows_of_mem arg7.view _ _ _ [] j x (off_eq t) h0 h1
    · refine Eq.trans (View.read_writes_cons_rows_of_not_mem (size := ![1000, 80]) (W := 1000) arg7.view _ _ _ [] j
        (off_eq t) rfl h) ?_
      exact congrFun (harg7.read_unread y7) j

end Cert.Kernel.Body

end
-- ==== Proof.BitsOblig.lean ====
/-
  The body's obligation at every grid point, and the run.

  The result window's staging block is the whole 5000 × 80 result and is written back once, after the last point.
  Each point overwrites only its own 1000 rows of it, so what the block holds after a point is stated as a RELATION to
  what the point found there: the found contents with the point's rows replaced by that block's class-stream softmax;
  and, at the last point, the rescaling of that by the detection stream. The kernel's own buffers are carried by the
  invariant: the logits buffer at some contents whose first rows are the detection logits of the blocks met so far,
  the two one-row buffers at the running column maximum and sum.
-/
import proofs.«136734_g55722905698378_cont_9to1_m_658_7_alg».proof.Proof.BitsData
import proofs.«136734_g55722905698378_cont_9to1_m_658_7_alg».proof.Proof.BitsPiecesS
import proofs.«136734_g55722905698378_cont_9to1_m_658_7_alg».proof.Proof.BitsPiecesO

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried pair at a point, by the point's case -/

theorem MS_first (c : Dev nD) (t : Fin cfg0.N) (hz : t.val = 0) :
    St.MS m c t.val t.isLt = (k0_pay1 (St.cmB m c t), k0_pay2 (St.ldB m c t) (St.cmB m c t)) := by
  obtain ⟨n, hn⟩ := t
  cases n with
  | zero => rfl
  | succ n => exact absurd hz (Nat.succ_ne_zero n)

theorem MS_later (c : Dev nD) (t : Fin cfg0.N) (hz : t.val ≠ 0) :
    St.MS m c t.val t.isLt = (k0_pay4 (St.cmB m c t) (St.MS m c (t.val - 1) (Nat.lt_of_le_of_lt (Nat.sub_le _ _) t.isLt)).1,
      k0_pay5 (St.ldB m c t) (St.cmB m c t) (St.MS m c (t.val - 1) (Nat.lt_of_le_of_lt (Nat.sub_le _ _) t.isLt)).1 (St.MS m c (t.val - 1) (Nat.lt_of_le_of_lt (Nat.sub_le _ _) t.isLt)).2) := by
  obtain ⟨n, hn⟩ := t
  cases n with
  | zero => exact absurd rfl hz
  | succ n => rfl

theorem MS_last (c : Dev nD) (t : Fin cfg0.N) (h4 : t.val = 4) (h : 4 < cfg0.N) : St.MS m c 4 h = St.MS m c t.val t.isLt := by
  obtain ⟨n, hn⟩ := t
  dsimp only at h4
  subst h4
  rfl

theorem Phi_castSucc (c : Dev nD) (t : Fin cfg0.N) : (rd m c).Φ t.castSucc = Phi m c t.val (Nat.le_of_lt t.isLt) := by
  show (dat0 m c).Φ t.castSucc = _
  dsimp only [dat0]; simp only [Fin.coe_castSucc]

/-! ## The body obligation, at a generic point -/

/-- What the body is called with at point t: the invariant, nothing owed, the inputs' buffers at their blocks, the result block at what it then holds. -/
def bodyPre (c : Dev nD) (t : Fin cfg0.N) (Y5 : Vec F S5000x80 .f32) : sProp 𝕄 :=
  iprop((rd m c).Φ t.castSucc ∗ (rd m c).owesAt () t.castSucc
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare Y5)

/-- and what it returns: the next invariant, the inputs' buffers as they were, the result block in the point's relation to what it held. -/
def bodyPost (c : Dev nD) (t : Fin cfg0.N) (Y5 : Vec F S5000x80 .f32) : sProp 𝕄 :=
  iprop((rd m c).Φ t.succ ∗ (rd m c).owesAt () t.succ
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ (∃ X, ⌜rel5 m c t Y5 X⌝ ∗ owns (c : Thread nD τ) (ms5 t) fullShare X))

set_option maxHeartbeats 4000000 in
/-- The first point: the launch's buffers at anything; the carried pair is set. -/
theorem sound_first (c : Dev nD) (t : Fin cfg0.N) (hz : t.val = 0) (Y5 : Vec F S5000x80 .f32) :
    bodyPre m c t Y5 ⊢ wp frame (wpE (defs₀ (F := F)) Variants.none c none) Set.univ (bodyAt0 t) (fun _ => bodyPost m c t Y5) := by
  have hN : t.val < 5 := lt_of_lt_of_eq t.isLt hN5
  have hc0 : isFirst (grid0.coords t) := (isFirst_iff t).mpr hz
  have hc1 : ¬isLater (grid0.coords t) := fun h => by have := (isLater_iff t).mp h; omega
  have hc2 : ¬isLast (grid0.coords t) := fun h => by have := (isLast_iff t).mp h; omega
  unfold bodyPre bodyPost bodyAt0
  rw [show (rd m c).owesAt () t.succ = (rd m c).owesAt () t.castSucc from rfl,
    show (rd m c).Φ t.succ = Phi m c (t.val + 1) t.isLt from rfl, Phi_succ, Phi_castSucc m c t, Phi_zero m c _ _ hz, PhiA_eq]
  iintro ⟨⟨⟨⟨%d0, HS0⟩, ⟨%d1, HS1⟩, ⟨%d2, HS2⟩⟩, Hg⟩, Ho, H0, H1, H2, H3, H4, H5⟩
  iapply ((runA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        · ipureintro
          exact Has.step (t := t) (hz ▸ Has.zero (St.ldS m c) d0) (runA_L7 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2)
        unfold owns; iexists _; isplitr; swap; · iexact HS0
        ipureintro; rfl
      isplitl [HS1]
      · unfold owns; iexists _; isplitr; swap; · iexact HS1
        ipureintro
        rw [MS_first m c t hz]; dsimp only [St.cmB, St.ldB]
        exact runA_S1 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2
      unfold owns; iexists _; isplitr; swap; · iexact HS2
      ipureintro
      rw [MS_first m c t hz]; dsimp only [St.cmB, St.ldB]
      exact runA_S2 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2
    iexact Hg
  isplitl [Ho]; · iexact Ho
  isplitl [H0]; · iexact H0
  isplitl [H1]; · iexact H1
  isplitl [H2]; · iexact H2
  isplitl [H3]; · iexact H3
  isplitl [H4]; · iexact H4
  iexists _; isplitr
  · ipureintro
    unfold rel5; rw [dif_neg (by omega)]
    exact runA_L6 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2
  unfold owns; iexists _; isplitr; swap; · iexact H5
  ipureintro; rfl

set_option maxHeartbeats 4000000 in
/-- A middle point: the carried pair is updated, the point's rows of the two big buffers overwritten. -/
theorem sound_mid (c : Dev nD) (t : Fin cfg0.N) (h1 : 1 ≤ t.val) (h4 : t.val ≠ 4) (Y5 : Vec F S5000x80 .f32) :
    bodyPre m c t Y5 ⊢ wp frame (wpE (defs₀ (F := F)) Variants.none c none) Set.univ (bodyAt0 t) (fun _ => bodyPost m c t Y5) := by
  have hN : t.val < 5 := lt_of_lt_of_eq t.isLt hN5
  have hz : t.val ≠ 0 := by omega
  have hc0 : ¬isFirst (grid0.coords t) := fun h => hz ((isFirst_iff t).mp h)
  have hc1 : isLater (grid0.coords t) := (isLater_iff t).mpr h1
  have hc2 : ¬isLast (grid0.coords t) := fun h => h4 ((isLast_iff t).mp h)
  unfold bodyPre bodyPost bodyAt0
  rw [show (rd m c).owesAt () t.succ = (rd m c).owesAt () t.castSucc from rfl,
    show (rd m c).Φ t.succ = Phi m c (t.val + 1) t.isLt from rfl, Phi_succ, Phi_castSucc m c t, Phi_pos m c _ _ hz]
  iintro ⟨⟨⟨⟨%L0, %hL0, HS0⟩, HS1, HS2⟩, Hg⟩, Ho, H0, H1, H2, H3, H4, H5⟩
  iapply ((runB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        · ipureintro
          exact Has.step (t := t) hL0 (runB_L7 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2)
        unfold owns; iexists _; isplitr; swap; · iexact HS0
        ipureintro; rfl
      isplitl [HS1]
      · unfold owns; iexists _; isplitr; swap; · iexact HS1
        ipureintro
        rw [MS_later m c t hz]; dsimp only [St.cmB, St.ldB]
        exact runB_S1 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
      unfold owns; iexists _; isplitr; swap; · iexact HS2
      ipureintro
      rw [MS_later m c t hz]; dsimp only [St.cmB, St.ldB]
      exact runB_S2 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
    iexact Hg
  isplitl [Ho]; · iexact Ho
  isplitl [H0]; · iexact H0
  isplitl [H1]; · iexact H1
  isplitl [H2]; · iexact H2
  isplitl [H3]; · iexact H3
  isplitl [H4]; · iexact H4
  iexists _; isplitr; swap
  · unfold owns; iexists _; isplitr; swap; · iexact H5
    ipureintro; rfl
  ipureintro
  unfold rel5; rw [dif_neg h4]
  exact runB_L6 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2

set_option maxHeartbeats 4000000 in
/-- The last point: as a middle point, and then the whole result block rescaled by the detection stream. -/
theorem sound_last (c : Dev nD) (t : Fin cfg0.N) (h4 : t.val = 4) (Y5 : Vec F S5000x80 .f32) :
    bodyPre m c t Y5 ⊢ wp frame (wpE (defs₀ (F := F)) Variants.none c none) Set.univ (bodyAt0 t) (fun _ => bodyPost m c t Y5) := by
  have hN : t.val < 5 := lt_of_lt_of_eq t.isLt hN5
  have hz : t.val ≠ 0 := by omega
  have h1 : 1 ≤ t.val := by omega
  have hc0 : ¬isFirst (grid0.coords t) := fun h => hz ((isFirst_iff t).mp h)
  have hc1 : isLater (grid0.coords t) := (isLater_iff t).mpr h1
  have hc2 : isLast (grid0.coords t) := (isLast_iff t).mpr h4
  unfold bodyPre bodyPost bodyAt0
  rw [show (rd m c).owesAt () t.succ = (rd m c).owesAt () t.castSucc from rfl,
    show (rd m c).Φ t.succ = Phi m c (t.val + 1) t.isLt from rfl, Phi_succ, Phi_castSucc m c t, Phi_pos m c _ _ hz]
  iintro ⟨⟨⟨⟨%L0, %hL0, HS0⟩, HS1, HS2⟩, Hg⟩, Ho, H0, H1, H2, H3, H4, H5⟩
  iapply ((runC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        · ipureintro
          exact Has.step (t := t) hL0 (runC_L7 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2)
        unfold owns; iexists _; isplitr; swap; · iexact HS0
        ipureintro; rfl
      isplitl [HS1]
      · unfold owns; iexists _; isplitr; swap; · iexact HS1
        ipureintro
        rw [MS_later m c t hz]; dsimp only [St.cmB, St.ldB]
        exact runC_S1 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
      unfold owns; iexists _; isplitr; swap; · iexact HS2
      ipureintro
      rw [MS_later m c t hz]; dsimp only [St.cmB, St.ldB]
      exact runC_S2 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
    iexact Hg
  isplitl [Ho]; · iexact Ho
  isplitl [H0]; · iexact H0
  isplitl [H1]; · iexact H1
  isplitl [H2]; · iexact H2
  isplitl [H3]; · iexact H3
  isplitl [H4]; · iexact H4
  iexists _; isplitr; swap
  · unfold owns; iexists _; isplitr; swap; · iexact H5
    ipureintro; rfl
  ipureintro
  unfold rel5; rw [dif_pos h4]
  obtain ⟨O, L, hO, hL, hX⟩ := runC_L6 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
  refine ⟨O, L, hO, ?_, hX.trans ?_⟩
  · have e : t.val + 1 = 5 := by omega
    exact e ▸ Has.step (t := t) hL0 hL
  · unfold St.fin
    rw [MS_last m c t h4, MS_later m c t hz]
    rfl

/-- The body at any point. -/
theorem sound_body (c : Dev nD) (t : Fin cfg0.N) (Y5 : Vec F S5000x80 .f32) :
    bodyPre m c t Y5 ⊢ wp frame (wpE (defs₀ (F := F)) Variants.none c none) Set.univ (bodyAt0 t) (fun _ => bodyPost m c t Y5) := by
  by_cases hz : t.val = 0
  · exact sound_first m c t hz Y5
  · by_cases h4 : t.val = 4
    · exact sound_last m c t h4 Y5
    · exact sound_mid m c t (by omega) h4 Y5

/-- The library's body obligation for the relational data: each input is found at its block and left there; the result
    block is found at anything the relation allows and left in the point's relation to it. -/
theorem body_obligation (c : Dev nD) : (rd (F := F) m c).BodyObligation (defs₀ (F := F)) Variants.none () Set.univ := fun t Y hF => by
  have e0 := finds0 m c t (Y 0) (hF 0)
  have e1 := finds1 m c t (Y 1) (hF 1)
  have e2 := finds2 m c t (Y 2) (hF 2)
  have e3 := finds3 m c t (Y 3) (hF 3)
  have e4 := finds4 m c t (Y 4) (hF 4)
  rw [bigSep_W0, bigSep_W0, e0, e1, e2, e3, e4]
  refine (sound_body m c t (Y 5)).trans (wp_mono _ _ _ fun _ => ?_)
  unfold bodyPost
  iintro ⟨HΦ, Ho, H0, H1, H2, H3, H4, H5⟩
  isplitl [HΦ]; · iexact HΦ
  isplitl [Ho]; · iexact Ho
  isplitl [H0]
  · iexists _; isplitr; · ipureintro; exact (rd_after0 m c t _ _).mpr rfl
    iexact H0
  isplitl [H1]
  · iexists _; isplitr; · ipureintro; exact (rd_after1 m c t _ _).mpr rfl
    iexact H1
  isplitl [H2]
  · iexists _; isplitr; · ipureintro; exact (rd_after2 m c t _ _).mpr rfl
    iexact H2
  isplitl [H3]
  · iexists _; isplitr; · ipureintro; exact (rd_after3 m c t _ _).mpr rfl
    iexact H3
  isplitl [H4]
  · iexists _; isplitr; · ipureintro; exact (rd_after4 m c t _ _).mpr rfl
    iexact H4
  iexact H5

/-- What the launch hands the region is the invariant before the first point. -/
theorem hin (c : Dev nD) : Pipeline.ΦA spec0 c ⊢ (rd m c).Φ 0 := by
  rw [show (rd m c).Φ 0 = Phi m c 0 (Nat.zero_le _) from rfl, Phi_zero m c 0 _ rfl]
  try exact Idealize.SL.BI.Entails.refl _

/-- After the last point the invariant gives the launch's buffers back, what they hold forgotten. -/
theorem hout (c : Dev nD) : (rd m c).Φ (Fin.last cfg0.N) ⊢ Pipeline.ΦA spec0 c := by
  have hne : (Fin.last cfg0.N).val ≠ 0 := by rw [Fin.val_last, hN5]; omega
  rw [show (rd m c).Φ (Fin.last cfg0.N) = Phi m c (Fin.last cfg0.N).val (Nat.le_of_lt_succ (Fin.last cfg0.N).isLt) from rfl,
    Phi_pos m c _ _ hne, PhiA_eq]
  iintro ⟨⟨⟨%L, -, HS0⟩, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution of @main terminates, and in every final state each windowed array holds contents the relational
    data allows after every write-back, every other unscoped buffer what it held when the region was entered. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c w => by
      show (if (cfg0.win w).isOut then fullShare else (rd m c).q w) = fullShare
      split <;> rfl)
    (howed := fun _ _ => rfl) (V := V m) (hmain := hmain m Variants.none) (hA := A_eq m) (hin := hin m) (hout := hout m)

/-- The argument arrays end as launched: the staged one by the relational post's reading of an input array, the others
    bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Body

end
-- ==== Proof.Spec.lean ====
/-
  The two-stream scoring function, index by index on the extended reals.

  For proposal features x (5000 × 4096), two weight matrices (4096 × 80) and two biases (80), each head's logit is
  l(n, k) = Σ_κ x(n, κ) · w(κ, k) + b(k).  The classification stream is the softmax of its logits over the classes k
  of each row; the detection stream is the softmax of its logits over the proposals n of each column; the score is
  their product.  Each softmax subtracts the maximum of the axis it normalises before exponentiating.

  The second half states the same column softmax computed in one pass over five blocks of 1000 rows: a running
  maximum, and a running sum rescaled by exp(old maximum − new maximum) whenever the maximum moves.
-/
import Idealize.ShloMosaic.PureOps.Ideal.Laws
import Idealize.ShloMosaic.Lib.ValueIdx

noncomputable section

open scoped BigOperators

namespace Cert.Wsddn

open Idealize.ShloMosaic Idealize.ShloMosaic.ValueIdx

/-- One head's logit at proposal n and class k. -/
def logit (x : (⟨2, ![5000, 4096]⟩ : Shape).Idx → EReal) (w : (⟨2, ![4096, 80]⟩ : Shape).Idx → EReal)
    (b : (⟨1, ![80]⟩ : Shape).Idx → EReal) (n : Fin 5000) (k : Fin 80) : EReal :=
  (∑ κ : Fin 4096, x (ix2 n κ) * w (ix2 κ k)) + b (ix1 k)

/-- The largest entry of a finite family, −∞ for the empty one. -/
def top {ι : Type} [Fintype ι] (f : ι → EReal) : EReal := (Finset.univ : Finset ι).fold max ⊥ f

/-- Softmax over the classes of row n. -/
def rowSoft (l : Fin 5000 → Fin 80 → EReal) (n : Fin 5000) (k : Fin 80) : EReal :=
  Ideal.div (Ideal.exp (l n k - top (l n))) (∑ k' : Fin 80, Ideal.exp (l n k' - top (l n)))

/-- Softmax over the proposals of column k. -/
def colSoft (l : Fin 5000 → Fin 80 → EReal) (n : Fin 5000) (k : Fin 80) : EReal :=
  Ideal.div (Ideal.exp (l n k - top fun n' => l n' k)) (∑ n' : Fin 5000, Ideal.exp (l n' k - top fun n'' => l n'' k))

/-- The score array: class softmax times proposal softmax. -/
def scores (x : (⟨2, ![5000, 4096]⟩ : Shape).Idx → EReal) (wc : (⟨2, ![4096, 80]⟩ : Shape).Idx → EReal)
    (bc : (⟨1, ![80]⟩ : Shape).Idx → EReal) (wd : (⟨2, ![4096, 80]⟩ : Shape).Idx → EReal)
    (bd : (⟨1, ![80]⟩ : Shape).Idx → EReal) : (⟨2, ![5000, 80]⟩ : Shape).Idx → EReal := fun i =>
  rowSoft (logit x wc bc) (i 0) (i 1) * colSoft (logit x wd bd) (i 0) (i 1)

/-! ## One column in five blocks of 1000 rows -/

/-- Row r of block t, as a row of the whole column. -/
def rowOf (t : Fin 5) (r : Fin 1000) : Fin 5000 := ⟨1000 * t.val + r.val, by have := t.isLt; have := r.isLt; omega⟩

/-- Block t of a column (−∞ past the fifth block, which nothing reads). -/
def blk (l : Fin 5000 → EReal) (t : ℕ) (r : Fin 1000) : EReal :=
  if h : t < 5 then l (rowOf ⟨t, h⟩ r) else ⊥

/-- The running maximum after block t. -/
def runMax (l : Fin 5000 → EReal) : ℕ → EReal
  | 0 => top (blk l 0)
  | t + 1 => max (runMax l t) (top (blk l (t + 1)))

/-- The running sum of exponentials after block t, each rescaled to the current maximum. -/
def runSum (l : Fin 5000 → EReal) : ℕ → EReal
  | 0 => ∑ r : Fin 1000, Ideal.exp (blk l 0 r - runMax l 0)
  | t + 1 => runSum l t * Ideal.exp (runMax l t - runMax l (t + 1))
              + ∑ r : Fin 1000, Ideal.exp (blk l (t + 1) r - runMax l (t + 1))

end Cert.Wsddn

end
-- ==== Proof.State.lean ====
/-
  What the kernel's buffers hold point by point, as pure functions of the launch memory.

  At grid point t the body sees block t of the features (1000 rows) and both heads' weights and biases whole. From
  them it forms the class-stream softmax of those 1000 rows (stored into rows [1000 t, 1000 t + 1000) of the result
  block), the detection-stream logits of those rows (stored into the same rows of a logits buffer), and their column
  maxima. Two one-row buffers carry, from point to point, the running column maximum and the running column sum of
  exponentials: set at the first point, updated at every later one.
-/
import proofs.«136734_g55722905698378_cont_9to1_m_658_7_alg».proof.Proof.Gen.KernelIdeal.Frame
import proofs.«136734_g55722905698378_cont_9to1_m_658_7_alg».proof.Proof.Gen.KernelIdeal.Skeleton

noncomputable section

namespace Cert.KernelIdeal.St

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The class-stream softmax of the rows of block t. -/
def cB (c : Dev nD) (t : Fin cfg0.N) : Vec F S1000x80 .f32 := k0_pay8 (iblk m c 0 t) (iblk m c 1 t) (iblk m c 2 t)

/-- The detection-stream logits of the rows of block t. -/
def ldB (c : Dev nD) (t : Fin cfg0.N) : Vec F S1000x80 .f32 := k0_pay7 (iblk m c 0 t) (iblk m c 3 t) (iblk m c 4 t)

/-- The same as stored into the logits buffer. -/
def ldS (c : Dev nD) (t : Fin cfg0.N) : Vec F S1000x80 .f32 := k0_pay9 (iblk m c 0 t) (iblk m c 3 t) (iblk m c 4 t)

/-- The column maxima of block t's detection logits. -/
def cmB (c : Dev nD) (t : Fin cfg0.N) : Vec F S1x80 .f32 := k0_pay10 (iblk m c 0 t) (iblk m c 3 t) (iblk m c 4 t)

/-- The running column maximum and the running column sum after point n. -/
def MS (c : Dev nD) : (n : ℕ) → n < cfg0.N → Vec F S1x80 .f32 × Vec F S1x80 .f32
  | 0, h => (k0_pay1 (cmB m c ⟨0, h⟩), k0_pay2 (ldB m c ⟨0, h⟩) (cmB m c ⟨0, h⟩))
  | n + 1, h =>
    (k0_pay4 (cmB m c ⟨n + 1, h⟩) (MS c n (Nat.lt_of_succ_lt h)).1,
     k0_pay5 (ldB m c ⟨n + 1, h⟩) (cmB m c ⟨n + 1, h⟩) (MS c n (Nat.lt_of_succ_lt h)).1 (MS c n (Nat.lt_of_succ_lt h)).2)

theorem MS_zero (c : Dev nD) (h : 0 < cfg0.N) :
    MS m c 0 h = (k0_pay1 (cmB m c ⟨0, h⟩), k0_pay2 (ldB m c ⟨0, h⟩) (cmB m c ⟨0, h⟩)) := rfl

theorem MS_succ (c : Dev nD) (n : ℕ) (h : n + 1 < cfg0.N) :
    MS m c (n + 1) h = (k0_pay4 (cmB m c ⟨n + 1, h⟩) (MS m c n (Nat.lt_of_succ_lt h)).1,
      k0_pay5 (ldB m c ⟨n + 1, h⟩) (cmB m c ⟨n + 1, h⟩) (MS m c n (Nat.lt_of_succ_lt h)).1 (MS m c n (Nat.lt_of_succ_lt h)).2) := rfl

/-- The result block the last point leaves, from the block O of class-stream softmaxes and the buffer L of detection logits
    it finds: O · exp(L − running maximum) / running sum, with the running values after the last point. -/
def fin (c : Dev nD) (hN : 4 < cfg0.N) (O L : Vec F S5000x80 .f32) : Vec F S5000x80 .f32 :=
  k0_pay6 (MS m c 4 hN).1 (MS m c 4 hN).2 O L

end Cert.KernelIdeal.St

end
-- ==== Proof.Runs.lean ====
/-
  The kernel body run once per control case.

  The body branches three times on the grid coordinate: at the first block it sets the running column maximum and
  sum; at every later block it updates them; at the last block it also rescales the whole result block. Over the
  five-point grid three assignments of the conditions occur: first block; a middle block; last block. In each the body
  is run symbolically on staging memrefs holding named contents; it hands every buffer it stores into back at those
  contents with its stores written over them.
-/
import proofs.«136734_g55722905698378_cont_9to1_m_658_7_alg».proof.Proof.Gen.KernelIdeal.Frame
import proofs.«136734_g55722905698378_cont_9to1_m_658_7_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The branch conditions as the body computes them from the grid coordinate: at the first block, past it, at the last. -/
abbrev isFirst (i : grid0.Coords) : Prop := (Scalar.cmpi .ne (Scalar.extui (Scalar.cmpi .eq (BitVec.ofNat 32 (i 0).val) 0#32)) 0#32) = 1#1
abbrev isLater (i : grid0.Coords) : Prop := (Scalar.cmpi .ne (Scalar.extui (Scalar.cmpi .sgt (BitVec.ofNat 32 (i 0).val) 0#32)) 0#32) = 1#1
abbrev isLast (i : grid0.Coords) : Prop := (Scalar.cmpi .ne (Scalar.extui (Scalar.cmpi .eq (BitVec.ofNat 32 (i 0).val) 4#32)) 0#32) = 1#1
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 4 :=
  (by decide +kernel : ∀ t : Fin grid0.N, isLast (grid0.coords t) ↔ t.val = 4)
/-- The row-block a point stores through starts at row 1000 · t. -/
theorem off_eq : ∀ t : Fin cfg0.N, k0_off1 (grid0.coords t) = ![1000 * t.val, 0] :=
  (by decide +kernel : ∀ t : Fin grid0.N, k0_off1 (grid0.coords t) = ![1000 * t.val, 0])

set_option maxHeartbeats 4000000 in
/-- The body on whole staging memrefs at named contents, in the case where the first-point branch is taken, the later-point branch is not taken and the last-point branch is not taken:
    it runs to the continuation with the inputs as they were and each buffer it stores into at its contents with the stores written over them, newest first. -/
noncomputable def runA (c : Dev nD) (i : grid0.Coords) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst i) (hc1 : ¬isLater i) (hc2 : ¬isLast i)
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    Σ' (L6 L7 : List (View.Piece (Elt F) S5000x80 .f32)) (LS1 : List (View.Piece (Elt F) S1x80 .f32)), { LS2 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y6 ∗ owns (c : Thread nD τ) arg7 fullShare y7 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread y6) L6)
                ∗ (arg7.view.loc (c : Thread nD τ) ↦[arg7.view.set]{fullShare} arg7.view.writes (Elt F) (harg7.unread y7) L7)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__wsddn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexact HS0
    isplitl [HS1]; · iexact HS1
    iexact HS2

set_option maxHeartbeats 4000000 in
/-- The body on whole staging memrefs at named contents, in the case where the first-point branch is not taken, the later-point branch is taken and the last-point branch is not taken:
    it runs to the continuation with the inputs as they were and each buffer it stores into at its contents with the stores written over them, newest first. -/
noncomputable def runB (c : Dev nD) (i : grid0.Coords) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst i) (hc1 : isLater i) (hc2 : ¬isLast i)
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    Σ' (L6 L7 : List (View.Piece (Elt F) S5000x80 .f32)) (LS1 : List (View.Piece (Elt F) S1x80 .f32)), { LS2 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y6 ∗ owns (c : Thread nD τ) arg7 fullShare y7 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread y6) L6)
                ∗ (arg7.view.loc (c : Thread nD τ) ↦[arg7.view.set]{fullShare} arg7.view.writes (Elt F) (harg7.unread y7) L7)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__wsddn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexact HS0
    isplitl [HS1]; · iexact HS1
    iexact HS2

set_option maxHeartbeats 4000000 in
/-- The body on whole staging memrefs at named contents, in the case where the first-point branch is not taken, the later-point branch is taken and the last-point branch is taken:
    it runs to the continuation with the inputs as they were and each buffer it stores into at its contents with the stores written over them, newest first. -/
noncomputable def runC (c : Dev nD) (i : grid0.Coords) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst i) (hc1 : isLater i) (hc2 : isLast i)
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    Σ' (L6 L7 : List (View.Piece (Elt F) S5000x80 .f32)) (LS1 : List (View.Piece (Elt F) S1x80 .f32)), { LS2 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y6 ∗ owns (c : Thread nD τ) arg7 fullShare y7 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread y6) L6)
                ∗ (arg7.view.loc (c : Thread nD τ) ↦[arg7.view.set]{fullShare} arg7.view.writes (Elt F) (harg7.unread y7) L7)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)) -∗ K ⟨⟩))
          ⊢ wp frame (wpE (defs₀ (F := F)) Variants.none c none) E (cc0__wsddn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexact HS0
    isplitl [HS1]; · iexact HS1
    iexact HS2

end Cert.KernelIdeal.Body

end
-- ==== Proof.Rows.lean ====
/-
  A 5000-row buffer with one block of 1000 rows overwritten.
-/
import proofs.«136734_g55722905698378_cont_9to1_m_658_7_alg».proof.Proof.Gen.KernelIdeal.Launch

noncomputable section

namespace Cert.KernelIdeal.Body

open Cert.KernelIdeal Cert.KernelIdeal.Gen
open Idealize.ShloMosaic Idealize.ShloMosaic.TcCoe Idealize.SL.Sem

variable {F : FTy → Type} [FloatOps F]

/-- X is Y with rows [1000 t, 1000 t + 1000) replaced by the 1000 rows of P: inside those rows X reads P at the
    position within the block, on every other row X reads Y. -/
def RowsSet (t : Fin cfg0.N) (P : Vec F S1000x80 .f32) (Y X : Vec F S5000x80 .f32) : Prop :=
  (∀ (x : S1000x80.Idx) (j : S5000x80.Idx), (j 0).val = 1000 * t.val + (x 0).val → (j 1).val = (x 1).val → X j = P x)
  ∧ (∀ j : S5000x80.Idx, ((j 0).val < 1000 * t.val ∨ 1000 * t.val + 1000 ≤ (j 0).val) → X j = Y j)

end Cert.KernelIdeal.Body

end
-- ==== Proof.Data.lean ====
/-
  The pipeline's proof data.

  The result window's staging block is the whole 5000 × 80 result and is written back once, after the last point.
  Each point overwrites only its own 1000 rows of it, so what the block holds after a point is stated as a RELATION to
  what the point found there: the found contents with the point's rows replaced by that block's class-stream softmax;
  and, at the last point, the rescaling of that by the detection stream. The kernel's own buffers are carried by the
  invariant: the logits buffer at some contents whose first rows are the detection logits of the blocks met so far,
  the two one-row buffers at the running column maximum and sum.
-/
import proofs.«136734_g55722905698378_cont_9to1_m_658_7_alg».proof.Proof.State
import proofs.«136734_g55722905698378_cont_9to1_m_658_7_alg».proof.Proof.Runs
import proofs.«136734_g55722905698378_cont_9to1_m_658_7_alg».proof.Proof.Rows

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- Each window's current staging memref at point t, as the pipeline passes it to the body, and its wholeness. -/
abbrev ms0 (t : Fin cfg0.N) : Memref sig .tc .vmem S1000x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x80 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x80 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x80 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x80 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S5000x80 .f32 := win0_5.stage (cfg0.slots t 5)
abbrev hs5 (t : Fin cfg0.N) : (ms5 t).IsWhole := hstage0_5 ((cfg0.slots t 5).cast nbuf0_5)
/-- The kernel's own buffers: the logits buffer, the running maximum, the running sum. -/
abbrev sc0 : Memref sig .tc .vmem S5000x80 .f32 := Memref.whole cc0_scratch0
abbrev sc1 : Memref sig .tc .vmem S1x80 .f32 := Memref.whole cc0_scratch1
abbrev sc2 : Memref sig .tc .vmem S1x80 .f32 := Memref.whole cc0_scratch2

theorem hN5 : cfg0.N = 5 := N_0

/-- What the launch hands the region besides the windows: the three buffers at some contents each, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The invariant and the result window's relation -/

/-- A 5000-row buffer whose blocks below n hold P's blocks. -/
def Has (P : Fin cfg0.N → Vec F S1000x80 .f32) (n : ℕ) (L : Vec F S5000x80 .f32) : Prop :=
  ∀ u : Fin cfg0.N, u.val < n → ∀ (x : S1000x80.Idx) (j : S5000x80.Idx),
    (j 0).val = 1000 * u.val + (x 0).val → (j 1).val = (x 1).val → L j = P u x

/-- Overwriting block t of a buffer that has the blocks below t gives one that has the blocks below t + 1. -/
theorem Has.step {P : Fin cfg0.N → Vec F S1000x80 .f32} {t : Fin cfg0.N} {Y X : Vec F S5000x80 .f32}
    (hY : Has P t.val Y) (hX : RowsSet t (P t) Y X) : Has P (t.val + 1) X := by
  intro u hu x j h0 h1
  by_cases hut : u.val = t.val
  · obtain rfl : u = t := Fin.ext hut
    exact hX.1 x j h0 h1
  · have hlt : u.val < t.val := by omega
    have hx := (x 0).isLt
    have : (j 0).val < 1000 * t.val := by
      have : (x 0).val < 1000 := hx
      omega
    rw [hX.2 j (Or.inl this)]
    exact hY u hlt x j h0 h1

theorem Has.zero (P : Fin cfg0.N → Vec F S1000x80 .f32) (L : Vec F S5000x80 .f32) : Has P 0 L :=
  fun u hu => absurd hu (Nat.not_lt_zero _)

/-- The region's invariant before point n: before the first point what the launch hands over; afterwards the logits
    buffer holding the detection logits of the blocks met so far, the running maximum and sum after the point before. -/
def Phi (c : Dev nD) : (n : ℕ) → n ≤ cfg0.N → sProp 𝕄
  | 0, _ => Pipeline.ΦA spec0 c
  | n + 1, hn => iprop(iprop((∃ L, ⌜Has (St.ldS m c) (n + 1) L⌝ ∗ owns (c : Thread nD τ) sc0 fullShare L)
      ∗ owns (c : Thread nD τ) sc1 fullShare (St.MS m c n hn).1 ∗ owns (c : Thread nD τ) sc2 fullShare (St.MS m c n hn).2) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ L, ⌜Has (St.ldS m c) (n + 1) L⌝ ∗ owns (c : Thread nD τ) sc0 fullShare L)
      ∗ owns (c : Thread nD τ) sc1 fullShare (St.MS m c n hn).1 ∗ owns (c : Thread nD τ) sc2 fullShare (St.MS m c n hn).2) ∗ (∃ r, prngReg c r)) := rfl

theorem Phi_pos (c : Dev nD) (n : ℕ) (h : n ≤ cfg0.N) (hz : n ≠ 0) :
    Phi m c n h = iprop(iprop((∃ L, ⌜Has (St.ldS m c) n L⌝ ∗ owns (c : Thread nD τ) sc0 fullShare L)
      ∗ owns (c : Thread nD τ) sc1 fullShare (St.MS m c (n - 1) (by omega)).1 ∗ owns (c : Thread nD τ) sc2 fullShare (St.MS m c (n - 1) (by omega)).2) ∗ (∃ r, prngReg c r)) := by
  cases n with
  | zero => exact absurd rfl hz
  | succ n => rfl

/-- What point t may leave in the result block (X) given what it found there (Y). -/
def rel5 (c : Dev nD) (t : Fin cfg0.N) (Y X : Vec F S5000x80 .f32) : Prop :=
  if h : t.val = 4 then
    ∃ O L : Vec F S5000x80 .f32, RowsSet t (St.cB m c t) Y O ∧ Has (St.ldS m c) 5 L ∧ X = St.fin m c (by rw [hN5]; omega) O L
  else RowsSet t (St.cB m c t) Y X

/-! ## The proof data -/

/-- Exact data for the inputs (each buffer holds its block after the body as before it); the result window named nothing here. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := Phi m c t.val (Nat.le_of_lt_succ t.isLt)
  q _ := fullShare
  owed _ := 0

/-- The result window's relation in place of a name. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some (rel5 m c)

/-- The relational proof data. -/
def rd (c : Dev nD) : RDat τ (Elt F) Unit ℕ (UR sig nD τ) ℕ cfg0 c := (dat0 m c).toR.override (ovr m c)

theorem A_eq (c : Dev nD) (w : Fin cfg0.W) : (rd m c).A w = V m c (Pipeline.arrRef spec0 w) := by
  show (dat0 m c).A w = _
  dsimp only [dat0]

theorem dat0_A (c : Dev nD) (w : Fin cfg0.W) : (dat0 m c).A w = V m c (Pipeline.arrRef spec0 w) := by
  dsimp only [dat0]

theorem after0 (c : Dev nD) (t : Fin cfg0.N) : (dat0 m c).after 0 t = iblk m c 0 t := by dsimp only [dat0]
theorem after1 (c : Dev nD) (t : Fin cfg0.N) : (dat0 m c).after 1 t = iblk m c 1 t := by dsimp only [dat0]
theorem after2 (c : Dev nD) (t : Fin cfg0.N) : (dat0 m c).after 2 t = iblk m c 2 t := by dsimp only [dat0]
theorem after3 (c : Dev nD) (t : Fin cfg0.N) : (dat0 m c).after 3 t = iblk m c 3 t := by dsimp only [dat0]
theorem after4 (c : Dev nD) (t : Fin cfg0.N) : (dat0 m c).after 4 t = iblk m c 4 t := by dsimp only [dat0]

/-- What the body finds in each input's buffer is that window's block. -/
theorem finds0 (c : Dev nD) (t : Fin cfg0.N) (Y) (h : (rd m c).Finds 0 t Y) : Y = iblk m c 0 t := by
  obtain ⟨d, rfl⟩ := (dat0 m c).toR_finds 0 t Y (((dat0 m c).toR.override_finds (ovr := ovr m c) (w := 0) rfl t Y).mp h)
  exact before0_0_of m (dat0 m c) (dat0_A m c 0) (after0 m c) t d
theorem finds1 (c : Dev nD) (t : Fin cfg0.N) (Y) (h : (rd m c).Finds 1 t Y) : Y = iblk m c 1 t := by
  obtain ⟨d, rfl⟩ := (dat0 m c).toR_finds 1 t Y (((dat0 m c).toR.override_finds (ovr := ovr m c) (w := 1) rfl t Y).mp h)
  exact before0_1_of m (dat0 m c) (dat0_A m c 1) (after1 m c) t d
theorem finds2 (c : Dev nD) (t : Fin cfg0.N) (Y) (h : (rd m c).Finds 2 t Y) : Y = iblk m c 2 t := by
  obtain ⟨d, rfl⟩ := (dat0 m c).toR_finds 2 t Y (((dat0 m c).toR.override_finds (ovr := ovr m c) (w := 2) rfl t Y).mp h)
  exact before0_2_of m (dat0 m c) (dat0_A m c 2) (after2 m c) t d
theorem finds3 (c : Dev nD) (t : Fin cfg0.N) (Y) (h : (rd m c).Finds 3 t Y) : Y = iblk m c 3 t := by
  obtain ⟨d, rfl⟩ := (dat0 m c).toR_finds 3 t Y (((dat0 m c).toR.override_finds (ovr := ovr m c) (w := 3) rfl t Y).mp h)
  exact before0_3_of m (dat0 m c) (dat0_A m c 3) (after3 m c) t d
theorem finds4 (c : Dev nD) (t : Fin cfg0.N) (Y) (h : (rd m c).Finds 4 t Y) : Y = iblk m c 4 t := by
  obtain ⟨d, rfl⟩ := (dat0 m c).toR_finds 4 t Y (((dat0 m c).toR.override_finds (ovr := ovr m c) (w := 4) rfl t Y).mp h)
  exact before0_4_of m (dat0 m c) (dat0_A m c 4) (after4 m c) t d

/-- The relation of each window, opened. -/
theorem rd_after0 (c : Dev nD) (t : Fin cfg0.N) (Y X) : (rd m c).after 0 t Y X ↔ X = iblk m c 0 t := by
  show (dat0 m c).Leaves 0 t X ↔ _
  rw [← after0 m c t]; exact Iff.rfl
theorem rd_after1 (c : Dev nD) (t : Fin cfg0.N) (Y X) : (rd m c).after 1 t Y X ↔ X = iblk m c 1 t := by
  show (dat0 m c).Leaves 1 t X ↔ _
  rw [← after1 m c t]; exact Iff.rfl
theorem rd_after2 (c : Dev nD) (t : Fin cfg0.N) (Y X) : (rd m c).after 2 t Y X ↔ X = iblk m c 2 t := by
  show (dat0 m c).Leaves 2 t X ↔ _
  rw [← after2 m c t]; exact Iff.rfl
theorem rd_after3 (c : Dev nD) (t : Fin cfg0.N) (Y X) : (rd m c).after 3 t Y X ↔ X = iblk m c 3 t := by
  show (dat0 m c).Leaves 3 t X ↔ _
  rw [← after3 m c t]; exact Iff.rfl
theorem rd_after4 (c : Dev nD) (t : Fin cfg0.N) (Y X) : (rd m c).after 4 t Y X ↔ X = iblk m c 4 t := by
  show (dat0 m c).Leaves 4 t X ↔ _
  rw [← after4 m c t]; exact Iff.rfl
theorem rd_after5 (c : Dev nD) (t : Fin cfg0.N) (Y X) : (rd m c).after 5 t Y X ↔ rel5 m c t Y X := Iff.rfl

end Cert.KernelIdeal.Body

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Payloads.lean ====
/-
  The kernel body's pure values, each read at one index as arithmetic on the extended reals.

  A block of logits is l(r, k) = Σ_κ x(r, κ) · w(κ, k) + b(k) for the block's 1000 rows r and the 80 classes k.
  From it the body forms: the softmax over the classes of each row; the column maxima of the block; the column sums
  of exponentials against a given maximum; the running maximum and the rescaled running sum of the one-pass column
  softmax; and at the end the product of the class stream with the normalised detection stream.
-/
import proofs.«136734_g55722905698378_cont_9to1_m_658_7_alg».proof.Proof.Gen.KernelIdeal.Skeleton
import proofs.«136734_g55722905698378_cont_9to1_m_658_7_alg».proof.Proof.LibPlainDot
import proofs.«136734_g55722905698378_cont_9to1_m_658_7_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Wsddn Idealize.ShloMosaic Idealize.ShloMosaic.ValueIdx Idealize.ShloMosaic.TcCoe

/-- A cast of a row of 80 to its own shape changes nothing. -/
theorem pay1_eq (v : FVec Ideal S1x80 .f32) : k0_pay1 (F := Ideal) v = v :=
  shapeCast_self v shapeCasts_S1x80_S1x80

/-- The new running maximum: the larger of the old maximum and the block's column maximum. -/
theorem pay4_apply (cm : FVec Ideal S1x80 .f32) (M : Vec Ideal S1x80 .f32) (k : Fin 80) :
    k0_pay4 (F := Ideal) cm M (ix2 0 k) = max (M (ix2 0 k)) (cm (ix2 0 k)) := by
  unfold k0_pay4 k0_pay3
  exact congrFun (shapeCast_self _ shapeCasts_S1x80_S1x80) (ix2 0 k)

/-- The final product: the class stream times exp(logit − column maximum) over the column sum. -/
theorem pay6_apply (M S : Vec Ideal S1x80 .f32) (O L : Vec Ideal S5000x80 .f32) (n : Fin 5000) (k : Fin 80) :
    k0_pay6 (F := Ideal) M S O L (ix2 n k)
      = O (ix2 n k) * Ideal.div (Ideal.exp (L (ix2 n k) - M (ix2 0 k))) (S (ix2 0 k)) := by
  unfold k0_pay6
  show shapeCast S5000x80 O shapeCasts_S5000x80_S5000x80 (ix2 n k)
      * Ideal.div (Ideal.exp (L (ix2 n k) - broadcastTo S5000x80 M broadcasts_S1x80_S5000x80 (ix2 n k)))
          (broadcastTo S5000x80 S broadcasts_S1x80_S5000x80 (ix2 n k)) = _
  rw [shapeCast_self, broadcastTo_1b_ab_apply, broadcastTo_1b_ab_apply]

/-- The stored detection logits are the block's logits: a cast to the same shape. -/
theorem pay9_eq (x : Vec Ideal S1000x4096 .f32) (w : Vec Ideal S4096x80 .bf16) (b : Vec Ideal S1x80 .f32) :
    k0_pay9 (F := Ideal) x w b = k0_pay7 (F := Ideal) x w b :=
  shapeCast_self _ shapeCasts_S1000x80_S1000x80

/-- One block's logit at row r and class k. -/
def blkLogit (x : Vec Ideal S1000x4096 .f32) (w : Vec Ideal S4096x80 .bf16) (b : Vec Ideal S1x80 .f32)
    (r : Fin 1000) (k : Fin 80) : EReal :=
  (∑ κ : Fin 4096, x (ix2 r κ) * w (ix2 κ k)) + b (ix2 0 k)

/-- The printed dimension numbers contract the left operand's columns with the right operand's rows. -/
theorem dot_plain : PlainDot.IsPlain dot_S1000x4096_S4096x80_S1000x80_1_0_0_1_n_n := ⟨rfl, rfl, rfl, rfl, rfl, rfl⟩

/-- The block's logits: the product into a zero accumulator plus the bias row. -/
theorem pay7_apply (x : Vec Ideal S1000x4096 .f32) (w : Vec Ideal S4096x80 .bf16) (b : Vec Ideal S1x80 .f32)
    (r : Fin 1000) (k : Fin 80) : k0_pay7 (F := Ideal) x w b (ix2 r k) = blkLogit x w b r k := by
  unfold k0_pay7 blkLogit
  refine congrArg₂ (· + ·) ?_ ?_
  · refine (PlainDot.matmul_zero_plain dot_S1000x4096_S4096x80_S1000x80_1_0_0_1_n_n dot_plain none x
      (shapeCast S4096x80 w shapeCasts_S4096x80_S4096x80) r k).trans ?_
    rw [shapeCast_self]
  · refine (broadcastTo_1b_ab_apply _ broadcasts_S1x80_S1000x80 r k).trans ?_
    rw [shapeCast_self]

/-- The bit pattern of the maximum's neutral element reads −∞. -/
theorem ofBits_negInf : Ideal.ofBits .f32 0xFF800000#32 = (⊥ : EReal) := by simp [Ideal.ofBits, Ideal.ieee]

/-- Inserting row r over class k in a column reduction gives the index (r, k). -/
theorem lift_col (k : Fin 80) (r : Fin 1000) : reduces_S1000x80_S80.lift (ix1 k) r = ix2 r k := by
  funext c
  match c with
  | ⟨0, _⟩ => exact Fin.ext rfl
  | ⟨1, _⟩ => exact Fin.ext rfl

/-- The block's column maxima. -/
theorem pay10_apply (x : Vec Ideal S1000x4096 .f32) (w : Vec Ideal S4096x80 .bf16) (b : Vec Ideal S1x80 .f32)
    (k : Fin 80) : k0_pay10 (F := Ideal) x w b (ix2 0 k) = top (fun r : Fin 1000 => blkLogit x w b r k) := by
  unfold k0_pay10
  refine (shapeCast_a_1a_apply _ shapeCasts_S80_S1x80 0 k).trans ?_
  refine (Ideal.multiReduction_maximumf_single (k0_pay7 (F := Ideal) x w b) _ reduces_S1000x80_S80 _ _ (ix1 k)).trans ?_
  show (Finset.univ : Finset (Fin 1000)).fold max (Ideal.ofBits .f32 0xFF800000#32)
      (k0_pay7 (F := Ideal) x w b ∘ reduces_S1000x80_S80.lift (ix1 k)) = _
  rw [ofBits_negInf]
  unfold top
  refine congrArg (fun f => Finset.fold max (⊥ : EReal) f (Finset.univ : Finset (Fin 1000))) (funext fun (r : Fin 1000) => ?_)
  exact (congrArg (k0_pay7 (F := Ideal) x w b) (lift_col k r)).trans (pay7_apply x w b r k)

/-- The block's column sums of exponentials against a given row of maxima. -/
theorem pay2_apply (ld : FVec Ideal S1000x80 .f32) (cm : FVec Ideal S1x80 .f32) (k : Fin 80) :
    k0_pay2 (F := Ideal) ld cm (ix2 0 k) = ∑ r : Fin 1000, Ideal.exp (ld (ix2 r k) - cm (ix2 0 k)) := by
  unfold k0_pay2
  refine (congrFun (shapeCast_self _ shapeCasts_S1x80_S1x80) (ix2 0 k)).trans ?_
  refine (shapeCast_a_1a_apply _ shapeCasts_S80_S1x80 0 k).trans ?_
  refine (Ideal.multiReduction_add_single _ _ reduces_S1000x80_S80 _ _ (ix1 k)).trans ?_
  refine Finset.sum_congr rfl fun (r : Fin 1000) _ => ?_
  refine (congrArg (exp (F := Ideal) (subf ld (broadcastTo S1000x80 cm broadcasts_S1x80_S1000x80))) (lift_col k r)).trans ?_
  show Ideal.exp (ld (ix2 r k) - broadcastTo S1000x80 cm broadcasts_S1x80_S1000x80 (ix2 r k)) = _
  rw [broadcastTo_1b_ab_apply]

/-- The rescaled running sum: the old sum times exp(old maximum − new maximum), plus the block's column sum of
    exponentials against the new maximum. -/
theorem pay5_apply (ld : FVec Ideal S1000x80 .f32) (cm : FVec Ideal S1x80 .f32) (M S : Vec Ideal S1x80 .f32) (k : Fin 80) :
    k0_pay5 (F := Ideal) ld cm M S (ix2 0 k)
      = S (ix2 0 k) * Ideal.exp (M (ix2 0 k) - max (M (ix2 0 k)) (cm (ix2 0 k)))
        + ∑ r : Fin 1000, Ideal.exp (ld (ix2 r k) - max (M (ix2 0 k)) (cm (ix2 0 k))) := by
  unfold k0_pay5 k0_pay3
  refine (congrFun (shapeCast_self _ shapeCasts_S1x80_S1x80) (ix2 0 k)).trans ?_
  refine congrArg₂ (· + ·) rfl ?_
  refine (shapeCast_a_1a_apply _ shapeCasts_S80_S1x80 0 k).trans ?_
  refine (Ideal.multiReduction_add_single _ _ reduces_S1000x80_S80 _ _ (ix1 k)).trans ?_
  refine Finset.sum_congr rfl fun (r : Fin 1000) _ => ?_
  refine (congrArg (exp (F := Ideal) (subf ld (broadcastTo S1000x80 (maximumf (F := Ideal) M cm) broadcasts_S1x80_S1000x80)))
    (lift_col k r)).trans ?_
  show Ideal.exp (ld (ix2 r k) - broadcastTo S1000x80 (maximumf (F := Ideal) M cm) broadcasts_S1x80_S1000x80 (ix2 r k)) = _
  rw [broadcastTo_1b_ab_apply]
  rfl

/-! ## The class softmax of a block of logits -/

/-- A column of 1000 cast to 1000 × 1 reads its entry r at (r, u). -/
theorem shapeCast_col (v : FVec Ideal S1000 .f32) (r : Fin 1000) (u : Fin 1) :
    shapeCast S1000x1 v shapeCasts_S1000_S1000x1 (ix2 r u) = v (ix1 r) :=
  shapeCast_apply v shapeCasts_S1000_S1000x1 _ _ (by
    have hu : u.val = 0 := by omega
    rw [Shape.rowMajor_val_two, Shape.rowMajor_val_one]
    show r.val = r.val * 1 + u.val
    rw [hu, Nat.mul_one, Nat.add_zero])

/-- A 1000 × 1 column spread over the 80 classes reads its entry of row r at (r, k). -/
theorem broadcast_col (v : FVec Ideal S1000x1 .f32) (r : Fin 1000) (k : Fin 80) :
    broadcastTo S1000x80 v broadcasts_S1000x1_S1000x80 (ix2 r k) = v (ix2 r (0 : Fin 1)) := by
  refine broadcastTo_apply v broadcasts_S1000x1_S1000x80 (ix2 r k) (ix2 r (0 : Fin 1)) fun ax => ?_
  match ax with
  | ⟨0, _⟩ => rfl
  | ⟨1, _⟩ => rfl

/-- Inserting class k' over row r in a row reduction gives the index (r, k'). -/
theorem lift_row (r : Fin 1000) (k' : Fin 80) : reduces_S1000x80_S1000.lift (ix1 r) k' = ix2 r k' := by
  funext c
  match c with
  | ⟨0, _⟩ => exact Fin.ext rfl
  | ⟨1, _⟩ => exact Fin.ext rfl

/-- The row maxima of a block, spread back over the classes. -/
def rowMaxV (l : FVec Ideal S1000x80 .f32) : FVec Ideal S1000x80 .f32 :=
  broadcastTo S1000x80 (shapeCast S1000x1
    (multiReduction (F := Ideal) .maximumf [1] S1000 l 0xFF800000#32 reduces_S1000x80_S1000 (.inl rfl) rfl)
    shapeCasts_S1000_S1000x1) broadcasts_S1000x1_S1000x80

/-- The row sums of a block, spread back over the classes. -/
def rowSumV (e : FVec Ideal S1000x80 .f32) : FVec Ideal S1000x80 .f32 :=
  broadcastTo S1000x80 (shapeCast S1000x1
    (multiReduction (F := Ideal) .add [1] S1000 e 0x00000000#32 reduces_S1000x80_S1000 (.inl rfl) rfl)
    shapeCasts_S1000_S1000x1) broadcasts_S1000x1_S1000x80

theorem rowMaxV_apply (l : FVec Ideal S1000x80 .f32) (r : Fin 1000) (k : Fin 80) :
    rowMaxV l (ix2 r k) = top (fun k' : Fin 80 => l (ix2 r k')) := by
  unfold rowMaxV
  refine (broadcast_col _ r k).trans ?_
  refine (shapeCast_col _ r 0).trans ?_
  refine (Ideal.multiReduction_maximumf_single l _ reduces_S1000x80_S1000 _ _ (ix1 r)).trans ?_
  show (Finset.univ : Finset (Fin 80)).fold max (Ideal.ofBits .f32 0xFF800000#32)
      (l ∘ reduces_S1000x80_S1000.lift (ix1 r)) = _
  rw [ofBits_negInf]
  unfold top
  refine congrArg (fun f => Finset.fold max (⊥ : EReal) f (Finset.univ : Finset (Fin 80))) (funext fun (k' : Fin 80) => ?_)
  exact congrArg l (lift_row r k')

theorem rowSumV_apply (e : FVec Ideal S1000x80 .f32) (r : Fin 1000) (k : Fin 80) :
    rowSumV e (ix2 r k) = ∑ k' : Fin 80, e (ix2 r k') := by
  unfold rowSumV
  refine (broadcast_col _ r k).trans ?_
  refine (shapeCast_col _ r 0).trans ?_
  refine (Ideal.multiReduction_add_single e _ reduces_S1000x80_S1000 _ _ (ix1 r)).trans ?_
  refine Finset.sum_congr rfl fun (k' : Fin 80) _ => ?_
  exact congrArg e (lift_row r k')

/-- The stored class stream is the softmax of the block's logits over the classes, built from the same logits as the
    detection stream's block. -/
theorem pay8_eq (x : Vec Ideal S1000x4096 .f32) (w : Vec Ideal S4096x80 .bf16) (b : Vec Ideal S1x80 .f32) :
    k0_pay8 (F := Ideal) x w b
      = divf (exp (subf (k0_pay7 (F := Ideal) x w b) (rowMaxV (k0_pay7 (F := Ideal) x w b))))
          (rowSumV (exp (subf (k0_pay7 (F := Ideal) x w b) (rowMaxV (k0_pay7 (F := Ideal) x w b))))) := rfl

/-- The class softmax of the block at row r and class k. -/
theorem pay8_apply (x : Vec Ideal S1000x4096 .f32) (w : Vec Ideal S4096x80 .bf16) (b : Vec Ideal S1x80 .f32)
    (r : Fin 1000) (k : Fin 80) :
    k0_pay8 (F := Ideal) x w b (ix2 r k)
      = Ideal.div (Ideal.exp (blkLogit x w b r k - top (blkLogit x w b r)))
          (∑ k' : Fin 80, Ideal.exp (blkLogit x w b r k' - top (blkLogit x w b r))) := by
  have hmax : ∀ k' : Fin 80, rowMaxV (k0_pay7 (F := Ideal) x w b) (ix2 r k') = top (blkLogit x w b r) := fun k' =>
    (rowMaxV_apply _ r k').trans (congrArg top (funext fun k'' => pay7_apply x w b r k''))
  have hexp : ∀ k' : Fin 80,
      exp (F := Ideal) (subf (k0_pay7 (F := Ideal) x w b) (rowMaxV (k0_pay7 (F := Ideal) x w b))) (ix2 r k')
        = Ideal.exp (blkLogit x w b r k' - top (blkLogit x w b r)) := fun k' => by
    show Ideal.exp (k0_pay7 (F := Ideal) x w b (ix2 r k') - rowMaxV (k0_pay7 (F := Ideal) x w b) (ix2 r k')) = _
    rw [hmax k', pay7_apply]
  refine (congrFun (pay8_eq x w b) (ix2 r k)).trans ?_
  refine congrArg₂ Ideal.div (hexp k) ?_
  refine (rowSumV_apply _ r k).trans ?_
  exact Finset.sum_congr rfl fun k' _ => hexp k'

end Cert.KernelIdeal.Pay

end
-- ==== Proof.Blocks.lean ====
import proofs.«136734_g55722905698378_cont_9to1_m_658_7_alg».proof.Proof.Gen.KernelIdeal.Frame
import proofs.«136734_g55722905698378_cont_9to1_m_658_7_alg».proof.Proof.Spec
import Idealize.ShloMosaic.Lib.ValueIdx
import Idealize.ShloMosaic.Lib.Pipeline.Value
import Idealize.ShloMosaic.Lib.StableHlo.Run

/-!
  Each input block, read at an index, is an entry of an argument array.

  The feature array is staged in five blocks of 1000 rows: entry (r, κ) of block t is entry (1000·t + r, κ) of the
  array. The two weight matrices are staged whole after a change of float format, which is the identity on the
  extended reals: entry (κ, k) of the block is entry (κ, k) of the matrix. The two biases are staged whole after
  being viewed as 1 × 80: entry (0, k) of the block is entry k of the bias.
-/

noncomputable section

namespace Cert.KernelIdeal.Blk

open Cert.KernelIdeal Cert.KernelIdeal.Gen Cert.Wsddn
open Idealize.ShloMosaic Idealize.ShloMosaic.ValueIdx Idealize.ShloMosaic.TcCoe Idealize.SL.Sem

variable (m : (ℓ : Loc nD τ sig) → Buf (Elt Ideal) ℓ)

/-! ## The staged arrays as the argument arrays -/

/-- The first weight matrix after its change of format is itself. -/
theorem wc_eq (c : Dev nD) : (V m c main_call0_v2 : S4096x80.Idx → EReal)
    = (m ((c.tc : Thread nD τ).loc main_arg1) : S4096x80.Idx → EReal) := by
  dsimp only [Gen.V, Gen.hostOps0]
  after_results
  rfl

/-- The second weight matrix after its change of format is itself. -/
theorem wd_eq (c : Dev nD) : (V m c main_call0_v3 : S4096x80.Idx → EReal)
    = (m ((c.tc : Thread nD τ).loc main_arg3) : S4096x80.Idx → EReal) := by
  dsimp only [Gen.V, Gen.hostOps0]
  after_results
  rfl

/-- The first bias viewed as 1 × 80, at (0, k), is the bias at k. -/
theorem bc_eq (c : Dev nD) (k : Fin 80) : (V m c main_call0_v0 : S1x80.Idx → EReal) (ix2 0 k)
    = (m ((c.tc : Thread nD τ).loc main_arg2) : S80.Idx → EReal) (ix1 k) := by
  dsimp only [Gen.V, Gen.hostOps0]
  after_results
  show shapeCast S1x80 (m ((c.tc : Thread nD τ).loc main_arg2) : S80.Idx → EReal) Gen.shapeCasts_S80_S1x80 (ix2 0 k) = _
  refine shapeCast_apply _ _ _ (ix1 k) ?_
  rw [Shape.rowMajor_val_one, Shape.rowMajor_val_two]
  show k.val = 0 * 80 + k.val
  omega

/-- The second bias viewed as 1 × 80, at (0, k), is the bias at k. -/
theorem bd_eq (c : Dev nD) (k : Fin 80) : (V m c main_call0_v1 : S1x80.Idx → EReal) (ix2 0 k)
    = (m ((c.tc : Thread nD τ).loc main_arg4) : S80.Idx → EReal) (ix1 k) := by
  dsimp only [Gen.V, Gen.hostOps0]
  after_results
  show shapeCast S1x80 (m ((c.tc : Thread nD τ).loc main_arg4) : S80.Idx → EReal) Gen.shapeCasts_S80_S1x80 (ix2 0 k) = _
  refine shapeCast_apply _ _ _ (ix1 k) ?_
  rw [Shape.rowMajor_val_one, Shape.rowMajor_val_two]
  show k.val = 0 * 80 + k.val
  omega

/-! ## The block offsets at every grid point -/

/-- The feature blocks advance one block of rows per grid point; the whole-array blocks do not move. -/
theorem offsets : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- There are five grid points. -/
theorem lt_five (t : Fin cfg0.N) : t.val < 5 := by
  have h := t.isLt
  have e : cfg0.N = 5 := N_0
  omega

/-! ## The blocks read at an index -/

/-- Entry (κ, k) of the first weight block is entry (κ, k) of the first weight matrix. -/
theorem blk1 (c : Dev nD) (t : Fin cfg0.N) (κ : Fin 4096) (k : Fin 80) :
    (iblk m c 1 t : S4096x80.Idx → EReal) (ix2 κ k)
      = (m ((c.tc : Thread nD τ).loc main_arg1) : S4096x80.Idx → EReal) (ix2 κ k) := by
  unfold iblk
  show (V m c main_call0_v2 : S4096x80.Idx → EReal) (((cfg0.win 1).blk t).view.emb (ix2 κ k)) = _
  rw [wc_eq]
  obtain ⟨_, _, e0, e1, _⟩ := offsets t
  refine congrArg _ (funext fun a => Fin.ext ?_)
  match a with
  | ⟨0, _⟩ => show win0_1.index t (0 : Fin 2) * 4096 + 1 * κ.val = κ.val; omega
  | ⟨1, _⟩ => show win0_1.index t (1 : Fin 2) * 80 + 1 * k.val = k.val; omega

/-- Entry (0, k) of the first bias block is entry k of the first bias. -/
theorem blk2 (c : Dev nD) (t : Fin cfg0.N) (k : Fin 80) :
    (iblk m c 2 t : S1x80.Idx → EReal) (ix2 0 k)
      = (m ((c.tc : Thread nD τ).loc main_arg2) : S80.Idx → EReal) (ix1 k) := by
  unfold iblk
  show (V m c main_call0_v0 : S1x80.Idx → EReal) (((cfg0.win 2).blk t).view.emb (ix2 0 k)) = _
  obtain ⟨_, _, _, _, e0, e1, _⟩ := offsets t
  refine Eq.trans (congrArg _ (funext fun a => Fin.ext ?_)) (bc_eq m c k)
  match a with
  | ⟨0, _⟩ => show win0_2.index t (0 : Fin 2) * 1 + 1 * 0 = 0; omega
  | ⟨1, _⟩ => show win0_2.index t (1 : Fin 2) * 80 + 1 * k.val = k.val; omega

/-- Entry (κ, k) of the second weight block is entry (κ, k) of the second weight matrix. -/
theorem blk3 (c : Dev nD) (t : Fin cfg0.N) (κ : Fin 4096) (k : Fin 80) :
    (iblk m c 3 t : S4096x80.Idx → EReal) (ix2 κ k)
      = (m ((c.tc : Thread nD τ).loc main_arg3) : S4096x80.Idx → EReal) (ix2 κ k) := by
  unfold iblk
  show (V m c main_call0_v3 : S4096x80.Idx → EReal) (((cfg0.win 3).blk t).view.emb (ix2 κ k)) = _
  rw [wd_eq]
  obtain ⟨_, _, _, _, _, _, e0, e1, _⟩ := offsets t
  refine congrArg _ (funext fun a => Fin.ext ?_)
  match a with
  | ⟨0, _⟩ => show win0_3.index t (0 : Fin 2) * 4096 + 1 * κ.val = κ.val; omega
  | ⟨1, _⟩ => show win0_3.index t (1 : Fin 2) * 80 + 1 * k.val = k.val; omega

/-- Entry (0, k) of the second bias block is entry k of the second bias. -/
theorem blk4 (c : Dev nD) (t : Fin cfg0.N) (k : Fin 80) :
    (iblk m c 4 t : S1x80.Idx → EReal) (ix2 0 k)
      = (m ((c.tc : Thread nD τ).loc main_arg4) : S80.Idx → EReal) (ix1 k) := by
  unfold iblk
  show (V m c main_call0_v1 : S1x80.Idx → EReal) (((cfg0.win 4).blk t).view.emb (ix2 0 k)) = _
  obtain ⟨_, _, _, _, _, _, _, _, e0, e1⟩ := offsets t
  refine Eq.trans (congrArg _ (funext fun a => Fin.ext ?_)) (bd_eq m c k)
  match a with
  | ⟨0, _⟩ => show win0_4.index t (0 : Fin 2) * 1 + 1 * 0 = 0; omega
  | ⟨1, _⟩ => show win0_4.index t (1 : Fin 2) * 80 + 1 * k.val = k.val; omega

/-- Entry (r, κ) of feature block t is entry (1000·t + r, κ) of the feature array. -/
theorem blk0 (c : Dev nD) (t : Fin cfg0.N) (r : Fin 1000) (κ : Fin 4096) :
    (iblk m c 0 t : S1000x4096.Idx → EReal) (ix2 r κ)
      = (m ((c.tc : Thread nD τ).loc main_arg0) : S5000x4096.Idx → EReal) (ix2 (rowOf ⟨t.val, lt_five t⟩ r) κ) := by
  unfold iblk
  show (V m c main_arg0 : S5000x4096.Idx → EReal) (((cfg0.win 0).blk t).view.emb (ix2 r κ)) = _
  rw [V_main_arg0]
  obtain ⟨e0, e1, _⟩ := offsets t
  refine congrArg _ (funext fun a => Fin.ext ?_)
  match a with
  | ⟨0, _⟩ => show win0_0.index t (0 : Fin 2) * 1000 + 1 * r.val = 1000 * t.val + r.val; omega
  | ⟨1, _⟩ => show win0_0.index t (1 : Fin 2) * 4096 + 1 * κ.val = κ.val; omega

end Cert.KernelIdeal.Blk

end
-- ==== Proof.Online.lean ====
/-
  The column softmax computed in one pass over five blocks of 1000 rows agrees with the one-shot softmax:
  the running maximum after the last block is the maximum of the whole column, and the running sum,
  rescaled by exp(old maximum − new maximum) at every step, is the sum of exp(l n − maximum) over all rows.
  The rescaling identity exp(a − m) · exp(m − m') = exp(a − m') holds for finite values, so the column is
  assumed real; the maximum of a nonempty finite real family is real.
-/
import proofs.«136734_g55722905698378_cont_9to1_m_658_7_alg».proof.Proof.Spec
import Mathlib.Data.Finset.Fold
import Mathlib.Data.EReal.Basic
import Mathlib.Data.EReal.Operations
import Mathlib.Algebra.BigOperators.Fin
import Mathlib.Algebra.BigOperators.Group.Finset.Sigma
import Mathlib.Algebra.BigOperators.Group.Finset.Basic
import Mathlib.Analysis.Complex.Exponential

noncomputable section

open scoped BigOperators

namespace Cert.Wsddn

open Idealize.ShloMosaic Idealize.ShloMosaic.ValueIdx

/-! ## The maximum of a finite family -/

/-- The maximum is the least upper bound. -/
theorem top_le_iff {ι : Type} [Fintype ι] (f : ι → EReal) (c : EReal) : top f ≤ c ↔ ∀ i, f i ≤ c := by
  unfold top
  rw [Finset.fold_max_le]
  constructor
  · intro h i
    exact h.2 i (Finset.mem_univ i)
  · intro h
    exact ⟨bot_le, fun i _ => h i⟩

/-- The maximum of a nonempty finite family of reals is real. -/
theorem top_real {ι : Type} [Fintype ι] [Nonempty ι] (f : ι → EReal) (hf : ∀ i, ∃ y : ℝ, f i = (y : EReal)) :
    ∃ y : ℝ, top f = (y : EReal) := by
  have h1 : top f ≠ ⊤ := by
    apply ne_of_lt
    unfold top
    rw [Finset.fold_max_lt]
    refine ⟨bot_lt_top, fun i _ => ?_⟩
    obtain ⟨y, hy⟩ := hf i
    rw [hy]
    exact EReal.coe_lt_top y
  have h2 : top f ≠ ⊥ := by
    apply ne_of_gt
    unfold top
    rw [Finset.lt_fold_max]
    right
    obtain ⟨i⟩ := (inferInstance : Nonempty ι)
    obtain ⟨y, hy⟩ := hf i
    exact ⟨i, Finset.mem_univ i, by rw [hy]; exact EReal.bot_lt_coe y⟩
  exact ⟨(top f).toReal, (EReal.coe_toReal h1 h2).symm⟩

/-! ## The running maximum -/

/-- The running maximum after block T is the least upper bound of blocks 0..T. -/
theorem runMax_le_iff (l : Fin 5000 → EReal) (T : ℕ) (c : EReal) :
    runMax l T ≤ c ↔ ∀ t, t ≤ T → ∀ r, blk l t r ≤ c := by
  induction T with
  | zero =>
    rw [runMax, top_le_iff]
    constructor
    · intro h t ht r
      have : t = 0 := Nat.le_zero.mp ht
      subst this
      exact h r
    · intro h r
      exact h 0 (le_refl 0) r
  | succ T ih =>
    rw [runMax, max_le_iff, ih, top_le_iff]
    constructor
    · rintro ⟨h1, h2⟩ t ht r
      rcases Nat.lt_or_ge t (T + 1) with h | h
      · exact h1 t (Nat.lt_succ_iff.mp h) r
      · have : t = T + 1 := le_antisymm ht h
        subst this
        exact h2 r
    · intro h
      exact ⟨fun t ht r => h t (Nat.le_succ_of_le ht) r, fun r => h (T + 1) (le_refl _) r⟩

/-- Every row lies in one of the five blocks. -/
theorem blk_div_mod (l : Fin 5000 → EReal) (n : Fin 5000) :
    blk l (n.val / 1000) ⟨n.val % 1000, Nat.mod_lt _ (by norm_num)⟩ = l n := by
  have hn := n.isLt
  have h : n.val / 1000 < 5 := by omega
  unfold blk
  rw [dif_pos h]
  congr 1
  apply Fin.ext
  simp only [rowOf]
  omega

theorem blk_coe (l : Fin 5000 → EReal) (t : Fin 5) (r : Fin 1000) : blk l t.val r = l (rowOf t r) := by
  unfold blk
  rw [dif_pos t.isLt]

theorem runMax_four (l : Fin 5000 → EReal) : runMax l 4 = top l := by
  apply eq_of_forall_ge_iff
  intro c
  rw [runMax_le_iff, top_le_iff]
  constructor
  · intro h n
    have hn := n.isLt
    rw [← blk_div_mod l n]
    exact h _ (by omega) _
  · intro h t ht r
    have ht' : t < 5 := by omega
    have := blk_coe l ⟨t, ht'⟩ r
    simp only at this
    rw [this]
    exact h _

/-! ## Real sums inside the extended reals -/

theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- exp(f − a) · exp(a − a') = exp(f − a'), summed over a finite real family. -/
theorem sum_exp_rescale {ι : Type} (s : Finset ι) (g : ι → EReal) (f : ι → ℝ) (hg : ∀ i ∈ s, g i = (f i : EReal))
    (a a' : ℝ) :
    (∑ i ∈ s, Ideal.exp (g i - (a : EReal))) * Ideal.exp ((a : EReal) - (a' : EReal))
      = ∑ i ∈ s, Ideal.exp (g i - (a' : EReal)) := by
  have e1 : ∀ b : ℝ, ∑ i ∈ s, Ideal.exp (g i - (b : EReal)) = ((∑ i ∈ s, Real.exp (f i - b) : ℝ) : EReal) := by
    intro b
    rw [coe_finset_sum]
    apply Finset.sum_congr rfl
    intro i hi
    rw [hg i hi, ← EReal.coe_sub, Ideal.exp_coe]
  rw [e1 a, e1 a', ← EReal.coe_sub, Ideal.exp_coe, ← EReal.coe_mul, Finset.sum_mul]
  congr 1
  apply Finset.sum_congr rfl
  intro i _
  rw [← Real.exp_add]
  congr 1
  ring

/-! ## The running sum -/

theorem blk_real (l : Fin 5000 → EReal) (hl : ∀ n, ∃ y : ℝ, l n = (y : EReal)) (t : ℕ) (ht : t < 5) (r : Fin 1000) :
    ∃ y : ℝ, blk l t r = (y : EReal) := by
  unfold blk
  rw [dif_pos ht]
  exact hl _

theorem runMax_real (l : Fin 5000 → EReal) (hl : ∀ n, ∃ y : ℝ, l n = (y : EReal)) (T : ℕ) (hT : T < 5) :
    ∃ y : ℝ, runMax l T = (y : EReal) := by
  induction T with
  | zero =>
    rw [runMax]
    exact top_real _ (blk_real l hl 0 hT)
  | succ T ih =>
    obtain ⟨a, ha⟩ := ih (by omega)
    obtain ⟨b, hb⟩ := top_real _ (blk_real l hl (T + 1) hT)
    rw [runMax, ha, hb]
    exact ⟨max a b, (EReal.coe_strictMono.monotone.map_max (a := a) (b := b)).symm⟩

/-- After block T the running sum is the sum over blocks 0..T of exp(entry − running maximum). -/
theorem runSum_eq (l : Fin 5000 → EReal) (hl : ∀ n, ∃ y : ℝ, l n = (y : EReal)) (T : ℕ) (hT : T < 5) :
    runSum l T = ∑ t ∈ Finset.range (T + 1), ∑ r : Fin 1000, Ideal.exp (blk l t r - runMax l T) := by
  induction T with
  | zero =>
    rw [runSum, Finset.sum_range_one]
  | succ T ih =>
    obtain ⟨a, ha⟩ := runMax_real l hl T (by omega)
    obtain ⟨a', ha'⟩ := runMax_real l hl (T + 1) hT
    rw [runSum, ih (by omega), Finset.sum_range_succ _ (T + 1)]
    congr 1
    rw [ha, ha']
    rw [← Finset.sum_product' (Finset.range (T + 1)) (Finset.univ : Finset (Fin 1000))
        (fun t r => Ideal.exp (blk l t r - (a : EReal))),
      ← Finset.sum_product' (Finset.range (T + 1)) (Finset.univ : Finset (Fin 1000))
        (fun t r => Ideal.exp (blk l t r - (a' : EReal)))]
    apply sum_exp_rescale _ (fun p : ℕ × Fin 1000 => blk l p.1 p.2) (fun p => (blk l p.1 p.2).toReal)
    intro p hp
    have hp1 : p.1 < 5 := by
      have := (Finset.mem_product.mp hp).1
      rw [Finset.mem_range] at this
      omega
    obtain ⟨y, hy⟩ := blk_real l hl p.1 hp1 p.2
    rw [hy, EReal.toReal_coe]

/-- The five blocks of 1000 rows tile the 5000 rows. -/
def rowEquiv : Fin 5 × Fin 1000 ≃ Fin 5000 where
  toFun p := rowOf p.1 p.2
  invFun n := (⟨n.val / 1000, by have := n.isLt; omega⟩, ⟨n.val % 1000, Nat.mod_lt _ (by norm_num)⟩)
  left_inv := by
    rintro ⟨t, r⟩
    have ht := t.isLt
    have hr := r.isLt
    apply Prod.ext
    · apply Fin.ext
      simp only [rowOf]
      omega
    · apply Fin.ext
      simp only [rowOf]
      omega
  right_inv := by
    intro n
    apply Fin.ext
    simp only [rowOf]
    omega

theorem sum_blocks (l : Fin 5000 → EReal) (F : EReal → EReal) :
    ∑ t ∈ Finset.range 5, ∑ r : Fin 1000, F (blk l t r) = ∑ n : Fin 5000, F (l n) := by
  rw [Finset.sum_range (fun t => ∑ r : Fin 1000, F (blk l t r))]
  rw [← Equiv.sum_comp rowEquiv (fun n => F (l n)), Fintype.sum_prod_type]
  apply Finset.sum_congr rfl
  intro t _
  apply Finset.sum_congr rfl
  intro r _
  rw [blk_coe]
  rfl

theorem runSum_four (l : Fin 5000 → EReal) (hl : ∀ n, ∃ y : ℝ, l n = (y : EReal)) :
    runSum l 4 = ∑ n : Fin 5000, Ideal.exp (l n - top l) := by
  rw [runSum_eq l hl 4 (by norm_num), runMax_four]
  exact sum_blocks l (fun v => Ideal.exp (v - top l))

/-! ## Logits of real data are real -/

theorem logit_real (x : (⟨2, ![5000, 4096]⟩ : Shape).Idx → EReal) (w : (⟨2, ![4096, 80]⟩ : Shape).Idx → EReal)
    (b : (⟨1, ![80]⟩ : Shape).Idx → EReal)
    (hx : ∀ i, ∃ y : ℝ, x i = (y : EReal)) (hw : ∀ i, ∃ y : ℝ, w i = (y : EReal))
    (hb : ∀ i, ∃ y : ℝ, b i = (y : EReal)) (n : Fin 5000) (k : Fin 80) :
    ∃ y : ℝ, logit x w b n k = (y : EReal) := by
  choose fx hfx using hx
  choose fw hfw using hw
  choose fb hfb using hb
  refine ⟨(∑ κ : Fin 4096, fx (ix2 n κ) * fw (ix2 κ k)) + fb (ix1 k), ?_⟩
  unfold logit
  have hs : ∑ κ : Fin 4096, x (ix2 n κ) * w (ix2 κ k)
      = ∑ κ : Fin 4096, ((fx (ix2 n κ) * fw (ix2 κ k) : ℝ) : EReal) := by
    apply Finset.sum_congr rfl
    intro κ _
    rw [hfx, hfw, EReal.coe_mul]
  rw [EReal.coe_add, coe_finset_sum, hfb, hs]

end Cert.Wsddn

end
-- ==== Proof.Value.lean ====
/-
  The kernel's buffers, read point by point, hold the two-stream scoring function: block t of the class stream is
  the row softmax of the class logits of rows [1000 t, 1000 t + 1000); the detection logits of the same rows feed a
  running column maximum and a running rescaled column sum, which after the fifth block are the maximum and the sum
  of exponentials of the whole column; the final product is then the score array.
-/
import proofs.«136734_g55722905698378_cont_9to1_m_658_7_alg».proof.Proof.State
import proofs.«136734_g55722905698378_cont_9to1_m_658_7_alg».proof.Proof.Payloads
import proofs.«136734_g55722905698378_cont_9to1_m_658_7_alg».proof.Proof.Blocks
import proofs.«136734_g55722905698378_cont_9to1_m_658_7_alg».proof.Proof.Online
import proofs.«136734_g55722905698378_cont_9to1_m_658_7_alg».proof.Proof.Spec

noncomputable section

open scoped BigOperators

namespace Cert.KernelIdeal.Val

open Cert.KernelIdeal Cert.KernelIdeal.Gen Cert.Wsddn Idealize.ShloMosaic Idealize.ShloMosaic.ValueIdx Idealize.ShloMosaic.TcCoe
open Idealize.SL.Sem

variable (m : (ℓ : Loc nD τ sig) → Buf (Elt Ideal) ℓ) (c : Dev nD)

/-- The five points of the grid. -/
theorem lt5 (t : Fin cfg0.N) : t.val < 5 := lt_of_lt_of_eq t.isLt N_0

/-- The features, the class head's weights and bias, the detection head's weights and bias, as launched. -/
abbrev A0 : (⟨2, ![5000, 4096]⟩ : Shape).Idx → EReal := m ((c.tc : Thread nD τ).loc main_arg0)
abbrev A1 : (⟨2, ![4096, 80]⟩ : Shape).Idx → EReal := m ((c.tc : Thread nD τ).loc main_arg1)
abbrev A2 : (⟨1, ![80]⟩ : Shape).Idx → EReal := m ((c.tc : Thread nD τ).loc main_arg2)
abbrev A3 : (⟨2, ![4096, 80]⟩ : Shape).Idx → EReal := m ((c.tc : Thread nD τ).loc main_arg3)
abbrev A4 : (⟨1, ![80]⟩ : Shape).Idx → EReal := m ((c.tc : Thread nD τ).loc main_arg4)

/-- The class head's logits and the detection head's logits. -/
abbrev lc : Fin 5000 → Fin 80 → EReal := logit (A0 m c) (A1 m c) (A2 m c)
abbrev ld : Fin 5000 → Fin 80 → EReal := logit (A0 m c) (A3 m c) (A4 m c)

/-- Block t's class logits are the class logits of rows [1000 t, 1000 t + 1000). -/
theorem blkLogit_c (t : Fin cfg0.N) (r : Fin 1000) (k : Fin 80) :
    Pay.blkLogit (iblk m c 0 t) (iblk m c 1 t) (iblk m c 2 t) r k = lc m c (rowOf ⟨t.val, lt5 t⟩ r) k := by
  unfold Pay.blkLogit
  show _ = (∑ κ : Fin 4096, A0 m c (ix2 (rowOf ⟨t.val, lt5 t⟩ r) κ) * A1 m c (ix2 κ k)) + A2 m c (ix1 k)
  refine congrArg₂ (· + ·) (Finset.sum_congr rfl fun κ _ => ?_) (Blk.blk2 m c t k)
  exact congrArg₂ (· * ·) (Blk.blk0 m c t r κ) (Blk.blk1 m c t κ k)

/-- Block t's detection logits are the detection logits of rows [1000 t, 1000 t + 1000). -/
theorem blkLogit_d (t : Fin cfg0.N) (r : Fin 1000) (k : Fin 80) :
    Pay.blkLogit (iblk m c 0 t) (iblk m c 3 t) (iblk m c 4 t) r k = ld m c (rowOf ⟨t.val, lt5 t⟩ r) k := by
  unfold Pay.blkLogit
  show _ = (∑ κ : Fin 4096, A0 m c (ix2 (rowOf ⟨t.val, lt5 t⟩ r) κ) * A3 m c (ix2 κ k)) + A4 m c (ix1 k)
  refine congrArg₂ (· + ·) (Finset.sum_congr rfl fun κ _ => ?_) (Blk.blk4 m c t k)
  exact congrArg₂ (· * ·) (Blk.blk0 m c t r κ) (Blk.blk3 m c t κ k)

theorem cB_apply (t : Fin cfg0.N) (r : Fin 1000) (k : Fin 80) :
    St.cB m c t (ix2 r k) = rowSoft (lc m c) (rowOf ⟨t.val, lt5 t⟩ r) k := by
  have h : Pay.blkLogit (iblk m c 0 t) (iblk m c 1 t) (iblk m c 2 t) r = lc m c (rowOf ⟨t.val, lt5 t⟩ r) :=
    funext fun k' => blkLogit_c m c t r k'
  unfold St.cB
  rw [Pay.pay8_apply, h]
  rfl

theorem ldB_apply (t : Fin cfg0.N) (r : Fin 1000) (k : Fin 80) :
    St.ldB m c t (ix2 r k) = ld m c (rowOf ⟨t.val, lt5 t⟩ r) k := by
  unfold St.ldB
  rw [Pay.pay7_apply, blkLogit_d]

theorem ldS_eq (t : Fin cfg0.N) : St.ldS m c t = St.ldB m c t := Pay.pay9_eq _ _ _

/-- The same, as an entry of block t of column k. -/
theorem ldB_blk (t : Fin cfg0.N) (r : Fin 1000) (k : Fin 80) :
    St.ldB m c t (ix2 r k) = blk (fun n => ld m c n k) t.val r := by
  rw [ldB_apply]
  exact (blk_coe (fun n => ld m c n k) ⟨t.val, lt5 t⟩ r).symm

theorem cmB_apply (t : Fin cfg0.N) (k : Fin 80) :
    St.cmB m c t (ix2 0 k) = top (blk (fun n => ld m c n k) t.val) := by
  unfold St.cmB
  rw [Pay.pay10_apply]
  refine congrArg top (funext fun r => ?_)
  rw [blkLogit_d]
  exact (blk_coe (fun n => ld m c n k) ⟨t.val, lt5 t⟩ r).symm

theorem MS_fst (n : ℕ) (hn : n < cfg0.N) (k : Fin 80) :
    (St.MS m c n hn).1 (ix2 0 k) = runMax (fun n' => ld m c n' k) n := by
  induction n with
  | zero =>
    have e : (St.MS m c 0 hn).1 = k0_pay1 (St.cmB m c ⟨0, hn⟩) := by rw [St.MS_zero]
    rw [e, Pay.pay1_eq, cmB_apply, runMax]
  | succ n ih =>
    have e : (St.MS m c (n + 1) hn).1
        = k0_pay4 (St.cmB m c ⟨n + 1, hn⟩) (St.MS m c n (Nat.lt_of_succ_lt hn)).1 := by rw [St.MS_succ]
    rw [e, Pay.pay4_apply, ih (Nat.lt_of_succ_lt hn), cmB_apply, runMax]

theorem MS_snd (n : ℕ) (hn : n < cfg0.N) (k : Fin 80) :
    (St.MS m c n hn).2 (ix2 0 k) = runSum (fun n' => ld m c n' k) n := by
  induction n with
  | zero =>
    have e : (St.MS m c 0 hn).2 = k0_pay2 (St.ldB m c ⟨0, hn⟩) (St.cmB m c ⟨0, hn⟩) := by rw [St.MS_zero]
    rw [e, Pay.pay2_apply, cmB_apply, runSum, runMax]
    refine Finset.sum_congr rfl fun r _ => ?_
    rw [ldB_blk]
  | succ n ih =>
    have e : (St.MS m c (n + 1) hn).2
        = k0_pay5 (St.ldB m c ⟨n + 1, hn⟩) (St.cmB m c ⟨n + 1, hn⟩) (St.MS m c n (Nat.lt_of_succ_lt hn)).1
            (St.MS m c n (Nat.lt_of_succ_lt hn)).2 := by rw [St.MS_succ]
    rw [e, Pay.pay5_apply, ih (Nat.lt_of_succ_lt hn), MS_fst, cmB_apply, runSum, runMax]
    refine congrArg₂ (· + ·) rfl (Finset.sum_congr rfl fun r _ => ?_)
    rw [ldB_blk]

theorem fin_eq (hN : 4 < cfg0.N) (O L : S5000x80.Idx → EReal)
    (hO : ∀ (t : Fin cfg0.N) (x : S1000x80.Idx) (j : S5000x80.Idx),
      (j 0).val = 1000 * t.val + (x 0).val → (j 1).val = (x 1).val → O j = St.cB m c t x)
    (hL : ∀ (t : Fin cfg0.N) (x : S1000x80.Idx) (j : S5000x80.Idx),
      (j 0).val = 1000 * t.val + (x 0).val → (j 1).val = (x 1).val → L j = St.ldS m c t x)
    (hfin : (∀ i, ∃ y : ℝ, A0 m c i = (y : EReal)) ∧ (∀ i, ∃ y : ℝ, A1 m c i = (y : EReal))
      ∧ (∀ i, ∃ y : ℝ, A2 m c i = (y : EReal)) ∧ (∀ i, ∃ y : ℝ, A3 m c i = (y : EReal))
      ∧ (∀ i, ∃ y : ℝ, A4 m c i = (y : EReal))) :
    St.fin m c hN O L = scores (A0 m c) (A1 m c) (A2 m c) (A3 m c) (A4 m c) := by
  obtain ⟨h0, h1, h2, h3, h4⟩ := hfin
  funext j
  obtain ⟨n, k, rfl⟩ : ∃ (n : Fin 5000) (k : Fin 80), j = ix2 n k := ⟨j 0, j 1, eq_ix2 j⟩
  have hn := n.isLt
  have ht : n.val / 1000 < cfg0.N := lt_of_lt_of_eq (by omega : n.val / 1000 < 5) N_0.symm
  have hr : n.val % 1000 < 1000 := Nat.mod_lt _ (by norm_num)
  have hrow : rowOf ⟨n.val / 1000, lt5 ⟨n.val / 1000, ht⟩⟩ ⟨n.val % 1000, hr⟩ = n := by
    apply Fin.ext
    simp only [rowOf]
    omega
  have hj0 : ((ix2 n k : S5000x80.Idx) 0).val
      = 1000 * (⟨n.val / 1000, ht⟩ : Fin cfg0.N).val + ((ix2 (⟨n.val % 1000, hr⟩ : Fin 1000) k : S1000x80.Idx) 0).val := by
    show n.val = 1000 * (n.val / 1000) + n.val % 1000
    omega
  have hOj : O (ix2 n k) = rowSoft (lc m c) n k := by
    rw [hO ⟨n.val / 1000, ht⟩ (ix2 ⟨n.val % 1000, hr⟩ k) (ix2 n k) hj0 rfl, cB_apply]
    exact congrArg (fun n' => rowSoft (lc m c) n' k) hrow
  have hLj : L (ix2 n k) = ld m c n k := by
    rw [hL ⟨n.val / 1000, ht⟩ (ix2 ⟨n.val % 1000, hr⟩ k) (ix2 n k) hj0 rfl, ldS_eq, ldB_apply]
    exact congrArg (fun n' => ld m c n' k) hrow
  have hreal : ∀ n', ∃ y : ℝ, (fun n'' => ld m c n'' k) n' = (y : EReal) := fun n' =>
    logit_real (A0 m c) (A3 m c) (A4 m c) h0 h3 h4 n' k
  unfold St.fin
  rw [Pay.pay6_apply, hOj, hLj, MS_fst, MS_snd, runMax_four, runSum_four _ hreal]
  rfl

end Cert.KernelIdeal.Val

end
-- ==== Proof.Finite.lean ====
import proofs.«136734_g55722905698378_cont_9to1_m_658_7_alg».proof.Defs
import Idealize.ShloMosaic.Lib.ReduceAll
import Idealize.ShloMosaic.Lib.ValueIdx
import Idealize.ShloMosaic.PureOps.Ideal.Laws

/-!
  The precondition read back: each of the five argument arrays passes the test "every entry has absolute
  value strictly below the top element", and the five tests are joined by conjunction. An extended real
  whose absolute value max x (-x) is strictly below the top is neither the bottom nor the top, hence a
  real number. So every entry of every argument array is a real number.
-/

noncomputable section

namespace Cert.KernelIdeal.Fin

open Idealize.ShloMosaic Cert.Pre_finite_inputs

instance : Subsingleton S_.Idx := ⟨fun a b => funext fun d => d.elim0⟩

/-- An extended real whose absolute value lies strictly below the top is a real number. -/
theorem real_of_abs_lt (x : EReal)
    (h : FloatOps.cmpf (F := Ideal) (φ := .f32) .olt (FloatOps.hostAbsf x) (FloatOps.ofBits .f32 0x7F800000#32) = 1#1) :
    ∃ y : ℝ, x = (y : EReal) := by
  have htop : Ideal.ofBits .f32 0x7F800000#32 = ⊤ := by simp [Ideal.ofBits, Ideal.ieee]
  rw [Ideal.hostAbsf_def, Ideal.cmpf_def, Ideal.absf_def, Ideal.ofBits_def, htop] at h
  induction x using EReal.rec with
  | bot => simp [Ideal.cmp] at h
  | top => simp [Ideal.cmp] at h
  | coe r => exact ⟨r, rfl⟩

/-- One array: if the all-reduction of the elementwise test of absolute value below the top is 1, every entry is real. -/
theorem real_of_all {s : Shape} {axes : List (Fin s.rank)} (a : s.Idx → EReal)
    (hb : S_.BroadcastsInDim s (![] : Fin 0 → Fin s.rank)) (hr : s.ReducesTo axes S_) (hS : 0 < S_.numel)
    (h : Host.reduce IntOp.andi
          (cmpf (F := Ideal) (φ := .f32) .olt (Host.absf a) (broadcastInDim s ![] hb (constant S_ .f32 0x7F800000#32)))
          (constantI S_ 1 1#1) hr hS ValueIdx.ix0 = 1#1) :
    ∀ i, ∃ y : ℝ, a i = (y : EReal) := fun i =>
  real_of_abs_lt (a i) (Host.reduce_andi_all _ _ hr hS ValueIdx.ix0 h i)

/-- Under the precondition, every entry of each of the five argument arrays is a real number. -/
theorem finite_args [hP : Cert.Pre_finite_inputs.Facts] (a0 : S5000x4096.Idx → EReal) (a1 : S4096x80.Idx → EReal)
    (a2 : S80.Idx → EReal) (a3 : S4096x80.Idx → EReal) (a4 : S80.Idx → EReal)
    (h : Cert.Pre_finite_inputs.fn (F := Ideal) a0 a1 a2 a3 a4 = fun _ => 1#1) :
    (∀ i, ∃ y : ℝ, a0 i = (y : EReal)) ∧ (∀ i, ∃ y : ℝ, a1 i = (y : EReal)) ∧ (∀ i, ∃ y : ℝ, a2 i = (y : EReal))
      ∧ (∀ i, ∃ y : ℝ, a3 i = (y : EReal)) ∧ (∀ i, ∃ y : ℝ, a4 i = (y : EReal)) := by
  have h0 := congrFun h ValueIdx.ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3,
    real_of_all a4 _ _ _ h4⟩

open Idealize.SL.Sem in
/-- The same at the launch memory: under the precondition every entry of each of the five argument arrays
    held by a device is a real number. -/
theorem finite_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ y : ℝ, (m ((c.tc : Thread Cert.KernelIdeal.nD Cert.KernelIdeal.τ).loc Cert.KernelIdeal.main_arg0) : Cert.KernelIdeal.S5000x4096.Idx → EReal) i = (y : EReal))
      ∧ (∀ i, ∃ y : ℝ, (m ((c.tc : Thread Cert.KernelIdeal.nD Cert.KernelIdeal.τ).loc Cert.KernelIdeal.main_arg1) : Cert.KernelIdeal.S4096x80.Idx → EReal) i = (y : EReal))
      ∧ (∀ i, ∃ y : ℝ, (m ((c.tc : Thread Cert.KernelIdeal.nD Cert.KernelIdeal.τ).loc Cert.KernelIdeal.main_arg2) : Cert.KernelIdeal.S80.Idx → EReal) i = (y : EReal))
      ∧ (∀ i, ∃ y : ℝ, (m ((c.tc : Thread Cert.KernelIdeal.nD Cert.KernelIdeal.τ).loc Cert.KernelIdeal.main_arg3) : Cert.KernelIdeal.S4096x80.Idx → EReal) i = (y : EReal))
      ∧ (∀ i, ∃ y : ℝ, (m ((c.tc : Thread Cert.KernelIdeal.nD Cert.KernelIdeal.τ).loc Cert.KernelIdeal.main_arg4) : Cert.KernelIdeal.S80.Idx → EReal) i = (y : EReal)) :=
  finite_args _ _ _ _ _ (hpre c)

end Cert.KernelIdeal.Fin

end
-- ==== Proof.Reference.lean ====
import proofs.«136734_g55722905698378_cont_9to1_m_658_7_alg».proof.Defs
import proofs.«136734_g55722905698378_cont_9to1_m_658_7_alg».proof.Proof.Gen.ReferenceIdeal.Run
import proofs.«136734_g55722905698378_cont_9to1_m_658_7_alg».proof.Proof.Gen.ReferenceIdeal.Read
import proofs.«136734_g55722905698378_cont_9to1_m_658_7_alg».proof.Proof.Spec
import Idealize.ShloMosaic.PureOps.Reduce
import Idealize.ShloMosaic.PureOps.Ideal.Laws
import Idealize.ShloMosaic.Lib.ValueIdx

/-
  The reference, read index by index on the extended reals, is the two-stream scoring function of the
  specification: both heads' logits, each row's softmax over the classes, each column's softmax over the
  proposals, and their product.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Wsddn

/-- The bit pattern of −∞ is the bottom element. -/
theorem negInf_eq_bot : FloatOps.ofBits (F := Ideal) .f32 0xFF800000#32 = (⊥ : EReal) := by
  show Ideal.ofBits .f32 0xFF800000#32 = ⊥
  simp [Ideal.ofBits, Ideal.ieee]

/-- The first head's biased product at (n, k) is the logit. -/
theorem logit_c (x0 : (⟨S5000x4096, .f32⟩ : BufTy).Contents (Elt Ideal)) (x1 : (⟨S4096x80, .f32⟩ : BufTy).Contents (Elt Ideal))
    (x2 : (⟨S80, .f32⟩ : BufTy).Contents (Elt Ideal)) (n : Fin 5000) (k : Fin 80) :
    val_main_v3 (F := Ideal) x0 x1 x2 (ix2 n k) = logit x0 x1 x2 n k := by
  rw [val_main_v3_apply, val_main_v0_apply, val_main_v2_apply, val_main_v1_apply]
  rw [show idx_main_v1 (idx_main_v2 (ix2 n k)) = ix1 k from funext fun a => by match a with | ⟨0, _⟩ => rfl]
  simp only [Ideal.addf_def]
  unfold logit
  refine congrArg (· + x2 (ix1 k)) (Finset.sum_congr rfl fun κ _ => ?_)
  rw [show lidx_main_v0 (ix2 n k) κ = ix2 n κ from funext fun a => by match a with | ⟨0, _⟩ => rfl | ⟨1, _⟩ => rfl,
    show ridx_main_v0 (ix2 n k) κ = ix2 κ k from funext fun a => by match a with | ⟨0, _⟩ => rfl | ⟨1, _⟩ => rfl]

/-- The second head's biased product at (n, k) is the logit. -/
theorem logit_d (x0 : (⟨S5000x4096, .f32⟩ : BufTy).Contents (Elt Ideal)) (x3 : (⟨S4096x80, .f32⟩ : BufTy).Contents (Elt Ideal))
    (x4 : (⟨S80, .f32⟩ : BufTy).Contents (Elt Ideal)) (n : Fin 5000) (k : Fin 80) :
    val_main_v7 (F := Ideal) x0 x3 x4 (ix2 n k) = logit x0 x3 x4 n k := by
  rw [val_main_v7_apply, val_main_v4_apply, val_main_v6_apply, val_main_v5_apply]
  rw [show idx_main_v5 (idx_main_v6 (ix2 n k)) = ix1 k from funext fun a => by match a with | ⟨0, _⟩ => rfl]
  simp only [Ideal.addf_def]
  unfold logit
  refine congrArg (· + x4 (ix1 k)) (Finset.sum_congr rfl fun κ _ => ?_)
  rw [show lidx_main_v4 (ix2 n k) κ = ix2 n κ from funext fun a => by match a with | ⟨0, _⟩ => rfl | ⟨1, _⟩ => rfl,
    show ridx_main_v4 (ix2 n k) κ = ix2 κ k from funext fun a => by match a with | ⟨0, _⟩ => rfl | ⟨1, _⟩ => rfl]

/-- Row n with class k' put back on the dropped axis is (n, k'). -/
theorem lift_row (h : S5000x80.Reduces [1] S5000) (n : Fin 5000) (k' : Fin (S5000x80.size 1)) :
    h.lift (ix1 n) k' = ix2 n (⟨k'.val, k'.isLt⟩ : Fin 80) := by
  funext c; apply Fin.ext
  fin_cases c <;> rfl

/-- Column k with proposal n' put back on the dropped axis is (n', k). -/
theorem lift_col (h : S5000x80.Reduces [0] S80) (k : Fin 80) (n' : Fin (S5000x80.size 0)) :
    h.lift (ix1 k) n' = ix2 (⟨n'.val, n'.isLt⟩ : Fin 5000) k := by
  funext c; apply Fin.ext
  fin_cases c <;> rfl

/-- The row maximum the class stream subtracts is the largest logit of the row. -/
theorem rowMax (x0 : (⟨S5000x4096, .f32⟩ : BufTy).Contents (Elt Ideal)) (x1 : (⟨S4096x80, .f32⟩ : BufTy).Contents (Elt Ideal))
    (x2 : (⟨S80, .f32⟩ : BufTy).Contents (Elt Ideal)) (n : Fin 5000) :
    val_main_v10 (F := Ideal) x0 x1 x2 (ix1 n) = top (logit x0 x1 x2 n) := by
  have hr : S5000x80.Reduces [1] S5000 := by decide
  rw [val_main_v10_apply, val_main_v9_apply, val_main_cst_0_apply]
  unfold val_main_v8
  rw [Host.reduce_eq_fold_single FloatOps.maximumf _ _ reducesTo_S5000x80_S5000_d1 hr h_S_, val_main_cst_apply]
  rw [negInf_eq_bot]
  simp only [Ideal.maximumf_def]
  rw [max_eq_right bot_le]
  have hf : (val_main_v3 (F := Ideal) x0 x1 x2 ∘ hr.lift (ix1 n)) = fun k' : Fin 80 => logit x0 x1 x2 n k' :=
    funext fun k' => by
      show val_main_v3 (F := Ideal) x0 x1 x2 (hr.lift (ix1 n) k') = _
      rw [lift_row, logit_c]; rfl
  rw [hf]
  rfl

/-- The column maximum the detection stream subtracts is the largest logit of the column. -/
theorem colMax (x0 : (⟨S5000x4096, .f32⟩ : BufTy).Contents (Elt Ideal)) (x3 : (⟨S4096x80, .f32⟩ : BufTy).Contents (Elt Ideal))
    (x4 : (⟨S80, .f32⟩ : BufTy).Contents (Elt Ideal)) (k : Fin 80) :
    val_main_v21 (F := Ideal) x0 x3 x4 (ix1 k) = top fun n' => logit x0 x3 x4 n' k := by
  have hr : S5000x80.Reduces [0] S80 := by decide
  rw [val_main_v21_apply, val_main_v20_apply, val_main_cst_3_apply]
  unfold val_main_v19
  rw [Host.reduce_eq_fold_single FloatOps.maximumf _ _ reducesTo_S5000x80_S80_d0 hr h_S_, val_main_cst_2_apply]
  rw [negInf_eq_bot]
  simp only [Ideal.maximumf_def]
  rw [max_eq_right bot_le]
  have hf : (val_main_v7 (F := Ideal) x0 x3 x4 ∘ hr.lift (ix1 k)) = fun n' : Fin 5000 => logit x0 x3 x4 n' k :=
    funext fun n' => by
      show val_main_v7 (F := Ideal) x0 x3 x4 (hr.lift (ix1 k) n') = _
      rw [lift_col, logit_d]; rfl
  rw [hf]
  rfl

/-- The class stream at (n, k) is the softmax of row n's logits at class k. -/
theorem rowStream (x0 : (⟨S5000x4096, .f32⟩ : BufTy).Contents (Elt Ideal)) (x1 : (⟨S4096x80, .f32⟩ : BufTy).Contents (Elt Ideal))
    (x2 : (⟨S80, .f32⟩ : BufTy).Contents (Elt Ideal)) (n : Fin 5000) (k : Fin 80) :
    val_main_v18 (F := Ideal) x0 x1 x2 (ix2 n k) = rowSoft (logit x0 x1 x2) n k := by
  have e14 : ∀ k' : Fin 80, val_main_v14 (F := Ideal) x0 x1 x2 (ix2 n k')
      = Ideal.exp (logit x0 x1 x2 n k' - top (logit x0 x1 x2 n)) := by
    intro k'
    rw [val_main_v14_apply, val_main_v13_apply, val_main_v12_apply, val_main_v11_apply]
    rw [show idx_main_v11 (idx_main_v12 (ix2 n k')) = ix1 n from funext fun a => by match a with | ⟨0, _⟩ => rfl]
    rw [rowMax, logit_c]
    rfl
  rw [val_main_v18_apply, val_main_v17_apply, val_main_v16_apply, val_main_v15_apply, val_main_cst_1_apply, e14]
  rw [show idx_main_v16 (idx_main_v17 (ix2 n k)) = ix1 n from funext fun a => by match a with | ⟨0, _⟩ => rfl]
  rw [show FloatOps.ofBits (F := Ideal) .f32 0x00000000#32 = (0 : EReal) from Ideal.ofBits_zero_f32, zero_add]
  simp only [Ideal.hostDivf_def]
  unfold rowSoft
  refine congrArg (Ideal.div _) (Finset.sum_congr rfl fun k' _ => ?_)
  rw [show idx_main_v15 (ix1 n) k' = ix2 n k' from funext fun a => by match a with | ⟨0, _⟩ => rfl | ⟨1, _⟩ => rfl, e14]

/-- The detection stream at (n, k) is the softmax of column k's logits at proposal n. -/
theorem colStream (x0 : (⟨S5000x4096, .f32⟩ : BufTy).Contents (Elt Ideal)) (x3 : (⟨S4096x80, .f32⟩ : BufTy).Contents (Elt Ideal))
    (x4 : (⟨S80, .f32⟩ : BufTy).Contents (Elt Ideal)) (n : Fin 5000) (k : Fin 80) :
    val_main_v29 (F := Ideal) x0 x3 x4 (ix2 n k) = colSoft (logit x0 x3 x4) n k := by
  have e25 : ∀ n' : Fin 5000, val_main_v25 (F := Ideal) x0 x3 x4 (ix2 n' k)
      = Ideal.exp (logit x0 x3 x4 n' k - top fun n'' => logit x0 x3 x4 n'' k) := by
    intro n'
    rw [val_main_v25_apply, val_main_v24_apply, val_main_v23_apply, val_main_v22_apply]
    rw [show idx_main_v22 (idx_main_v23 (ix2 n' k)) = ix1 k from funext fun a => by match a with | ⟨0, _⟩ => rfl]
    rw [colMax, logit_d]
    rfl
  rw [val_main_v29_apply, val_main_v28_apply, val_main_v27_apply, val_main_v26_apply, val_main_cst_4_apply, e25]
  rw [show idx_main_v27 (idx_main_v28 (ix2 n k)) = ix1 k from funext fun a => by match a with | ⟨0, _⟩ => rfl]
  rw [show FloatOps.ofBits (F := Ideal) .f32 0x00000000#32 = (0 : EReal) from Ideal.ofBits_zero_f32, zero_add]
  simp only [Ideal.hostDivf_def]
  unfold colSoft
  refine congrArg (Ideal.div _) (Finset.sum_congr rfl fun n' _ => ?_)
  rw [show idx_main_v26 (ix1 k) n' = ix2 n' k from funext fun a => by match a with | ⟨0, _⟩ => rfl | ⟨1, _⟩ => rfl, e25]

/-- The reference's result is the score array. -/
theorem ref_scores (x0 : (⟨S5000x4096, .f32⟩ : BufTy).Contents (Elt Ideal)) (x1 : (⟨S4096x80, .f32⟩ : BufTy).Contents (Elt Ideal))
    (x2 : (⟨S80, .f32⟩ : BufTy).Contents (Elt Ideal)) (x3 : (⟨S4096x80, .f32⟩ : BufTy).Contents (Elt Ideal))
    (x4 : (⟨S80, .f32⟩ : BufTy).Contents (Elt Ideal)) :
    Cert.ReferenceIdeal.Read.val_main_v30 (F := Ideal) x0 x1 x2 x3 x4 = Cert.Wsddn.scores x0 x1 x2 x3 x4 := by
  funext i
  obtain ⟨n, k, rfl⟩ : ∃ (n : Fin 5000) (k : Fin 80), i = ix2 n k := ⟨i 0, i 1, eq_ix2 i⟩
  rw [val_main_v30_apply, rowStream, colStream]
  rfl

end Cert.ReferenceIdeal.RefValue

end
-- ==== Proof.PiecesS.lean ====
/-
  What each control case of the kernel body leaves in the two carried 1 × 80 buffers and in the logits buffer.

  The first block sets the running column maximum and the running sum; every later block replaces them by the updated
  values; every block stores its 1000 rows of detection logits into rows [1000 t, 1000 t + 1000) of the logits buffer.
-/
import proofs.«136734_g55722905698378_cont_9to1_m_658_7_alg».proof.Proof.Gen.KernelIdeal.Frame
import proofs.«136734_g55722905698378_cont_9to1_m_658_7_alg».proof.Proof.Gen.KernelIdeal.Skeleton
import proofs.«136734_g55722905698378_cont_9to1_m_658_7_alg».proof.Proof.Runs
import proofs.«136734_g55722905698378_cont_9to1_m_658_7_alg».proof.Proof.Rows
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

theorem hz2 : (![0, 0] : Fin 2 → Nat) = fun _ => 0 := by funext a; fin_cases a <;> rfl

/-- One store through the whole 1 × 80 buffer leaves its payload. -/
theorem read_one_S1x80 {sp : Space} (m : Memref sig .tc sp S1x80 .f32) (f : m.view.ty.Contents (Elt F)) (w : S1x80.Idx → Elt F .f32) :
    m.view.read (Elt F) (m.view.writes (Elt F) f
      [(⟨Rect.unit ![0, 0] S1x80.size inb_S1x80_S1x80_0_0, w⟩ : View.Piece (Elt F) S1x80 .f32)]) = w := by
  rw [View.read_writes_eq_canon _ _ _ (fun y => ⟨_, List.mem_singleton_self _, View.mem_set_unit_zero hz2 inb_S1x80_S1x80_0_0 y⟩)]
  exact View.canon_unit_zero hz2 inb_S1x80_S1x80_0_0 w

/-- One store of 1000 rows through the rectangle that starts at row 1000 t, over a 5000-row buffer at Y: those rows
    read the stored block, every other row reads Y. -/
theorem rowsSet_one {sp : Space} (m : Memref sig .tc sp S5000x80 .f32) (hm : m.IsWhole) (t : Fin cfg0.N) (off : Fin 2 → ℕ)
    (inb : ∀ a : Fin 2, off a + S1000x80.size a ≤ S5000x80.size a) (hoff : off = ![1000 * t.val, 0])
    (P : Vec F S1000x80 .f32) (Y : Vec F S5000x80 .f32) :
    RowsSet t P Y (m.view.read (Elt F) (m.view.writes (Elt F) (hm.unread Y)
      [(⟨Rect.unit (s := S5000x80) off S1000x80.size inb, P⟩ : View.Piece (Elt F) S5000x80 .f32)])) := by
  refine ⟨fun x j h0 h1 => ?_, fun j h => ?_⟩
  · exact View.read_writes_cons_rows_of_mem m.view (hm.unread Y) inb P [] j x hoff h0 h1
  · refine (View.read_writes_cons_rows_of_not_mem m.view (hm.unread Y) inb P [] j hoff
      (rfl : S1000x80.size (0 : Fin 2) = 1000) h).trans ?_
    exact congrFun (hm.read_unread Y) j

/-- The first block leaves the block's column maxima in the running-maximum buffer. -/
theorem runA_S1 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg8.view.read (Elt F) (arg8.view.writes (Elt F) (harg8.unread xs1) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.1) = k0_pay1 (k0_pay10 x0 x3 x4) := by
  unfold runA
  dsimp only
  sl_unfold_words
  refine (read_one_S1x80 arg8 (harg8.unread xs1) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The first block leaves the block's column sums of exponentials in the running-sum buffer. -/
theorem runA_S2 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg9.view.read (Elt F) (arg9.view.writes (Elt F) (harg9.unread xs2) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.2.1) = k0_pay2 (k0_pay7 x0 x3 x4) (k0_pay10 x0 x3 x4) := by
  unfold runA
  dsimp only
  sl_unfold_words
  refine (read_one_S1x80 arg9 (harg9.unread xs2) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- A middle block leaves the updated running maximum. -/
theorem runB_S1 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg8.view.read (Elt F) (arg8.view.writes (Elt F) (harg8.unread xs1) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.1) = k0_pay4 (k0_pay10 x0 x3 x4) xs1 := by
  unfold runB
  dsimp only
  sl_unfold_words
  refine (read_one_S1x80 arg8 (harg8.unread xs1) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- A middle block leaves the rescaled running sum. -/
theorem runB_S2 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg9.view.read (Elt F) (arg9.view.writes (Elt F) (harg9.unread xs2) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.2.1) = k0_pay5 (k0_pay7 x0 x3 x4) (k0_pay10 x0 x3 x4) xs1 xs2 := by
  unfold runB
  dsimp only
  sl_unfold_words
  refine (read_one_S1x80 arg9 (harg9.unread xs2) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The last block leaves the updated running maximum. -/
theorem runC_S1 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg8.view.read (Elt F) (arg8.view.writes (Elt F) (harg8.unread xs1) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.1) = k0_pay4 (k0_pay10 x0 x3 x4) xs1 := by
  unfold runC
  dsimp only
  sl_unfold_words
  refine (read_one_S1x80 arg8 (harg8.unread xs1) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The last block leaves the rescaled running sum. -/
theorem runC_S2 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    arg9.view.read (Elt F) (arg9.view.writes (Elt F) (harg9.unread xs2) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.2.2.1) = k0_pay5 (k0_pay7 x0 x3 x4) (k0_pay10 x0 x3 x4) xs1 xs2 := by
  unfold runC
  dsimp only
  sl_unfold_words
  refine (read_one_S1x80 arg9 (harg9.unread xs2) _).trans ?_
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]

/-- The first block's detection logits fill rows [1000 t, 1000 t + 1000) of the logits buffer. -/
theorem runA_L7 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    RowsSet t (k0_pay9 x0 x3 x4) y7 (arg7.view.read (Elt F) (arg7.view.writes (Elt F) (harg7.unread y7) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.1)) := by
  unfold runA
  dsimp only
  sl_unfold_words
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]
  exact rowsSet_one arg7 harg7 t _ _ (off_eq t) (k0_pay9 x0 x3 x4) y7

/-- A middle block's detection logits fill rows [1000 t, 1000 t + 1000) of the logits buffer. -/
theorem runB_L7 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    RowsSet t (k0_pay9 x0 x3 x4) y7 (arg7.view.read (Elt F) (arg7.view.writes (Elt F) (harg7.unread y7) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.1)) := by
  unfold runB
  dsimp only
  sl_unfold_words
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]
  exact rowsSet_one arg7 harg7 t _ _ (off_eq t) (k0_pay9 x0 x3 x4) y7

/-- The last block's detection logits fill rows [1000 t, 1000 t + 1000) of the logits buffer. -/
theorem runC_L7 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t)) (x0 : Vec F S1000x4096 .f32) (x1 : Vec F S4096x80 .bf16) (x2 : Vec F S1x80 .f32) (x3 : Vec F S4096x80 .bf16) (x4 : Vec F S1x80 .f32) (y6 y7 : Vec F S5000x80 .f32) (xs1 xs2 : Vec F S1x80 .f32) :
    RowsSet t (k0_pay9 x0 x3 x4) y7 (arg7.view.read (Elt F) (arg7.view.writes (Elt F) (harg7.unread y7) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).2.1)) := by
  unfold runC
  dsimp only
  sl_unfold_words
  simp only [View.readAt_eq_ld, harg1.read_unread, harg4.read_unread, harg5.read_unread, harg8.read_unread, harg9.read_unread,
    View.ld_unit_zero (S := S1000x4096) hz2, View.ld_unit_zero (S := S4096x80) hz2, View.ld_unit_zero (S := S1x80) hz2]
  exact rowsSet_one arg7 harg7 t _ _ (off_eq t) (k0_pay9 x0 x3 x4) y7

end Cert.KernelIdeal.Body

end
-- ==== Proof.PiecesO.lean ====
/-
  What one run of the kernel body leaves in the result block, case by case: the block it found with the point's
  1000 rows overwritten by the class stream's rows; at the last point, that block and the logits buffer read back
  whole and the rescaled product stored over the whole block.
-/
import proofs.«136734_g55722905698378_cont_9to1_m_658_7_alg».proof.Proof.Gen.KernelIdeal.Frame
import proofs.«136734_g55722905698378_cont_9to1_m_658_7_alg».proof.Proof.Gen.KernelIdeal.Skeleton
import Idealize.ShloMosaic.Lib.WritesUnit
import Idealize.ShloMosaic.Lib.Pipeline.Value
import proofs.«136734_g55722905698378_cont_9to1_m_658_7_alg».proof.Proof.Runs
import proofs.«136734_g55722905698378_cont_9to1_m_658_7_alg».proof.Proof.Rows

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- At the first point the result block is the block found with the point's rows overwritten by the class stream's rows. -/
theorem runA_L6 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : isFirst (grid0.coords t)) (hc1 : ¬isLater (grid0.coords t)) (hc2 : ¬isLast (grid0.coords t))
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    RowsSet t (k0_pay8 x0 x1 x2) y6 (arg6.view.read (Elt F) (arg6.view.writes (Elt F) (harg6.unread y6) (runA c (grid0.coords t) arg1 harg1 arg2 harg2 arg3 harg3 arg4 harg4 arg5 harg5 arg6 harg6 arg7 harg7 arg8 harg8 arg9 harg9 hc0 hc1 hc2 x0 x1 x2 x3 x4 y6 y7 xs1 xs2).1)) := by
  unfold runA
  dsimp only
  sl_unfold_words
  have hz : (![0, 0] : Fin 2 → Nat) = fun _ => 0 := by funext a; fin_cases a <;> rfl
  simp only [View.readAt_eq_ld, harg1.read_unread, harg2.read_unread, harg3.read_unread,
    View.ld_unit_zero (S := S1000x4096) hz, View.ld_unit_zero (S := S4096x80) hz, View.ld_unit_zero (S := S1x80) hz]
  refine ⟨fun x j h0 h1 => ?_, fun j h => ?_⟩
  · exact View.read_writes_cons_rows_of_mem arg6.view _ _ _ [] j x (off_eq t) h0 h1
  · refine Eq.trans (View.read_writes_cons_rows_of_not_mem (size := ![1000, 80]) (W := 1000) arg6.view _ _ _ [] j
      (off_eq t) rfl h) ?_
    exact congrFun (harg6.read_unread y6) j

/-- At a middle point the result block is the block found with the point's rows overwritten by the class stream's rows. -/
theorem runB_L6 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : ¬isLast (grid0.coords t))
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    RowsSet t (k0_pay8 x0 x1 x2) y6 (arg6.view.read (Elt F) (arg6.view.writes (Elt F) (harg6.unread y6) (runB c (grid0.coords t) arg1 harg1 arg2 harg2 arg3 harg3 arg4 harg4 arg5 harg5 arg6 harg6 arg7 harg7 arg8 harg8 arg9 harg9 hc0 hc1 hc2 x0 x1 x2 x3 x4 y6 y7 xs1 xs2).1)) := by
  unfold runB
  dsimp only
  sl_unfold_words
  have hz : (![0, 0] : Fin 2 → Nat) = fun _ => 0 := by funext a; fin_cases a <;> rfl
  simp only [View.readAt_eq_ld, harg1.read_unread, harg2.read_unread, harg3.read_unread,
    View.ld_unit_zero (S := S1000x4096) hz, View.ld_unit_zero (S := S4096x80) hz, View.ld_unit_zero (S := S1x80) hz]
  refine ⟨fun x j h0 h1 => ?_, fun j h => ?_⟩
  · exact View.read_writes_cons_rows_of_mem arg6.view _ _ _ [] j x (off_eq t) h0 h1
  · refine Eq.trans (View.read_writes_cons_rows_of_not_mem (size := ![1000, 80]) (W := 1000) arg6.view _ _ _ [] j
      (off_eq t) rfl h) ?_
    exact congrFun (harg6.read_unread y6) j

/-- At the last point the body overwrites the point's rows, reads the whole result block and the whole logits buffer
    back, and stores the rescaled product of the two over the whole block. -/
theorem runC_L6 (c : Dev nD) (t : Fin cfg0.N) (arg1 : Memref sig .tc .vmem S1000x4096 .f32) (harg1 : arg1.IsWhole) (arg2 : Memref sig .tc .vmem S4096x80 .bf16) (harg2 : arg2.IsWhole) (arg3 : Memref sig .tc .vmem S1x80 .f32) (harg3 : arg3.IsWhole) (arg4 : Memref sig .tc .vmem S4096x80 .bf16) (harg4 : arg4.IsWhole) (arg5 : Memref sig .tc .vmem S1x80 .f32) (harg5 : arg5.IsWhole) (arg6 : Memref sig .tc .vmem S5000x80 .f32) (harg6 : arg6.IsWhole) (arg7 : Memref sig .tc .vmem S5000x80 .f32) (harg7 : arg7.IsWhole) (arg8 : Memref sig .tc .vmem S1x80 .f32) (harg8 : arg8.IsWhole) (arg9 : Memref sig .tc .vmem S1x80 .f32) (harg9 : arg9.IsWhole) (hc0 : ¬isFirst (grid0.coords t)) (hc1 : isLater (grid0.coords t)) (hc2 : isLast (grid0.coords t))
    (x0 : Vec F S1000x4096 .f32) (x1 : Vec F S4096x80 .bf16) (x2 : Vec F S1x80 .f32) (x3 : Vec F S4096x80 .bf16) (x4 : Vec F S1x80 .f32)
    (y6 y7 : Vec F S5000x80 .f32) (xs1 xs2 : Vec F S1x80 .f32) :
    ∃ O L : Vec F S5000x80 .f32, RowsSet t (k0_pay8 x0 x1 x2) y6 O ∧ RowsSet t (k0_pay9 x0 x3 x4) y7 L
      ∧ arg6.view.read (Elt F) (arg6.view.writes (Elt F) (harg6.unread y6) (runC c (grid0.coords t) arg1 harg1 arg2 harg2 arg3 harg3 arg4 harg4 arg5 harg5 arg6 harg6 arg7 harg7 arg8 harg8 arg9 harg9 hc0 hc1 hc2 x0 x1 x2 x3 x4 y6 y7 xs1 xs2).1)
          = k0_pay6 (k0_pay4 (k0_pay10 x0 x3 x4) xs1) (k0_pay5 (k0_pay7 x0 x3 x4) (k0_pay10 x0 x3 x4) xs1 xs2) O L := by
  unfold runC
  dsimp only
  sl_unfold_words
  have hz : (![0, 0] : Fin 2 → Nat) = fun _ => 0 := by funext a; fin_cases a <;> rfl
  simp only [View.readAt_eq_ld, harg1.read_unread, harg2.read_unread, harg3.read_unread, harg4.read_unread, harg5.read_unread,
    harg8.read_unread, harg9.read_unread,
    View.ld_unit_zero (S := S1000x4096) hz, View.ld_unit_zero (S := S4096x80) hz, View.ld_unit_zero (S := S1x80) hz,
    View.ld_unit_zero (S := S5000x80) hz, View.readCov_unit_zero (S := S1x80) _ hz]
  refine ⟨arg6.view.read (Elt F) (arg6.view.writes (Elt F) (harg6.unread y6)
      [⟨Rect.unit (s := S5000x80) (k0_off1 (grid0.coords t)) S1000x80.size (k0_off1_inb (grid0.coords t)), k0_pay8 x0 x1 x2⟩]),
    arg7.view.read (Elt F) (arg7.view.writes (Elt F) (harg7.unread y7)
      [⟨Rect.unit (s := S5000x80) (k0_off1 (grid0.coords t)) S1000x80.size (k0_off1_inb (grid0.coords t)), k0_pay9 x0 x3 x4⟩]),
    ?a, ?b, ?c⟩
  case c =>
    funext y
    exact View.read_writes_cons_unit_of_mem arg6.view _ _ _ _ y y rfl
      (Fin.forall_fin_two.mpr ⟨(Nat.zero_add _).symm, (Nat.zero_add _).symm⟩)
  case a =>
    refine ⟨fun x j h0 h1 => ?_, fun j h => ?_⟩
    · exact View.read_writes_cons_rows_of_mem arg6.view _ _ _ [] j x (off_eq t) h0 h1
    · refine Eq.trans (View.read_writes_cons_rows_of_not_mem (size := ![1000, 80]) (W := 1000) arg6.view _ _ _ [] j
        (off_eq t) rfl h) ?_
      exact congrFun (harg6.read_unread y6) j
  case b =>
    refine ⟨fun x j h0 h1 => ?_, fun j h => ?_⟩
    · exact View.read_writes_cons_rows_of_mem arg7.view _ _ _ [] j x (off_eq t) h0 h1
    · refine Eq.trans (View.read_writes_cons_rows_of_not_mem (size := ![1000, 80]) (W := 1000) arg7.view _ _ _ [] j
        (off_eq t) rfl h) ?_
      exact congrFun (harg7.read_unread y7) j

end Cert.KernelIdeal.Body

end
-- ==== Proof.Oblig.lean ====
/-
  The body's obligation at every grid point, and the run.

  The result window's staging block is the whole 5000 × 80 result and is written back once, after the last point.
  Each point overwrites only its own 1000 rows of it, so what the block holds after a point is stated as a RELATION to
  what the point found there: the found contents with the point's rows replaced by that block's class-stream softmax;
  and, at the last point, the rescaling of that by the detection stream. The kernel's own buffers are carried by the
  invariant: the logits buffer at some contents whose first rows are the detection logits of the blocks met so far,
  the two one-row buffers at the running column maximum and sum.
-/
import proofs.«136734_g55722905698378_cont_9to1_m_658_7_alg».proof.Proof.Data
import proofs.«136734_g55722905698378_cont_9to1_m_658_7_alg».proof.Proof.PiecesS
import proofs.«136734_g55722905698378_cont_9to1_m_658_7_alg».proof.Proof.PiecesO

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried pair at a point, by the point's case -/

theorem MS_first (c : Dev nD) (t : Fin cfg0.N) (hz : t.val = 0) :
    St.MS m c t.val t.isLt = (k0_pay1 (St.cmB m c t), k0_pay2 (St.ldB m c t) (St.cmB m c t)) := by
  obtain ⟨n, hn⟩ := t
  cases n with
  | zero => rfl
  | succ n => exact absurd hz (Nat.succ_ne_zero n)

theorem MS_later (c : Dev nD) (t : Fin cfg0.N) (hz : t.val ≠ 0) :
    St.MS m c t.val t.isLt = (k0_pay4 (St.cmB m c t) (St.MS m c (t.val - 1) (Nat.lt_of_le_of_lt (Nat.sub_le _ _) t.isLt)).1,
      k0_pay5 (St.ldB m c t) (St.cmB m c t) (St.MS m c (t.val - 1) (Nat.lt_of_le_of_lt (Nat.sub_le _ _) t.isLt)).1 (St.MS m c (t.val - 1) (Nat.lt_of_le_of_lt (Nat.sub_le _ _) t.isLt)).2) := by
  obtain ⟨n, hn⟩ := t
  cases n with
  | zero => exact absurd rfl hz
  | succ n => rfl

theorem MS_last (c : Dev nD) (t : Fin cfg0.N) (h4 : t.val = 4) (h : 4 < cfg0.N) : St.MS m c 4 h = St.MS m c t.val t.isLt := by
  obtain ⟨n, hn⟩ := t
  dsimp only at h4
  subst h4
  rfl

theorem Phi_castSucc (c : Dev nD) (t : Fin cfg0.N) : (rd m c).Φ t.castSucc = Phi m c t.val (Nat.le_of_lt t.isLt) := by
  show (dat0 m c).Φ t.castSucc = _
  dsimp only [dat0]; simp only [Fin.coe_castSucc]

/-! ## The body obligation, at a generic point -/

/-- What the body is called with at point t: the invariant, nothing owed, the inputs' buffers at their blocks, the result block at what it then holds. -/
def bodyPre (c : Dev nD) (t : Fin cfg0.N) (Y5 : Vec F S5000x80 .f32) : sProp 𝕄 :=
  iprop((rd m c).Φ t.castSucc ∗ (rd m c).owesAt () t.castSucc
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare Y5)

/-- and what it returns: the next invariant, the inputs' buffers as they were, the result block in the point's relation to what it held. -/
def bodyPost (c : Dev nD) (t : Fin cfg0.N) (Y5 : Vec F S5000x80 .f32) : sProp 𝕄 :=
  iprop((rd m c).Φ t.succ ∗ (rd m c).owesAt () t.succ
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ (∃ X, ⌜rel5 m c t Y5 X⌝ ∗ owns (c : Thread nD τ) (ms5 t) fullShare X))

set_option maxHeartbeats 4000000 in
/-- The first point: the launch's buffers at anything; the carried pair is set. -/
theorem sound_first (c : Dev nD) (t : Fin cfg0.N) (hz : t.val = 0) (Y5 : Vec F S5000x80 .f32) :
    bodyPre m c t Y5 ⊢ wp frame (wpE (defs₀ (F := F)) Variants.none c none) Set.univ (bodyAt0 t) (fun _ => bodyPost m c t Y5) := by
  have hN : t.val < 5 := lt_of_lt_of_eq t.isLt hN5
  have hc0 : isFirst (grid0.coords t) := (isFirst_iff t).mpr hz
  have hc1 : ¬isLater (grid0.coords t) := fun h => by have := (isLater_iff t).mp h; omega
  have hc2 : ¬isLast (grid0.coords t) := fun h => by have := (isLast_iff t).mp h; omega
  unfold bodyPre bodyPost bodyAt0
  rw [show (rd m c).owesAt () t.succ = (rd m c).owesAt () t.castSucc from rfl,
    show (rd m c).Φ t.succ = Phi m c (t.val + 1) t.isLt from rfl, Phi_succ, Phi_castSucc m c t, Phi_zero m c _ _ hz, PhiA_eq]
  iintro ⟨⟨⟨⟨%d0, HS0⟩, ⟨%d1, HS1⟩, ⟨%d2, HS2⟩⟩, Hg⟩, Ho, H0, H1, H2, H3, H4, H5⟩
  iapply ((runA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        · ipureintro
          exact Has.step (t := t) (hz ▸ Has.zero (St.ldS m c) d0) (runA_L7 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2)
        unfold owns; iexists _; isplitr; swap; · iexact HS0
        ipureintro; rfl
      isplitl [HS1]
      · unfold owns; iexists _; isplitr; swap; · iexact HS1
        ipureintro
        rw [MS_first m c t hz]; dsimp only [St.cmB, St.ldB]
        exact runA_S1 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2
      unfold owns; iexists _; isplitr; swap; · iexact HS2
      ipureintro
      rw [MS_first m c t hz]; dsimp only [St.cmB, St.ldB]
      exact runA_S2 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2
    iexact Hg
  isplitl [Ho]; · iexact Ho
  isplitl [H0]; · iexact H0
  isplitl [H1]; · iexact H1
  isplitl [H2]; · iexact H2
  isplitl [H3]; · iexact H3
  isplitl [H4]; · iexact H4
  iexists _; isplitr
  · ipureintro
    unfold rel5; rw [dif_neg (by omega)]
    exact runA_L6 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 d0 d1 d2
  unfold owns; iexists _; isplitr; swap; · iexact H5
  ipureintro; rfl

set_option maxHeartbeats 4000000 in
/-- A middle point: the carried pair is updated, the point's rows of the two big buffers overwritten. -/
theorem sound_mid (c : Dev nD) (t : Fin cfg0.N) (h1 : 1 ≤ t.val) (h4 : t.val ≠ 4) (Y5 : Vec F S5000x80 .f32) :
    bodyPre m c t Y5 ⊢ wp frame (wpE (defs₀ (F := F)) Variants.none c none) Set.univ (bodyAt0 t) (fun _ => bodyPost m c t Y5) := by
  have hN : t.val < 5 := lt_of_lt_of_eq t.isLt hN5
  have hz : t.val ≠ 0 := by omega
  have hc0 : ¬isFirst (grid0.coords t) := fun h => hz ((isFirst_iff t).mp h)
  have hc1 : isLater (grid0.coords t) := (isLater_iff t).mpr h1
  have hc2 : ¬isLast (grid0.coords t) := fun h => h4 ((isLast_iff t).mp h)
  unfold bodyPre bodyPost bodyAt0
  rw [show (rd m c).owesAt () t.succ = (rd m c).owesAt () t.castSucc from rfl,
    show (rd m c).Φ t.succ = Phi m c (t.val + 1) t.isLt from rfl, Phi_succ, Phi_castSucc m c t, Phi_pos m c _ _ hz]
  iintro ⟨⟨⟨⟨%L0, %hL0, HS0⟩, HS1, HS2⟩, Hg⟩, Ho, H0, H1, H2, H3, H4, H5⟩
  iapply ((runB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        · ipureintro
          exact Has.step (t := t) hL0 (runB_L7 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2)
        unfold owns; iexists _; isplitr; swap; · iexact HS0
        ipureintro; rfl
      isplitl [HS1]
      · unfold owns; iexists _; isplitr; swap; · iexact HS1
        ipureintro
        rw [MS_later m c t hz]; dsimp only [St.cmB, St.ldB]
        exact runB_S1 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
      unfold owns; iexists _; isplitr; swap; · iexact HS2
      ipureintro
      rw [MS_later m c t hz]; dsimp only [St.cmB, St.ldB]
      exact runB_S2 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
    iexact Hg
  isplitl [Ho]; · iexact Ho
  isplitl [H0]; · iexact H0
  isplitl [H1]; · iexact H1
  isplitl [H2]; · iexact H2
  isplitl [H3]; · iexact H3
  isplitl [H4]; · iexact H4
  iexists _; isplitr; swap
  · unfold owns; iexists _; isplitr; swap; · iexact H5
    ipureintro; rfl
  ipureintro
  unfold rel5; rw [dif_neg h4]
  exact runB_L6 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2

set_option maxHeartbeats 4000000 in
/-- The last point: as a middle point, and then the whole result block rescaled by the detection stream. -/
theorem sound_last (c : Dev nD) (t : Fin cfg0.N) (h4 : t.val = 4) (Y5 : Vec F S5000x80 .f32) :
    bodyPre m c t Y5 ⊢ wp frame (wpE (defs₀ (F := F)) Variants.none c none) Set.univ (bodyAt0 t) (fun _ => bodyPost m c t Y5) := by
  have hN : t.val < 5 := lt_of_lt_of_eq t.isLt hN5
  have hz : t.val ≠ 0 := by omega
  have h1 : 1 ≤ t.val := by omega
  have hc0 : ¬isFirst (grid0.coords t) := fun h => hz ((isFirst_iff t).mp h)
  have hc1 : isLater (grid0.coords t) := (isLater_iff t).mpr h1
  have hc2 : isLast (grid0.coords t) := (isLast_iff t).mpr h4
  unfold bodyPre bodyPost bodyAt0
  rw [show (rd m c).owesAt () t.succ = (rd m c).owesAt () t.castSucc from rfl,
    show (rd m c).Φ t.succ = Phi m c (t.val + 1) t.isLt from rfl, Phi_succ, Phi_castSucc m c t, Phi_pos m c _ _ hz]
  iintro ⟨⟨⟨⟨%L0, %hL0, HS0⟩, HS1, HS2⟩, Hg⟩, Ho, H0, H1, H2, H3, H4, H5⟩
  iapply ((runC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        · ipureintro
          exact Has.step (t := t) hL0 (runC_L7 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2)
        unfold owns; iexists _; isplitr; swap; · iexact HS0
        ipureintro; rfl
      isplitl [HS1]
      · unfold owns; iexists _; isplitr; swap; · iexact HS1
        ipureintro
        rw [MS_later m c t hz]; dsimp only [St.cmB, St.ldB]
        exact runC_S1 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
      unfold owns; iexists _; isplitr; swap; · iexact HS2
      ipureintro
      rw [MS_later m c t hz]; dsimp only [St.cmB, St.ldB]
      exact runC_S2 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
    iexact Hg
  isplitl [Ho]; · iexact Ho
  isplitl [H0]; · iexact H0
  isplitl [H1]; · iexact H1
  isplitl [H2]; · iexact H2
  isplitl [H3]; · iexact H3
  isplitl [H4]; · iexact H4
  iexists _; isplitr; swap
  · unfold owns; iexists _; isplitr; swap; · iexact H5
    ipureintro; rfl
  ipureintro
  unfold rel5; rw [dif_pos h4]
  obtain ⟨O, L, hO, hL, hX⟩ := runC_L6 c t (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) hc0 hc1 hc2 (iblk m c 0 t) (iblk m c 1 t) (iblk m c 2 t) (iblk m c 3 t) (iblk m c 4 t) Y5 L0 (St.MS m c (t.val - 1) (by omega)).1 (St.MS m c (t.val - 1) (by omega)).2
  refine ⟨O, L, hO, ?_, hX.trans ?_⟩
  · have e : t.val + 1 = 5 := by omega
    exact e ▸ Has.step (t := t) hL0 hL
  · unfold St.fin
    rw [MS_last m c t h4, MS_later m c t hz]
    rfl

/-- The body at any point. -/
theorem sound_body (c : Dev nD) (t : Fin cfg0.N) (Y5 : Vec F S5000x80 .f32) :
    bodyPre m c t Y5 ⊢ wp frame (wpE (defs₀ (F := F)) Variants.none c none) Set.univ (bodyAt0 t) (fun _ => bodyPost m c t Y5) := by
  by_cases hz : t.val = 0
  · exact sound_first m c t hz Y5
  · by_cases h4 : t.val = 4
    · exact sound_last m c t h4 Y5
    · exact sound_mid m c t (by omega) h4 Y5

/-- The library's body obligation for the relational data: each input is found at its block and left there; the result
    block is found at anything the relation allows and left in the point's relation to it. -/
theorem body_obligation (c : Dev nD) : (rd (F := F) m c).BodyObligation (defs₀ (F := F)) Variants.none () Set.univ := fun t Y hF => by
  have e0 := finds0 m c t (Y 0) (hF 0)
  have e1 := finds1 m c t (Y 1) (hF 1)
  have e2 := finds2 m c t (Y 2) (hF 2)
  have e3 := finds3 m c t (Y 3) (hF 3)
  have e4 := finds4 m c t (Y 4) (hF 4)
  rw [bigSep_W0, bigSep_W0, e0, e1, e2, e3, e4]
  refine (sound_body m c t (Y 5)).trans (wp_mono _ _ _ fun _ => ?_)
  unfold bodyPost
  iintro ⟨HΦ, Ho, H0, H1, H2, H3, H4, H5⟩
  isplitl [HΦ]; · iexact HΦ
  isplitl [Ho]; · iexact Ho
  isplitl [H0]
  · iexists _; isplitr; · ipureintro; exact (rd_after0 m c t _ _).mpr rfl
    iexact H0
  isplitl [H1]
  · iexists _; isplitr; · ipureintro; exact (rd_after1 m c t _ _).mpr rfl
    iexact H1
  isplitl [H2]
  · iexists _; isplitr; · ipureintro; exact (rd_after2 m c t _ _).mpr rfl
    iexact H2
  isplitl [H3]
  · iexists _; isplitr; · ipureintro; exact (rd_after3 m c t _ _).mpr rfl
    iexact H3
  isplitl [H4]
  · iexists _; isplitr; · ipureintro; exact (rd_after4 m c t _ _).mpr rfl
    iexact H4
  iexact H5

/-- What the launch hands the region is the invariant before the first point. -/
theorem hin (c : Dev nD) : Pipeline.ΦA spec0 c ⊢ (rd m c).Φ 0 := by
  rw [show (rd m c).Φ 0 = Phi m c 0 (Nat.zero_le _) from rfl, Phi_zero m c 0 _ rfl]
  try exact Idealize.SL.BI.Entails.refl _

/-- After the last point the invariant gives the launch's buffers back, what they hold forgotten. -/
theorem hout (c : Dev nD) : (rd m c).Φ (Fin.last cfg0.N) ⊢ Pipeline.ΦA spec0 c := by
  have hne : (Fin.last cfg0.N).val ≠ 0 := by rw [Fin.val_last, hN5]; omega
  rw [show (rd m c).Φ (Fin.last cfg0.N) = Phi m c (Fin.last cfg0.N).val (Nat.le_of_lt_succ (Fin.last cfg0.N).isLt) from rfl,
    Phi_pos m c _ _ hne, PhiA_eq]
  iintro ⟨⟨⟨%L, -, HS0⟩, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution of @main terminates, and in every final state each windowed array holds contents the relational
    data allows after every write-back, every other unscoped buffer what it held when the region was entered. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c w => by
      show (if (cfg0.win w).isOut then fullShare else (rd m c).q w) = fullShare
      split <;> rfl)
    (howed := fun _ _ => rfl) (V := V m) (hmain := hmain m Variants.none) (hA := A_eq m) (hin := hin m) (hout := hout m)

/-- The argument arrays end as launched: the staged one by the relational post's reading of an input array, the others
    bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Body

end
-- ==== Proof.Final.lean ====
/-
  The result array after the run.

  The result window's staging block is handed from point to point and written back once, after the last point. What a
  point finds there has the class-stream blocks of all earlier points; what the last point leaves is the rescaling of
  a buffer that has all five class-stream blocks by one that has all five detection-stream blocks; and the array the
  run ends with is that block, the write-back covering the whole array.
-/
import proofs.«136734_g55722905698378_cont_9to1_m_658_7_alg».proof.Proof.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

/-- The result window is never fetched. -/
theorem fetch5 : ∀ t : Fin cfg0.N, (cfg0.win 5).fetch t = false :=
  (by decide +kernel : ∀ t : Fin grid0.N, win0_5.fetch t = false)

/-- What a point finds in the result block has the class-stream blocks of all earlier points. -/
theorem finds5_has_aux (c : Dev nD) : ∀ (n : ℕ) (t : Fin cfg0.N), t.val = n → ∀ (Y : Vec F S5000x80 .f32),
    (rd m c).Finds 5 t Y → Has (St.cB m c) t.val Y := by
  intro n
  induction n with
  | zero =>
    intro t ht Y _
    rw [ht]
    exact Has.zero _ _
  | succ n ih =>
    intro t ht Y h
    have hlt : t.val < cfg0.N := t.isLt
    have hN : cfg0.N = 5 := hN5
    have hpos : t.val ≠ 0 := by omega
    rw [(rd m c).finds_of_pos (fetch5 t) hpos] at h
    rcases h with hfl | hL
    · exfalso
      have h4 : (t.val - 1) % 5 = 4 := (flush0_5 _).1 hfl
      omega
    · obtain ⟨Y', hY', hrel⟩ := hL
      have ih' := ih ⟨t.val - 1, Nat.lt_of_le_of_lt (Nat.sub_le _ _) t.isLt⟩ (by show t.val - 1 = n; omega) Y' hY'
      have hrel' : rel5 m c ⟨t.val - 1, Nat.lt_of_le_of_lt (Nat.sub_le _ _) t.isLt⟩ Y' Y := hrel
      unfold rel5 at hrel'
      rw [dif_neg (by show ¬ (t.val - 1 = 4); omega)] at hrel'
      have hs := Has.step ih' hrel'
      have e : t.val - 1 + 1 = t.val := by omega
      rw [← e]
      exact hs

theorem finds5_has (c : Dev nD) (t : Fin cfg0.N) (Y : Vec F S5000x80 .f32) (h : (rd m c).Finds 5 t Y) :
    Has (St.cB m c) t.val Y :=
  finds5_has_aux m c t.val t rfl Y h

/-- What the last point leaves in the result block: the rescaling of a buffer with all five class-stream blocks by
    one with all five detection-stream blocks. -/
theorem leaves5_last (c : Dev nD) (h4 : 4 < cfg0.N) (X : Vec F S5000x80 .f32) (h : (rd m c).Leaves 5 ⟨4, h4⟩ X) :
    ∃ O L : Vec F S5000x80 .f32, Has (St.cB m c) 5 O ∧ Has (St.ldS m c) 5 L ∧ X = St.fin m c h4 O L := by
  obtain ⟨Y, hY, hrel⟩ := h
  have hrel' : rel5 m c ⟨4, h4⟩ Y X := hrel
  unfold rel5 at hrel'
  rw [dif_pos rfl] at hrel'
  obtain ⟨O, L, hO, hL, hX⟩ := hrel'
  exact ⟨O, L, Has.step (finds5_has m c ⟨4, h4⟩ Y hY) hO, hL, hX⟩

/-- The result block sits at the origin of the result array at every point. -/
theorem origin5 : ∀ t : Fin cfg0.N, win0_5.index t (0 : Fin 2) = 0 ∧ win0_5.index t (1 : Fin 2) = 0 :=
  (by decide +kernel : ∀ t : Fin grid0.N, _)

/-- Writing the whole result block back over any contents of the result array leaves the block itself. -/
theorem write5 (c : Dev nD) (t : Fin cfg0.N) (G₀ : Buf (Elt F) ((cfg0.win 5).arr.view.loc (c.tc : Thread nD τ)))
    (X : Vec F S5000x80 .f32) :
    (((cfg0.win 5).blk t).view.write (Elt F) G₀ ((cfg0.win 5).cut (cfg0.grid.coords t) X) Finset.univ : S5000x80.Idx → Elt F .f32) = X := by
  obtain ⟨e0, e1⟩ := origin5 t
  funext i
  have key := View.write_emb_of_mem (v := ((cfg0.win 5).blk t).view) (Val := Elt F) G₀
    ((cfg0.win 5).cut (cfg0.grid.coords t) X)
    (Finset.mem_univ (show ((cfg0.win 5).xblock (cfg0.grid.coords t)).Idx from i))
  have he : ((cfg0.win 5).blk t).view.emb (show ((cfg0.win 5).xblock (cfg0.grid.coords t)).Idx from i) = i := by
    funext a; apply Fin.ext
    match a with
    | ⟨0, _⟩ => show win0_5.index t (0 : Fin 2) * 5000 + 1 * (i 0).val = (i 0).val; omega
    | ⟨1, _⟩ => show win0_5.index t (1 : Fin 2) * 80 + 1 * (i 1).val = (i 1).val; omega
  rw [he] at key
  exact key.trans rfl

/-- The result array after the run: the rescaling of a buffer with all five class-stream blocks by one with all five
    detection-stream blocks. -/
theorem arr5_aux (c : Dev nD) (h4 : 4 < cfg0.N) (G : Buf (Elt F) ((cfg0.win 5).arr.view.loc (c.tc : Thread nD τ)))
    (h : (rd m c).ArrAt 5 5 G) :
    ∃ O L : Vec F S5000x80 .f32, Has (St.cB m c) 5 O ∧ Has (St.ldS m c) 5 L ∧ (G : S5000x80.Idx → Elt F .f32) = St.fin m c h4 O L := by
  have h' : (if hh : 4 < cfg0.N then (if (cfg0.win 5).flush ⟨4, hh⟩ then (rd m c).ArrStep 5 ⟨4, hh⟩ ((rd m c).ArrAt 5 4) else (rd m c).ArrAt 5 4) else (rd m c).ArrAt 5 4) G := h
  rw [dif_pos h4, if_pos ((flush0_5 ⟨4, h4⟩).2 rfl)] at h'
  obtain ⟨G₀, X, hG₀, hL, rfl⟩ := h'
  obtain ⟨O, L, hO, hL', hX⟩ := leaves5_last m c h4 X hL
  refine ⟨O, L, hO, hL', ?_⟩
  rw [← hX]
  exact write5 c ⟨4, h4⟩ G₀ X

theorem arr5_of_eq (c : Dev nD) (h4 : 4 < cfg0.N) (n : ℕ) (hn : n = 5)
    (G : Buf (Elt F) ((cfg0.win 5).arr.view.loc (c.tc : Thread nD τ))) (h : (rd m c).ArrAt 5 n G) :
    ∃ O L : Vec F S5000x80 .f32, Has (St.cB m c) 5 O ∧ Has (St.ldS m c) 5 L ∧ (G : S5000x80.Idx → Elt F .f32) = St.fin m c h4 O L := by
  subst hn
  exact arr5_aux m c h4 G h

theorem arr5 (c : Dev nD) (h4 : 4 < cfg0.N) (G : Buf (Elt F) ((cfg0.win 5).arr.view.loc (c.tc : Thread nD τ)))
    (h : (rd m c).ArrAt 5 cfg0.N G) :
    ∃ O L : Vec F S5000x80 .f32, Has (St.cB m c) 5 O ∧ Has (St.ldS m c) 5 L ∧ (G : S5000x80.Idx → Elt F .f32) = St.fin m c h4 O L :=
  arr5_of_eq m c h4 cfg0.N hN5 G h

end Cert.KernelIdeal.Body

end
-- ==== Proof.RunValue.lean ====
/-
  The kernel's run with its result named.

  After the last write-back the result array is the last point's rescaling of a block O of class-stream softmaxes by the
  detection stream read off a buffer L of detection logits, where O and L hold, block by block, what the five points
  computed; the argument arrays are unchanged.
-/
import proofs.«136734_g55722905698378_cont_9to1_m_658_7_alg».proof.Proof.Oblig
import proofs.«136734_g55722905698378_cont_9to1_m_658_7_alg».proof.Proof.Final

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat RDat Cfg Window cellOf)

variable {F : FTy → Type} [FloatOps F]
variable (m : (ℓ : Loc nD τ sig) → Buf (Elt F) ℓ) (ρ : Dev nD → PrngReg)

/-- The grid has a fifth point. -/
theorem h4 : 4 < cfg0.N := by rw [hN5]; omega

theorem run_value : θ_run defs (onTc (τ := τ) (main (F := F))) ⟨m, fun _ => 0, ρ⟩ (fun r => ∀ c : Dev nD,
      (∃ O L : Vec F S5000x80 .f32, Has (St.cB m c) 5 O ∧ Has (St.ldS m c) 5 L
        ∧ r.2.mem ((c.tc : Thread nD τ).loc main_v0) = St.fin m c h4 O L)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨arr5 m c h4 _ ((h c).1 5),
      (Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Body

end
-- ==== Proof.Claims.lean ====
/-
  The certificate's claims, one by one: each program runs and leaves its arguments as they were; the idealized kernel
  is the kernel's own text; and at the ideal instance the kernel and the reference, run from memories that agree on
  the five arguments, end with one and the same score array.
-/
import proofs.«136734_g55722905698378_cont_9to1_m_658_7_alg».proof.Defs
import proofs.«136734_g55722905698378_cont_9to1_m_658_7_alg».proof.Proof.Gen.KernelIdeal
import proofs.«136734_g55722905698378_cont_9to1_m_658_7_alg».proof.Proof.Gen.ReferenceIdeal
import proofs.«136734_g55722905698378_cont_9to1_m_658_7_alg».proof.Proof.Gen.Pre_finite_inputs
import proofs.«136734_g55722905698378_cont_9to1_m_658_7_alg».proof.Proof.Gen.ReferenceIdeal.Run
import proofs.«136734_g55722905698378_cont_9to1_m_658_7_alg».proof.Proof.Gen.ReferenceIdeal.Read
import proofs.«136734_g55722905698378_cont_9to1_m_658_7_alg».proof.Proof.Spec
import proofs.«136734_g55722905698378_cont_9to1_m_658_7_alg».proof.Proof.Data
import proofs.«136734_g55722905698378_cont_9to1_m_658_7_alg».proof.Proof.Value
import proofs.«136734_g55722905698378_cont_9to1_m_658_7_alg».proof.Proof.Finite
import proofs.«136734_g55722905698378_cont_9to1_m_658_7_alg».proof.Proof.Reference
import proofs.«136734_g55722905698378_cont_9to1_m_658_7_alg».proof.Proof.Oblig
import proofs.«136734_g55722905698378_cont_9to1_m_658_7_alg».proof.Proof.RunValue

noncomputable section

namespace Cert.Proof.Claims

open Idealize.ShloMosaic Idealize.SL.Sem

/-- The idealized kernel runs and leaves its five arguments as they were. -/
theorem frame_ki : Cert.frame_KernelIdeal (hKernelIdeal := Cert.KernelIdeal.Gen.facts)
    (hPre_finite_inputs := Cert.Pre_finite_inputs.Gen.facts) :=
  fun m ρ _ => Cert.KernelIdeal.Body.frame m ρ

/-- The reference runs and leaves its five arguments as they were. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- No operation was rewritten: the idealized kernel is the kernel's own text. -/
theorem preserves : Cert.preserves_Kernel_KernelIdeal := trivial

/-- From memories that agree on the five arguments, all of them finite, the kernel's result block and the reference's
    result are both the score array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Wsddn.scores (Cert.KernelIdeal.Val.A0 m c) (Cert.KernelIdeal.Val.A1 m c)
    (Cert.KernelIdeal.Val.A2 m c) (Cert.KernelIdeal.Val.A3 m c) (Cert.KernelIdeal.Val.A4 m c), ?_, ?_⟩
  · refine (θ_run Cert.KernelIdeal.defs _ _).mono (fun r h c => ?_) (Cert.KernelIdeal.Body.run_value (F := Ideal) m ρ)
    obtain ⟨⟨O, L, hO, hL, hr⟩, hargs⟩ := h c
    refine ⟨hr.trans ?_, hargs⟩
    exact Cert.KernelIdeal.Val.fin_eq m c Cert.KernelIdeal.Body.h4 O L
      (fun t => hO t (lt_of_lt_of_eq t.isLt Cert.KernelIdeal.Body.hN5))
      (fun t => hL t (lt_of_lt_of_eq t.isLt Cert.KernelIdeal.Body.hN5))
      (Cert.KernelIdeal.Fin.finite_of_pre m hpre c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, Cert.ReferenceIdeal.RefValue.ref_scores,
      (hagree c).1, (hagree c).2.1, (hagree c).2.2.1, (hagree c).2.2.2.1, (hagree c).2.2.2.2]

end Cert.Proof.Claims

end
-- ==== Proof.lean ====
/-
  The certificate: the two-stream scoring kernel against its reference.

  Both programs compute, for proposal features x and two linear heads, the product of the softmax of the first head's
  logits over the classes of each proposal and the softmax of the second head's logits over the proposals of each class.
  The reference takes each softmax in one pass. The kernel walks the 5000 proposals in five blocks of 1000 rows: per block
  it writes that block's class softmaxes into its rows of the result, keeps the block's detection logits, and maintains a
  running column maximum together with a running column sum of exponentials rescaled to that maximum; after the last block
  it multiplies the whole result by exp(logit − maximum) / sum. For finite inputs every logit is a real number, the running
  maximum after the last block is the column maximum, and the rescalings telescope, exp(a − m)·exp(m − m') = exp(a − m'), so
  the running sum is the one-pass sum: the two programs' results agree entry by entry on the extended reals.

  Each kernel program's frame is proved from the body's behaviour at every grid point, with the result block's contents
  after a point stated relative to what the point found there; the reference's frame is its run with the result dropped;
  the idealization rewrote nothing.
-/
import proofs.«136734_g55722905698378_cont_9to1_m_658_7_alg».proof.Defs
import proofs.«136734_g55722905698378_cont_9to1_m_658_7_alg».proof.Proof.Gen.Kernel
import proofs.«136734_g55722905698378_cont_9to1_m_658_7_alg».proof.Proof.Gen.KernelIdeal
import proofs.«136734_g55722905698378_cont_9to1_m_658_7_alg».proof.Proof.Gen.ReferenceIdeal
import proofs.«136734_g55722905698378_cont_9to1_m_658_7_alg».proof.Proof.Gen.Pre_finite_inputs
import proofs.«136734_g55722905698378_cont_9to1_m_658_7_alg».proof.Proof.BitsOblig
import proofs.«136734_g55722905698378_cont_9to1_m_658_7_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame m ρ, Cert.Proof.Claims.frame_ki, Cert.Proof.Claims.frame_ri,
    Cert.Proof.Claims.preserves, Cert.Proof.Claims.algebraic⟩

end Cert.Proof

end
